-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x64 : Shape := ⟨2, ![1024, 64]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x4096x1024 .f32) (main_arg1 : FVec F S1024x64 .f32) (main_arg2 : FVec F S1024x64 .f32) (main_arg3 : FVec F S1024x64 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x4096x1024 : Shape := ⟨3, ![8, 4096, 1024]⟩
abbrev S1024x64 : Shape := ⟨2, ![1024, 64]⟩
abbrev S10 : Shape := ⟨1, ![10]⟩
abbrev S1024x192 : Shape := ⟨2, ![1024, 192]⟩
abbrev S8x4096x64 : Shape := ⟨3, ![8, 4096, 64]⟩
abbrev S1x2048x1024 : Shape := ⟨3, ![1, 2048, 1024]⟩
abbrev S1x2048x64 : Shape := ⟨3, ![1, 2048, 64]⟩
abbrev S2048x1024 : Shape := ⟨2, ![2048, 1024]⟩
abbrev S2048x192 : Shape := ⟨2, ![2048, 192]⟩
abbrev S2048x64 : Shape := ⟨2, ![2048, 64]⟩
abbrev S1x1024x64 : Shape := ⟨3, ![1, 1024, 64]⟩
abbrev S1 : Shape := ⟨1, ![1]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 9
  | .vmem => 20
  | .smem => 4
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8x4096x64, .bf16⟩
  | .hbm, ⟨6, _⟩ => ⟨S8x4096x64, .bf16⟩
  | .hbm, ⟨7, _⟩ => ⟨S8x4096x64, .bf16⟩
  | .hbm, ⟨8, _⟩ => ⟨S8x4096x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x192, .f32⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .f32⟩
  | .local _ .vmem, ⟨16, _⟩ => ⟨S1x1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .smem, ⟨0, _⟩ => ⟨S10, .i32⟩
  | .local _ .smem, ⟨1, _⟩ => ⟨S10, .i32⟩
  | .local _ .smem, ⟨2, _⟩ => ⟨S10, .i32⟩
  | .local _ .smem, ⟨3, _⟩ => ⟨S10, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 10], ![false, false]⟩

abbrev pre1 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v8 : BitVec 32) : BitVec 1 :=
  let c0_i32_0 : BitVec 32 := 0#32
  let v9 : BitVec 1 := Scalar.cmpi .ne v8 c0_i32_0
  let v62 : BitVec 32 := Scalar.extui v9
  let c0_i32_28 : BitVec 32 := 0#32
  let v63 : BitVec 1 := Scalar.cmpi .ne v62 c0_i32_28
  v63

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x64_S1024x64_S1024x64_S1024x192_d1 : Shape.Concatenates [S1024x64, S1024x64, S1024x64] S1024x192 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  slices_S2048x192_o0_64_S2048x64 : S2048x192.Slices ![0, 64] S2048x64
  slices_S2048x192_o0_128_S2048x64 : S2048x192.Slices ![0, 128] S2048x64
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S2048x1024_S1024x192_S2048x192_1_0_0_1_n_n_wf : DotDims.WF S2048x1024 S1024x192 S2048x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x4096x64.size a
  hwx0_2 : ∀ i : grid0.Coords, EltTy.bits .bf16 = 32 ∨ (Rect.block (s := S8x4096x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x4096x64.size a
  hwx0_3 : ∀ i : grid0.Coords, EltTy.bits .bf16 = 32 ∨ (Rect.block (s := S8x4096x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x4096x64.size a
  hwx0_4 : ∀ i : grid0.Coords, EltTy.bits .bf16 = 32 ∨ (Rect.block (s := S8x4096x64) S1x2048x64.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v1_0) S1x1024x64.size reads1_0 false false 2 stage1_0 sem1_0 nbuf1_0 hstage1_0

abbrev spec1_1 : Pipeline.WinSpec sig grid1.rank :=
  Pipeline.WinSpec.ofSpec (Memref.whole main_v1_1) S1x1024x64.size reads1_1 false false 2 stage1_1 sem1_1 nbuf1_1 hstage1_1

abbrev spec1_2 : Pipeline.WinSpec sig grid1.rank :=
  Pipeline.WinSpec.ofSpec (Memref.whole main_v1_2) S1x1024x64.size reads1_2 false false 2 stage1_2 sem1_2 nbuf1_2 hstage1_2

abbrev spec1_3 : Pipeline.WinSpec sig grid1.rank :=
  Pipeline.WinSpec.ofSpec (Memref.whole main_v2) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S8x4096x64.size a), EltTy.bits .bf16 = 32 ∨ (Rect.block (s := S8x4096x64) S1x1024x64.size (cc1_transform_0 k1_off1_inb numel1_S1 pf i) h).WholeWords (EltTy.packing .bf16)) ∧
  (∀ i : grid1.Coords, ∃ h : (∀ a, (cc1_transform_1 k1_off1_inb numel1_S1 pf i a + 1) * S1x1024x64.size a ≤ S8x4096x64.size a), EltTy.bits .bf16 = 32 ∨ (Rect.block (s := S8x4096x64) S1x1024x64.size (cc1_transform_1 k1_off1_inb numel1_S1 pf i) h).WholeWords (EltTy.packing .bf16)) ∧
  (∀ i : grid1.Coords, ∃ h : (∀ a, (cc1_transform_2 k1_off1_inb numel1_S1 pf i a + 1) * S1x1024x64.size a ≤ S8x4096x64.size a), EltTy.bits .bf16 = 32 ∨ (Rect.block (s := S8x4096x64) S1x1024x64.size (cc1_transform_2 k1_off1_inb numel1_S1 pf i) h).WholeWords (EltTy.packing .bf16)) ∧
  (∀ i : grid1.Coords, ∃ h : (∀ a, (cc1_transform_3 k1_off1_inb numel1_S1 pf i a + 1) * S1x1024x64.size a ≤ S8x4096x64.size a), EltTy.bits .f32 = 32 ∨ (Rect.block (s := S8x4096x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 3 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8x4096x1024 : Shape := ⟨3, ![8, 4096, 1024]⟩
abbrev S1024x64 : Shape := ⟨2, ![1024, 64]⟩
abbrev S8x4096x64 : Shape := ⟨3, ![8, 4096, 64]⟩
abbrev S8x4096x4096 : Shape := ⟨3, ![8, 4096, 4096]⟩
abbrev S_ : Shape := ⟨0, ![]⟩
abbrev S4096x4096 : Shape := ⟨2, ![4096, 4096]⟩
abbrev S8x4096 : Shape := ⟨2, ![8, 4096]⟩
abbrev S8x4096x1 : Shape := ⟨3, ![8, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S8x4096x4096_1_2 : S4096x4096.BroadcastsInDim S8x4096x4096 (![1, 2] : Fin 2 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x1024_S1024x64_S8x4096x64_2_0_01_1_n_n_wf : DotDims.WF S8x4096x1024 S1024x64 S8x4096x64 [2] [0] [0, 1] [1] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x1024_S1024x64_S8x4096x64_2_0_01_1_n_n : DotDims S8x4096x1024 S1024x64 S8x4096x64 where
  lhsContracting := [2]
  rhsContracting := [0]
  lhsNonContracting := [0, 1]
  rhsNonContracting := [1]
  lhsBatch := []
  rhsBatch := []
  wf := dot_S8x4096x1024_S1024x64_S8x4096x64_2_0_01_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.R1Sched.lean ====
/-
  The attention kernel (the second pallas_call) visits, per batch row, the ten lower-triangular (query tile, key tile)
  pairs listed in four constant tables of ten words: the query tile, the key tile, "first pair of its query tile"
  and "last pair of its query tile". This module fixes the tables' contents, shows they are admissible for the
  pipeline (every block they name lies inside its array), and reads the schedule they induce: which blocks each
  window holds at each of the 8 × 10 points, and that the output block is written back exactly at the points
  flagged "last".
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four tables' contents. -/
def litTbl : pre1.Contents (Elt F) := fun
  | 0 => fun i => lit0 (S10.rowMajor i)
  | 1 => fun i => lit1 (S10.rowMajor i)
  | 2 => fun i => lit2 (S10.rowMajor i)
  | 3 => fun i => lit3 (S10.rowMajor i)
  | ⟨_ + 4, h⟩ => absurd h (Nat.not_lt.2 (Nat.le_add_left _ _))

/-- The table entry the index maps and the body read at grid coordinates `i`: the unit rectangle's one
    multi-index, in row-major order. -/
def tblIdx (i : grid1.Coords) : Fin 10 :=
  S10.rowMajor ((Rect.unit (s := S10) (k1_off1 i) S1.size (k1_off1_inb i)).emb (Shape.Idx.first (numel1_S1.symm ▸ Nat.one_pos)))

/-- It is the second grid coordinate. -/
theorem tblIdx_val : ∀ i : grid1.Coords, (tblIdx i).val = (i 1).val := by decide +kernel

/-- The index maps at the literal tables: (batch row, the table's word at the pair, 0). -/
theorem transform0_lit (i : grid1.Coords) : cc1_transform_0 k1_off1_inb numel1_S1 (litTbl (F := F)) i
    = ![(BitVec.ofNat 32 (i 0).val).toNat, (lit0 (tblIdx i)).toNat, 0] := rfl
theorem transform1_lit (i : grid1.Coords) : cc1_transform_1 k1_off1_inb numel1_S1 (litTbl (F := F)) i
    = ![(BitVec.ofNat 32 (i 0).val).toNat, (lit1 (tblIdx i)).toNat, 0] := rfl
theorem transform2_lit (i : grid1.Coords) : cc1_transform_2 k1_off1_inb numel1_S1 (litTbl (F := F)) i
    = ![(BitVec.ofNat 32 (i 0).val).toNat, (lit1 (tblIdx i)).toNat, 0] := rfl
theorem transform3_lit (i : grid1.Coords) : cc1_transform_3 k1_off1_inb numel1_S1 (litTbl (F := F)) i
    = ![(BitVec.ofNat 32 (i 0).val).toNat, (lit0 (tblIdx i)).toNat, 0] := rfl

/-- Every query tile and every key tile named is one of the four tiles of a batch row, and the batch row one of eight. -/
theorem inb_lit0 : ∀ (i : grid1.Coords) (a : Fin 3),
    ((![(BitVec.ofNat 32 (i 0).val).toNat, (lit0 (tblIdx i)).toNat, 0] : Fin 3 → Nat) a + 1) * S1x1024x64.size a ≤ S8x4096x64.size a := by
  decide +kernel
theorem inb_lit1 : ∀ (i : grid1.Coords) (a : Fin 3),
    ((![(BitVec.ofNat 32 (i 0).val).toNat, (lit1 (tblIdx i)).toNat, 0] : Fin 3 → Nat) a + 1) * S1x1024x64.size a ≤ S8x4096x64.size a := by
  decide +kernel

/-- Every block the tables name lies inside its array, with word-exact ends. -/
theorem ok_lit : ok1 (F := F) (litTbl (F := F)) := by
  refine ⟨fun i => ⟨?_, ?_⟩, fun i => ⟨?_, ?_⟩, fun i => ⟨?_, ?_⟩, fun i => ⟨?_, ?_⟩⟩
  · rw [transform0_lit]; exact inb_lit0 i
  · exact .inr (Affine.block_words_dvd (of_decide_eq_true rfl) (by decide))
  · rw [transform1_lit]; exact inb_lit1 i
  · exact .inr (Affine.block_words_dvd (of_decide_eq_true rfl) (by decide))
  · rw [transform2_lit]; exact inb_lit1 i
  · exact .inr (Affine.block_words_dvd (of_decide_eq_true rfl) (by decide))
  · rw [transform3_lit]; exact inb_lit0 i
  · exact .inl rfl

/-- The tables as admissible contents, and the pipeline at them. -/
abbrev admL : (pcfg1 (F := F)).Adm := ⟨litTbl, ok_lit⟩
abbrev cfgL : Pipeline.Cfg sig Λ₀ := cfg1 (admL (F := F))

theorem N_L : (cfgL (F := F)).N = 80 := N_1

/-- Point `t` is batch row `t / 10`, pair `t % 10`. -/
theorem coords_L (t : Fin (cfgL (F := F)).N) :
    (((cfgL (F := F)).grid.coords t) 0).val = t.val / 10 ∧ (((cfgL (F := F)).grid.coords t) 1).val = t.val % 10 := by
  revert t
  show ∀ t : Fin grid1.N, ((grid1.coords t) 0).val = t.val / 10 ∧ ((grid1.coords t) 1).val = t.val % 10
  decide +kernel

/-- The pair number of a point, as an index of the tables. -/
def pairOf (t : Fin (cfgL (F := F)).N) : Fin 10 := ⟨t.val % 10, Nat.mod_lt _ (by decide)⟩

/-- Each table as the body is handed it. -/
abbrev tbM0 : Memref sig .tc .smem S10 .i32 := Memref.whole main_c
abbrev tbM1 : Memref sig .tc .smem S10 .i32 := Memref.whole main_c_0
abbrev tbM2 : Memref sig .tc .smem S10 .i32 := Memref.whole main_c_1
abbrev tbM3 : Memref sig .tc .smem S10 .i32 := Memref.whole main_c_2
abbrev TbBuf (c : Dev nD) (M : Memref sig .tc .smem S10 .i32) : Type := Buf (Elt F) (M.view.loc (c : Thread nD τ))
/-- A table held whole. -/
abbrev tbPt (c : Dev nD) (M : Memref sig .tc .smem S10 .i32) (f : TbBuf (F := F) c M) : sProp 𝕄 :=
  M.view.loc (c : Thread nD τ) ↦{fullShare} f

/-- The word the body loads from a table at grid coordinates `i`. -/
abbrev wordAt (c : Dev nD) (M : Memref sig .tc .smem S10 .i32) (f : TbBuf (F := F) c M) (i : grid1.Coords) : Elt F .i32 :=
  M.view.readAt (Elt F) (Rect.unit (s := S10) (k1_off1 i) S1.size (k1_off1_inb i)).toLoadRect f (Shape.Idx.first (numel1_S1.symm ▸ Nat.one_pos))

/-- The table entry read at point `t` is the point's pair. -/
theorem tblIdx_coords (t : Fin (cfgL (F := F)).N) : tblIdx ((cfgL (F := F)).grid.coords t) = pairOf t :=
  Fin.ext ((tblIdx_val _).trans (coords_L t).2)

/-- The words the body loads at point `t` are the tables' entries at the point's pair. -/
theorem word0_L (c : Dev nD) (t : Fin (cfgL (F := F)).N) :
    wordAt (F := F) c tbM0 (litTbl (F := F) 0) ((cfgL (F := F)).grid.coords t) = lit0 (pairOf t) := by
  show lit0 (tblIdx ((cfgL (F := F)).grid.coords t)) = _
  rw [tblIdx_coords]
theorem word1_L (c : Dev nD) (t : Fin (cfgL (F := F)).N) :
    wordAt (F := F) c tbM1 (litTbl (F := F) 1) ((cfgL (F := F)).grid.coords t) = lit1 (pairOf t) := by
  show lit1 (tblIdx ((cfgL (F := F)).grid.coords t)) = _
  rw [tblIdx_coords]
theorem word2_L (c : Dev nD) (t : Fin (cfgL (F := F)).N) :
    wordAt (F := F) c tbM2 (litTbl (F := F) 2) ((cfgL (F := F)).grid.coords t) = lit2 (pairOf t) := by
  show lit2 (tblIdx ((cfgL (F := F)).grid.coords t)) = _
  rw [tblIdx_coords]
theorem word3_L (c : Dev nD) (t : Fin (cfgL (F := F)).N) :
    wordAt (F := F) c tbM3 (litTbl (F := F) 3) ((cfgL (F := F)).grid.coords t) = lit3 (pairOf t) := by
  show lit3 (tblIdx ((cfgL (F := F)).grid.coords t)) = _
  rw [tblIdx_coords]

/-- A point's number is below 80, so its batch row is a word's value. -/
theorem row_word (t : Fin (cfgL (F := F)).N) : (BitVec.ofNat 32 (t.val / 10)).toNat = t.val / 10 := by
  have h : t.val < 80 := Nat.lt_of_lt_of_eq t.isLt N_L
  rw [BitVec.toNat_ofNat]; exact Nat.mod_eq_of_lt (by omega)

/-- The block index of each window at point `t`: (batch row, query or key tile, 0). -/
theorem index0_L (t : Fin (cfgL (F := F)).N) : ((cfgL (F := F)).win 0).index t = ![t.val / 10, (lit0 (pairOf t)).toNat, 0] := by
  show (![(BitVec.ofNat 32 (((cfgL (F := F)).grid.coords t) 0).val).toNat, (lit0 (tblIdx ((cfgL (F := F)).grid.coords t))).toNat, 0] : Fin 3 → Nat) = _
  rw [tblIdx_coords, (coords_L t).1, row_word]
theorem index1_L (t : Fin (cfgL (F := F)).N) : ((cfgL (F := F)).win 1).index t = ![t.val / 10, (lit1 (pairOf t)).toNat, 0] := by
  show (![(BitVec.ofNat 32 (((cfgL (F := F)).grid.coords t) 0).val).toNat, (lit1 (tblIdx ((cfgL (F := F)).grid.coords t))).toNat, 0] : Fin 3 → Nat) = _
  rw [tblIdx_coords, (coords_L t).1, row_word]
theorem index2_L (t : Fin (cfgL (F := F)).N) : ((cfgL (F := F)).win 2).index t = ![t.val / 10, (lit1 (pairOf t)).toNat, 0] := by
  show (![(BitVec.ofNat 32 (((cfgL (F := F)).grid.coords t) 0).val).toNat, (lit1 (tblIdx ((cfgL (F := F)).grid.coords t))).toNat, 0] : Fin 3 → Nat) = _
  rw [tblIdx_coords, (coords_L t).1, row_word]
theorem index3_L (t : Fin (cfgL (F := F)).N) : ((cfgL (F := F)).win 3).index t = ![t.val / 10, (lit0 (pairOf t)).toNat, 0] := by
  show (![(BitVec.ofNat 32 (((cfgL (F := F)).grid.coords t) 0).val).toNat, (lit0 (tblIdx ((cfgL (F := F)).grid.coords t))).toNat, 0] : Fin 3 → Nat) = _
  rw [tblIdx_coords, (coords_L t).1, row_word]

/-- The condition the body stores the output under, at the "last" flag's two values: the flag is one. -/
theorem cond2_lit3 : ∀ j : Fin 10, (k1_cond2 (lit3 j) == 1#1) = (lit3 j == 1#32) := by decide

/-- The table's offsets at every point are inside the table, -/
theorem off_inb1 : ∀ (i : grid1.Coords) (a : Fin 1), k1_off1 i a + 1 ≤ S10.size a := by decide +kernel
/-- and name the entry at the second grid coordinate. -/
theorem tblIdxD_val : ∀ (i : grid1.Coords) (h : ∀ a, k1_off1 i a + 1 ≤ S10.size a),
    (S10.rowMajor (fun a => ⟨k1_off1 i a, h a⟩)).val = (i 1).val := by decide +kernel

/-- The "last" table read at the body's offsets is its entry at the point's pair. -/
theorem atD3_lit (i : grid1.Coords) : (litTbl (F := F)).atD 3 (k1_off1 i) = lit3 (tblIdx i) := by
  show (if h : ∀ a : Fin 1, k1_off1 i a + 1 ≤ S10.size a then lit3 (S10.rowMajor fun a => ⟨k1_off1 i a, h a⟩) else default) = _
  rw [dif_pos (off_inb1 i)]
  exact congrArg lit3 (Fin.ext ((tblIdxD_val i _).trans (tblIdx_val i).symm))

/-- The output window is idle exactly at the points not flagged "last", -/
theorem idle3_L (t : Fin (cfgL (F := F)).N) :
    (cfgL (F := F)).idle 3 ((cfgL (F := F)).grid.coords t) = !(lit3 (pairOf t) == 1#32) := by
  show (!(k1_cond2 ((litTbl (F := F)).atD 3 (k1_off1 ((cfgL (F := F)).grid.coords t))) == 1#1)) = _
  rw [atD3_lit, tblIdx_coords, cond2_lit3]

/-- No input window is ever idle. -/
theorem idle1_in : ∀ w : Fin 4, w ≠ 3 → ∀ i : grid1.Coords, idle1 (litTbl (F := F)) w i = false
  | 0, _, _ => rfl
  | 1, _, _ => rfl
  | 2, _, _ => rfl
  | 3, hw, _ => absurd rfl hw
/-- the other windows never, -/
theorem idle_in_L (w : Fin (cfgL (F := F)).W) (hw : w ≠ 3) (i : (cfgL (F := F)).grid.Coords) : (cfgL (F := F)).idle w i = false :=
  idle1_in w hw i

/-- The output block of point number `n`: (batch row, query tile, 0). -/
def tile3 (n : Nat) : Fin 3 → Nat := ![n / 10, (lit0 ⟨n % 10, Nat.mod_lt _ (by decide)⟩).toNat, 0]

theorem index3_tile (t : Fin (cfgL (F := F)).N) : ((cfgL (F := F)).win 3).index t = tile3 t.val := index3_L t

/-- Along the 80 points the output block changes after a point, or the point is the last one, exactly where the
    point's pair is flagged "last": the pair after a flagged one starts the next query tile or the next batch row,
    the pair after an unflagged one keeps both. -/
theorem flush_fact : ∀ t : Fin 80,
    (decide (t.val + 1 = 80) || decide (∃ h : t.val + 1 < 80, tile3 (t.val + 1) ≠ tile3 t.val))
      = (lit3 ⟨t.val % 10, Nat.mod_lt _ (by decide)⟩ == 1#32) := by decide +kernel

/-- and the output block is written back exactly at the points flagged "last". -/
theorem flush3_L (t : Fin (cfgL (F := F)).N) : ((cfgL (F := F)).win 3).flush t = (lit3 (pairOf t) == 1#32) := by
  have ht : t.val < 80 := Nat.lt_of_lt_of_eq t.isLt N_L
  have key : ∀ h : t.val + 1 < 80, (((cfgL (F := F)).win 3).index ⟨t.val + 1, h⟩ ≠ ((cfgL (F := F)).win 3).index t)
      ↔ (tile3 (t.val + 1) ≠ tile3 t.val) := fun h => by
    rw [index3_tile, index3_tile]
    exact Iff.rfl
  have e : ((cfgL (F := F)).win 3).flush t
      = (decide (t.val + 1 = 80) || decide (∃ h : t.val + 1 < 80, tile3 (t.val + 1) ≠ tile3 t.val)) := by
    unfold Window.flush
    show (true && (decide (t.val + 1 = 80) || decide (∃ h : t.val + 1 < 80,
      ((cfgL (F := F)).win 3).index ⟨t.val + 1, h⟩ ≠ ((cfgL (F := F)).win 3).index t))) = _
    rw [Bool.true_and]
    congr 1
    exact decide_eq_decide.2 (exists_congr key)
  rw [e]
  exact flush_fact ⟨t.val, ht⟩

end Cert.KernelIdeal.Hand

end
-- ==== Proof.R0Body.lean ====
/-
  The projection kernel (the first pallas_call): what each point of its 8 × 2 grid leaves in the three output
  blocks, as functions of the point's block of `x` and of the whole weight matrix, and the proof that the kernel
  body run on the staging buffers leaves exactly that.
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section R0

-- the contents of the unscoped buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1x2048x1024 := Rect.unit (s := S1x2048x1024) ![0, 0, 0] S1x2048x1024.size inb_S1x2048x1024_S1x2048x1024_0_0_0
abbrev rW : Rect S1024x192 := Rect.unit (s := S1024x192) ![0, 0] S1024x192.size inb_S1024x192_S1024x192_0_0
abbrev rO : Rect S1x2048x64 := Rect.unit (s := S1x2048x64) ![0, 0, 0] S1x2048x64.size inb_S1x2048x64_S1x2048x64_0_0_0

/-- What the body leaves in the query, key and value output buffers, from the block of `x` and the weights. -/
def outQ (x0 : Vec F S1x2048x1024 .f32) (x1 : Vec F S1024x192 .f32) : Vec F S1x2048x64 .bf16 :=
  View.canon [⟨rO, k0_pay2 (View.ld x0 rX) (View.ld x1 rW)⟩]
def outK (x0 : Vec F S1x2048x1024 .f32) (x1 : Vec F S1024x192 .f32) : Vec F S1x2048x64 .bf16 :=
  View.canon [⟨rO, k0_pay3 (View.ld x0 rX) (View.ld x1 rW)⟩]
def outV (x0 : Vec F S1x2048x1024 .f32) (x1 : Vec F S1024x192 .f32) : Vec F S1x2048x64 .bf16 :=
  View.canon [⟨rO, k0_pay4 (View.ld x0 rX) (View.ld x1 rW)⟩]

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outQ (iblk0 V c 0 t) (iblk0 V c 1 t)
    | ⟨3, _⟩ => outK (iblk0 V c 0 t) (iblk0 V c 1 t)
    | ⟨4, _⟩ => outV (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outQ (iblk0 V c 0 t) (iblk0 V c 1 t) := by dsimp only [dat0]
theorem after0_3 (c : Dev nD) (t : Fin cfg0.N) : (dat0 V c).after 3 t = outK (iblk0 V c 0 t) (iblk0 V c 1 t) := by dsimp only [dat0]
theorem after0_4 (c : Dev nD) (t : Fin cfg0.N) : (dat0 V c).after 4 t = outV (iblk0 V c 0 t) (iblk0 V c 1 t) := by dsimp only [dat0]

/-- An input window's current staging buffer holds its block at every point, fetched there or not: where it is
    not fetched its index has not moved since the fetch, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The one whole-block store of an output covers its buffer. -/
theorem coverO (p0 : Vec F S1x2048x64 .bf16) (y : S1x2048x64.Idx) :
    ∃ pc ∈ ([⟨rO, p0⟩] : List (View.Piece (Elt F) S1x2048x64 .bf16)), y ∈ pc.1.set :=
  View.cover_of_tiled [⟨rO, p0⟩] S1x2048x64.size (by rfl) y

set_option maxHeartbeats 1000000 in
/-- The kernel body on whole staging memrefs: with the block of `x` and the weights in the two input buffers and
    anything in the three output buffers, it runs to the continuation holding the inputs as they were and the
    outputs at `outQ`, `outK`, `outV` of the inputs. Each output buffer is read once before it is overwritten;
    the value read is not used. -/
theorem sound_kernel0 (c : Dev nD) (E : Set ℕ) (i : grid0.Coords)
    (arg2 : Memref sig .tc .vmem S1x2048x1024 .f32) (harg2 : arg2.IsWhole)
    (arg3 : Memref sig .tc .vmem S1024x192 .f32) (harg3 : arg3.IsWhole)
    (arg4 : Memref sig .tc .vmem S1x2048x64 .bf16) (harg4 : arg4.IsWhole)
    (arg5 : Memref sig .tc .vmem S1x2048x64 .bf16) (harg5 : arg5.IsWhole)
    (arg6 : Memref sig .tc .vmem S1x2048x64 .bf16) (harg6 : arg6.IsWhole)
    (x0 : Vec F S1x2048x1024 .f32) (x1 : Vec F S1024x192 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (outQ x0 x1) ∗ owns (c : Thread nD τ) arg5 fullShare (outK x0 x1)
            ∗ owns (c : Thread nD τ) arg6 fullShare (outV x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end R0

end Cert.KernelIdeal.Hand

end
-- ==== Proof.R1Body.lean ====
/-
  The attention kernel's body at one point of its grid, as pure functions of what it finds: the query, key and value
  blocks, the pair's four table words, and the running maximum, running sum of weights and running weighted sum it
  carries in three scratch buffers from one pair of a query tile to the next. A pair flagged "first" resets the three
  before use; a pair flagged "last" also writes the quotient into the output block. The module states what the
  scratch buffers hold after each point (by recursion on the point), the pipeline's proof data over it, and proves
  that the kernel body run on the staging buffers, tables and scratch does exactly that.
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import proofs.«402720_j7730941132963_3_alg».proof.Proof.R1Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One pair's update, as the body computes it -/

/-- The "first pair" and "last pair" tests the body makes of the flag words. -/
def isFirst (w2 : BitVec 32) : Prop := Scalar.cmpi .ne (Scalar.extui (Scalar.cmpi .ne w2 0#32)) 0#32 = 1#1
instance (w2 : BitVec 32) : Decidable (isFirst w2) := by unfold isFirst; infer_instance
def isLast (w3 : BitVec 32) : Prop := k1_cond2 w3 = 1#1
instance (w3 : BitVec 32) : Decidable (isLast w3) := by unfold isLast; infer_instance

section Step

variable (w0 w1 w2 : BitVec 32) (xq xk xv : Vec F S1x1024x64 .bf16)

/-- What the update starts from: the reset values at a first pair, else what the scratch held. -/
def mIn (m : Vec F S1024x1 .f32) : Vec F S1024x1 .f32 := if isFirst w2 then k1_pay7 else m
def lIn (l : Vec F S1024x1 .f32) : Vec F S1024x1 .f32 := if isFirst w2 then k1_pay8 else l
def aIn (a : Vec F S1024x64 .f32) : Vec F S1024x64 .f32 := if isFirst w2 then k1_pay9 else a

/-- The running maximum, sum of weights and weighted sum after the pair. -/
def mOut (m : Vec F S1024x1 .f32) : Vec F S1024x1 .f32 := k1_pay5 (k1_pay12 w0 w1 xq xk (mIn w2 m))
def lOut (m l : Vec F S1024x1 .f32) : Vec F S1024x1 .f32 :=
  k1_pay3 (k1_pay11 w0 w1 xq xk) (mIn w2 m) (k1_pay12 w0 w1 xq xk (mIn w2 m)) (lIn w2 l)
def aOut (m : Vec F S1024x1 .f32) (a : Vec F S1024x64 .f32) : Vec F S1024x64 .f32 :=
  k1_pay4 (k1_pay10 xv) (k1_pay11 w0 w1 xq xk) (mIn w2 m) (k1_pay12 w0 w1 xq xk (mIn w2 m)) (aIn w2 a)
/-- The output block a last pair writes: the weighted sum over the guarded sum of weights. -/
def oOut (m l : Vec F S1024x1 .f32) (a : Vec F S1024x64 .f32) : Vec F S1x1024x64 .f32 :=
  k1_pay6 (lOut w0 w1 w2 xq xk m l) (aOut w0 w1 w2 xq xk xv m a)

end Step

/-! ## Reading back a whole-buffer store -/

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

/-- A buffer whose latest store covers it whole holds that store's value, whatever came before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon v f _ (fun y => ⟨_, List.mem_cons_self, by
    show y ∈ (Rect.whole S).set; rw [Rect.set_whole]; exact Finset.mem_univ y⟩)]
  exact View.canon_cons_unit_zero rfl _ w L

/-- A whole-buffer load after such a store reads the stored value. -/
theorem readCov_cons_whole {κ : Kind} {sp : Space} {S : Shape} {e : EltTy} (v : View sig κ sp S e)
    {off : Fin S.rank → Nat} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The body's triple

On whole memrefs — the three input blocks, the output block, the three scratch buffers — and the four tables held whole:
the body leaves the inputs and the tables as they were, the scratch at the pair's update, and the output block at the
quotient if the pair is a last one, untouched otherwise. One run per way the two flag tests fall out. -/

set_option maxHeartbeats 4000000 in
theorem run_TT (c : Dev nD) (E : Set ℕ) (i : grid1.Coords)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole) (arg9 : Memref sig .tc .vmem S1x1024x64 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x64 .f32) (harg12 : arg12.IsWhole)
    (xq xk xv : Vec F S1x1024x64 .bf16) (xo : Vec F S1x1024x64 .f32) (m0 l0 : Vec F S1024x1 .f32) (a0 : Vec F S1024x64 .f32)
    (t0 : TbBuf (F := F) c tbM0) (t1 : TbBuf (F := F) c tbM1) (t2 : TbBuf (F := F) c tbM2) (t3 : TbBuf (F := F) c tbM3)
    (hF : isFirst (wordAt c tbM2 t2 i)) (hL : isLast (wordAt c tbM3 t3 i))
    (K : PUnit → sProp 𝕄) :
    iprop(owns (c : Thread nD τ) arg6 fullShare xq ∗ owns (c : Thread nD τ) arg7 fullShare xk ∗ owns (c : Thread nD τ) arg8 fullShare xv
        ∗ owns (c : Thread nD τ) arg9 fullShare xo
        ∗ owns (c : Thread nD τ) arg10 fullShare m0 ∗ owns (c : Thread nD τ) arg11 fullShare l0 ∗ owns (c : Thread nD τ) arg12 fullShare a0
        ∗ tbPt c tbM0 t0 ∗ tbPt c tbM1 t1 ∗ tbPt c tbM2 t2 ∗ tbPt c tbM3 t3
        ∗ (iprop(owns (c : Thread nD τ) arg6 fullShare xq ∗ owns (c : Thread nD τ) arg7 fullShare xk ∗ owns (c : Thread nD τ) arg8 fullShare xv
            ∗ owns (c : Thread nD τ) arg9 fullShare (if isLast (wordAt c tbM3 t3 i) then
                oOut (wordAt c tbM0 t0 i) (wordAt c tbM1 t1 i) (wordAt c tbM2 t2 i) xq xk xv m0 l0 a0 else xo)
            ∗ owns (c : Thread nD τ) arg10 fullShare (mOut (wordAt c tbM0 t0 i) (wordAt c tbM1 t1 i) (wordAt c tbM2 t2 i) xq xk m0)
            ∗ owns (c : Thread nD τ) arg11 fullShare (lOut (wordAt c tbM0 t0 i) (wordAt c tbM1 t1 i) (wordAt c tbM2 t2 i) xq xk m0 l0)
            ∗ owns (c : Thread nD τ) arg12 fullShare (aOut (wordAt c tbM0 t0 i) (wordAt c tbM1 t1 i) (wordAt c tbM2 t2 i) xq xk xv m0 a0)
            ∗ tbPt c tbM0 t0 ∗ tbPt c tbM1 t1 ∗ tbPt c tbM2 t2 ∗ tbPt c tbM3 t3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  have hF' : (Scalar.cmpi .ne (Scalar.extui (Scalar.cmpi .ne (wordAt c tbM2 t2 i) 0#32)) 0#32 = 1#1) := hF
  have hL' : (k1_cond2 (wordAt c tbM3 t3 i) = 1#1) := hL
  sl_exec (disch := first | sl_exact hF' | sl_exact hL')
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [if_pos hL]
    refine (read_writes_whole _ _ hz3 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold oOut lOut aOut mIn lIn aIn
    rw [if_pos hF, if_pos hF, if_pos hF]
    rfl
  isplitl [H10]
  · iexists _; isplitr
    swap; · iexact H10
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold mOut mIn
    rw [if_pos hF]
    rfl
  isplitl [H11]
  · iexists _; isplitr
    swap; · iexact H11
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold lOut mIn lIn
    rw [if_pos hF, if_pos hF]
    rfl
  isplitl [H12]
  · iexists _; isplitr
    swap; · iexact H12
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold aOut mIn aIn
    rw [if_pos hF, if_pos hF]
    rfl
  isplitl [HT0]; · iexact HT0
  isplitl [HT1]; · iexact HT1
  isplitl [HT2]; · iexact HT2
  iexact HT3

set_option maxHeartbeats 4000000 in
theorem run_TF (c : Dev nD) (E : Set ℕ) (i : grid1.Coords)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole) (arg9 : Memref sig .tc .vmem S1x1024x64 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x64 .f32) (harg12 : arg12.IsWhole)
    (xq xk xv : Vec F S1x1024x64 .bf16) (xo : Vec F S1x1024x64 .f32) (m0 l0 : Vec F S1024x1 .f32) (a0 : Vec F S1024x64 .f32)
    (t0 : TbBuf (F := F) c tbM0) (t1 : TbBuf (F := F) c tbM1) (t2 : TbBuf (F := F) c tbM2) (t3 : TbBuf (F := F) c tbM3)
    (hF : isFirst (wordAt c tbM2 t2 i)) (hL : ¬ isLast (wordAt c tbM3 t3 i))
    (K : PUnit → sProp 𝕄) :
    iprop(owns (c : Thread nD τ) arg6 fullShare xq ∗ owns (c : Thread nD τ) arg7 fullShare xk ∗ owns (c : Thread nD τ) arg8 fullShare xv
        ∗ owns (c : Thread nD τ) arg9 fullShare xo
        ∗ owns (c : Thread nD τ) arg10 fullShare m0 ∗ owns (c : Thread nD τ) arg11 fullShare l0 ∗ owns (c : Thread nD τ) arg12 fullShare a0
        ∗ tbPt c tbM0 t0 ∗ tbPt c tbM1 t1 ∗ tbPt c tbM2 t2 ∗ tbPt c tbM3 t3
        ∗ (iprop(owns (c : Thread nD τ) arg6 fullShare xq ∗ owns (c : Thread nD τ) arg7 fullShare xk ∗ owns (c : Thread nD τ) arg8 fullShare xv
            ∗ owns (c : Thread nD τ) arg9 fullShare (if isLast (wordAt c tbM3 t3 i) then
                oOut (wordAt c tbM0 t0 i) (wordAt c tbM1 t1 i) (wordAt c tbM2 t2 i) xq xk xv m0 l0 a0 else xo)
            ∗ owns (c : Thread nD τ) arg10 fullShare (mOut (wordAt c tbM0 t0 i) (wordAt c tbM1 t1 i) (wordAt c tbM2 t2 i) xq xk m0)
            ∗ owns (c : Thread nD τ) arg11 fullShare (lOut (wordAt c tbM0 t0 i) (wordAt c tbM1 t1 i) (wordAt c tbM2 t2 i) xq xk m0 l0)
            ∗ owns (c : Thread nD τ) arg12 fullShare (aOut (wordAt c tbM0 t0 i) (wordAt c tbM1 t1 i) (wordAt c tbM2 t2 i) xq xk xv m0 a0)
            ∗ tbPt c tbM0 t0 ∗ tbPt c tbM1 t1 ∗ tbPt c tbM2 t2 ∗ tbPt c tbM3 t3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  have hF' : (Scalar.cmpi .ne (Scalar.extui (Scalar.cmpi .ne (wordAt c tbM2 t2 i) 0#32)) 0#32 = 1#1) := hF
  have hL' : ¬ (k1_cond2 (wordAt c tbM3 t3 i) = 1#1) := hL
  sl_exec (disch := first | sl_exact hF' | sl_exact hL')
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [if_neg hL]; exact harg9.read_unread _
  isplitl [H10]
  · iexists _; isplitr
    swap; · iexact H10
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold mOut mIn
    rw [if_pos hF]
    rfl
  isplitl [H11]
  · iexists _; isplitr
    swap; · iexact H11
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold lOut mIn lIn
    rw [if_pos hF, if_pos hF]
    rfl
  isplitl [H12]
  · iexists _; isplitr
    swap; · iexact H12
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold aOut mIn aIn
    rw [if_pos hF, if_pos hF]
    rfl
  isplitl [HT0]; · iexact HT0
  isplitl [HT1]; · iexact HT1
  isplitl [HT2]; · iexact HT2
  iexact HT3

set_option maxHeartbeats 4000000 in
theorem run_FT (c : Dev nD) (E : Set ℕ) (i : grid1.Coords)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole) (arg9 : Memref sig .tc .vmem S1x1024x64 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x64 .f32) (harg12 : arg12.IsWhole)
    (xq xk xv : Vec F S1x1024x64 .bf16) (xo : Vec F S1x1024x64 .f32) (m0 l0 : Vec F S1024x1 .f32) (a0 : Vec F S1024x64 .f32)
    (t0 : TbBuf (F := F) c tbM0) (t1 : TbBuf (F := F) c tbM1) (t2 : TbBuf (F := F) c tbM2) (t3 : TbBuf (F := F) c tbM3)
    (hF : ¬ isFirst (wordAt c tbM2 t2 i)) (hL : isLast (wordAt c tbM3 t3 i))
    (K : PUnit → sProp 𝕄) :
    iprop(owns (c : Thread nD τ) arg6 fullShare xq ∗ owns (c : Thread nD τ) arg7 fullShare xk ∗ owns (c : Thread nD τ) arg8 fullShare xv
        ∗ owns (c : Thread nD τ) arg9 fullShare xo
        ∗ owns (c : Thread nD τ) arg10 fullShare m0 ∗ owns (c : Thread nD τ) arg11 fullShare l0 ∗ owns (c : Thread nD τ) arg12 fullShare a0
        ∗ tbPt c tbM0 t0 ∗ tbPt c tbM1 t1 ∗ tbPt c tbM2 t2 ∗ tbPt c tbM3 t3
        ∗ (iprop(owns (c : Thread nD τ) arg6 fullShare xq ∗ owns (c : Thread nD τ) arg7 fullShare xk ∗ owns (c : Thread nD τ) arg8 fullShare xv
            ∗ owns (c : Thread nD τ) arg9 fullShare (if isLast (wordAt c tbM3 t3 i) then
                oOut (wordAt c tbM0 t0 i) (wordAt c tbM1 t1 i) (wordAt c tbM2 t2 i) xq xk xv m0 l0 a0 else xo)
            ∗ owns (c : Thread nD τ) arg10 fullShare (mOut (wordAt c tbM0 t0 i) (wordAt c tbM1 t1 i) (wordAt c tbM2 t2 i) xq xk m0)
            ∗ owns (c : Thread nD τ) arg11 fullShare (lOut (wordAt c tbM0 t0 i) (wordAt c tbM1 t1 i) (wordAt c tbM2 t2 i) xq xk m0 l0)
            ∗ owns (c : Thread nD τ) arg12 fullShare (aOut (wordAt c tbM0 t0 i) (wordAt c tbM1 t1 i) (wordAt c tbM2 t2 i) xq xk xv m0 a0)
            ∗ tbPt c tbM0 t0 ∗ tbPt c tbM1 t1 ∗ tbPt c tbM2 t2 ∗ tbPt c tbM3 t3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  have hF' : ¬ (Scalar.cmpi .ne (Scalar.extui (Scalar.cmpi .ne (wordAt c tbM2 t2 i) 0#32)) 0#32 = 1#1) := hF
  have hL' : (k1_cond2 (wordAt c tbM3 t3 i) = 1#1) := hL
  sl_exec (disch := first | sl_exact hF' | sl_exact hL')
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [if_pos hL]
    refine (read_writes_whole _ _ hz3 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold oOut lOut aOut mIn lIn aIn
    rw [if_neg hF, if_neg hF, if_neg hF]
    rfl
  isplitl [H10]
  · iexists _; isplitr
    swap; · iexact H10
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold mOut mIn
    rw [if_neg hF]
    rfl
  isplitl [H11]
  · iexists _; isplitr
    swap; · iexact H11
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold lOut mIn lIn
    rw [if_neg hF, if_neg hF]
    rfl
  isplitl [H12]
  · iexists _; isplitr
    swap; · iexact H12
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold aOut mIn aIn
    rw [if_neg hF, if_neg hF]
    rfl
  isplitl [HT0]; · iexact HT0
  isplitl [HT1]; · iexact HT1
  isplitl [HT2]; · iexact HT2
  iexact HT3

set_option maxHeartbeats 4000000 in
theorem run_FF (c : Dev nD) (E : Set ℕ) (i : grid1.Coords)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole) (arg9 : Memref sig .tc .vmem S1x1024x64 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x64 .f32) (harg12 : arg12.IsWhole)
    (xq xk xv : Vec F S1x1024x64 .bf16) (xo : Vec F S1x1024x64 .f32) (m0 l0 : Vec F S1024x1 .f32) (a0 : Vec F S1024x64 .f32)
    (t0 : TbBuf (F := F) c tbM0) (t1 : TbBuf (F := F) c tbM1) (t2 : TbBuf (F := F) c tbM2) (t3 : TbBuf (F := F) c tbM3)
    (hF : ¬ isFirst (wordAt c tbM2 t2 i)) (hL : ¬ isLast (wordAt c tbM3 t3 i))
    (K : PUnit → sProp 𝕄) :
    iprop(owns (c : Thread nD τ) arg6 fullShare xq ∗ owns (c : Thread nD τ) arg7 fullShare xk ∗ owns (c : Thread nD τ) arg8 fullShare xv
        ∗ owns (c : Thread nD τ) arg9 fullShare xo
        ∗ owns (c : Thread nD τ) arg10 fullShare m0 ∗ owns (c : Thread nD τ) arg11 fullShare l0 ∗ owns (c : Thread nD τ) arg12 fullShare a0
        ∗ tbPt c tbM0 t0 ∗ tbPt c tbM1 t1 ∗ tbPt c tbM2 t2 ∗ tbPt c tbM3 t3
        ∗ (iprop(owns (c : Thread nD τ) arg6 fullShare xq ∗ owns (c : Thread nD τ) arg7 fullShare xk ∗ owns (c : Thread nD τ) arg8 fullShare xv
            ∗ owns (c : Thread nD τ) arg9 fullShare (if isLast (wordAt c tbM3 t3 i) then
                oOut (wordAt c tbM0 t0 i) (wordAt c tbM1 t1 i) (wordAt c tbM2 t2 i) xq xk xv m0 l0 a0 else xo)
            ∗ owns (c : Thread nD τ) arg10 fullShare (mOut (wordAt c tbM0 t0 i) (wordAt c tbM1 t1 i) (wordAt c tbM2 t2 i) xq xk m0)
            ∗ owns (c : Thread nD τ) arg11 fullShare (lOut (wordAt c tbM0 t0 i) (wordAt c tbM1 t1 i) (wordAt c tbM2 t2 i) xq xk m0 l0)
            ∗ owns (c : Thread nD τ) arg12 fullShare (aOut (wordAt c tbM0 t0 i) (wordAt c tbM1 t1 i) (wordAt c tbM2 t2 i) xq xk xv m0 a0)
            ∗ tbPt c tbM0 t0 ∗ tbPt c tbM1 t1 ∗ tbPt c tbM2 t2 ∗ tbPt c tbM3 t3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  have hF' : ¬ (Scalar.cmpi .ne (Scalar.extui (Scalar.cmpi .ne (wordAt c tbM2 t2 i) 0#32)) 0#32 = 1#1) := hF
  have hL' : ¬ (k1_cond2 (wordAt c tbM3 t3 i) = 1#1) := hL
  sl_exec (disch := first | sl_exact hF' | sl_exact hL')
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [if_neg hL]; exact harg9.read_unread _
  isplitl [H10]
  · iexists _; isplitr
    swap; · iexact H10
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold mOut mIn
    rw [if_neg hF]
    rfl
  isplitl [H11]
  · iexists _; isplitr
    swap; · iexact H11
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold lOut mIn lIn
    rw [if_neg hF, if_neg hF]
    rfl
  isplitl [H12]
  · iexists _; isplitr
    swap; · iexact H12
    ipureintro
    refine (read_writes_whole _ _ hz2 _ _ _).trans ?_
    sl_unfold_words
    simp only [View.readAt_eq_ld, Memref.IsWhole.read_unread, readCov_cons_whole (S := S1024x1) _ hz2, readCov_cons_whole (S := S1024x64) _ hz2, View.ld_unit_zero (S := S1024x1) hz2, View.ld_unit_zero (S := S1024x64) hz2, View.ld_unit_zero (S := S1x1024x64) hz3]
    unfold aOut mIn aIn
    rw [if_neg hF, if_neg hF]
    rfl
  isplitl [HT0]; · iexact HT0
  isplitl [HT1]; · iexact HT1
  isplitl [HT2]; · iexact HT2
  iexact HT3

-- the four cases together
set_option maxHeartbeats 4000000 in
theorem sound_kernel1 (c : Dev nD) (E : Set ℕ) (i : grid1.Coords)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole) (arg9 : Memref sig .tc .vmem S1x1024x64 .f32) (harg9 : arg9.IsWhole)
    (arg10 : Memref sig .tc .vmem S1024x1 .f32) (harg10 : arg10.IsWhole) (arg11 : Memref sig .tc .vmem S1024x1 .f32) (harg11 : arg11.IsWhole)
    (arg12 : Memref sig .tc .vmem S1024x64 .f32) (harg12 : arg12.IsWhole)
    (xq xk xv : Vec F S1x1024x64 .bf16) (xo : Vec F S1x1024x64 .f32) (m0 l0 : Vec F S1024x1 .f32) (a0 : Vec F S1024x64 .f32)
    (t0 : TbBuf (F := F) c tbM0) (t1 : TbBuf (F := F) c tbM1) (t2 : TbBuf (F := F) c tbM2) (t3 : TbBuf (F := F) c tbM3)

    (K : PUnit → sProp 𝕄) :
    iprop(owns (c : Thread nD τ) arg6 fullShare xq ∗ owns (c : Thread nD τ) arg7 fullShare xk ∗ owns (c : Thread nD τ) arg8 fullShare xv
        ∗ owns (c : Thread nD τ) arg9 fullShare xo
        ∗ owns (c : Thread nD τ) arg10 fullShare m0 ∗ owns (c : Thread nD τ) arg11 fullShare l0 ∗ owns (c : Thread nD τ) arg12 fullShare a0
        ∗ tbPt c tbM0 t0 ∗ tbPt c tbM1 t1 ∗ tbPt c tbM2 t2 ∗ tbPt c tbM3 t3
        ∗ (iprop(owns (c : Thread nD τ) arg6 fullShare xq ∗ owns (c : Thread nD τ) arg7 fullShare xk ∗ owns (c : Thread nD τ) arg8 fullShare xv
            ∗ owns (c : Thread nD τ) arg9 fullShare (if isLast (wordAt c tbM3 t3 i) then
                oOut (wordAt c tbM0 t0 i) (wordAt c tbM1 t1 i) (wordAt c tbM2 t2 i) xq xk xv m0 l0 a0 else xo)
            ∗ owns (c : Thread nD τ) arg10 fullShare (mOut (wordAt c tbM0 t0 i) (wordAt c tbM1 t1 i) (wordAt c tbM2 t2 i) xq xk m0)
            ∗ owns (c : Thread nD τ) arg11 fullShare (lOut (wordAt c tbM0 t0 i) (wordAt c tbM1 t1 i) (wordAt c tbM2 t2 i) xq xk m0 l0)
            ∗ owns (c : Thread nD τ) arg12 fullShare (aOut (wordAt c tbM0 t0 i) (wordAt c tbM1 t1 i) (wordAt c tbM2 t2 i) xq xk xv m0 a0)
            ∗ tbPt c tbM0 t0 ∗ tbPt c tbM1 t1 ∗ tbPt c tbM2 t2 ∗ tbPt c tbM3 t3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  by_cases hF : isFirst (wordAt c tbM2 t2 i)
  · by_cases hL : isLast (wordAt c tbM3 t3 i)
    · exact run_TT c E i arg6 harg6 arg7 harg7 arg8 harg8 arg9 harg9 arg10 harg10 arg11 harg11 arg12 harg12 xq xk xv xo m0 l0 a0 t0 t1 t2 t3 hF hL K
    · exact run_TF c E i arg6 harg6 arg7 harg7 arg8 harg8 arg9 harg9 arg10 harg10 arg11 harg11 arg12 harg12 xq xk xv xo m0 l0 a0 t0 t1 t2 t3 hF hL K
  · by_cases hL : isLast (wordAt c tbM3 t3 i)
    · exact run_FT c E i arg6 harg6 arg7 harg7 arg8 harg8 arg9 harg9 arg10 harg10 arg11 harg11 arg12 harg12 xq xk xv xo m0 l0 a0 t0 t1 t2 t3 hF hL K
    · exact run_FF c E i arg6 harg6 arg7 harg7 arg8 harg8 arg9 harg9 arg10 harg10 arg11 harg11 arg12 harg12 xq xk xv xo m0 l0 a0 t0 t1 t2 t3 hF hL K

section R1

-- the contents of the unscoped buffers when the region is entered
variable (V : (c : Dev nD) → (b : Ref sig .tc) → Buf (Elt F) ((c : Thread nD τ).loc b))

/-- Window `w`'s block at point `t`, read off its array as the region finds it. -/
def iblk1 (c : Dev nD) (w : Fin (cfgL (F := F)).W) (t : Fin (cfgL (F := F)).N) :
    (((cfgL (F := F)).win w).xblock ((cfgL (F := F)).grid.coords t)).Idx → Elt F ((cfgL (F := F)).win w).elt :=
  (((cfgL (F := F)).win w).blk t).view.read (Elt F) (V c (Pipeline.arrRef spec1 w))

/-- The three scratch buffers' contents after the first `n` points (before any point: arbitrary, and never read,
    point 0 being a first pair). -/
def scr (c : Dev nD) : ℕ → Vec F S1024x1 .f32 × Vec F S1024x1 .f32 × Vec F S1024x64 .f32
  | 0 => (k1_pay7, k1_pay8, k1_pay9)
  | n + 1 =>
    if h : n < (cfgL (F := F)).N then
      let t : Fin (cfgL (F := F)).N := ⟨n, h⟩
      (mOut (lit0 (pairOf t)) (lit1 (pairOf t)) (lit2 (pairOf t)) (iblk1 V c 0 t) (iblk1 V c 1 t) (scr c n).1,
       lOut (lit0 (pairOf t)) (lit1 (pairOf t)) (lit2 (pairOf t)) (iblk1 V c 0 t) (iblk1 V c 1 t) (scr c n).1 (scr c n).2.1,
       aOut (lit0 (pairOf t)) (lit1 (pairOf t)) (lit2 (pairOf t)) (iblk1 V c 0 t) (iblk1 V c 1 t) (iblk1 V c 2 t) (scr c n).1 (scr c n).2.2)
    else scr c n

/-- The scratch buffers as memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x64 .f32 := Memref.whole cc1_scratch2

/-- The core's scoped buffers that are neither a staging buffer of this call nor its scratch, each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant between points: the other scoped buffers and the generator register untouched, the four tables
    held whole at their contents, and the scratch at `scr` (before point 0: at anything). -/
def Phi1 (c : Dev nD) (n : ℕ) : sProp 𝕄 :=
  iprop(otherScoped (F := F) c ∗ (∃ r, prngReg c r)
    ∗ tbPt c tbM0 (litTbl (F := F) 0) ∗ tbPt c tbM1 (litTbl (F := F) 1) ∗ tbPt c tbM2 (litTbl (F := F) 2) ∗ tbPt c tbM3 (litTbl (F := F) 3)
    ∗ ∃ (m l : Vec F S1024x1 .f32) (a : Vec F S1024x64 .f32), ⌜n ≠ 0 → (m, l, a) = scr V c n⌝
        ∗ owns (c : Thread nD τ) scM0 fullShare m ∗ owns (c : Thread nD τ) scM1 fullShare l ∗ owns (c : Thread nD τ) scM2 fullShare a)

/-- The proof data of the attention pipeline on core `c`. -/
def dat1 (c : Dev nD) : Dat τ (Elt F) Unit ℕ (UR sig nD τ) ℕ (cfgL (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay6 (scr V c (t.val + 1)).2.1 (scr V c (t.val + 1)).2.2
  Φ t := Phi1 V c t.val
  q _ := fullShare
  owed _ := 0

theorem A_eq1 (c : Dev nD) (w : Fin (cfgL (F := F)).W) : (dat1 V c).A w = V c (Pipeline.arrRef spec1 w) := by
  dsimp only [dat1]
theorem after1_0 (c : Dev nD) (t : Fin (cfgL (F := F)).N) : (dat1 V c).after 0 t = iblk1 V c 0 t := by dsimp only [dat1]; rfl
theorem after1_1 (c : Dev nD) (t : Fin (cfgL (F := F)).N) : (dat1 V c).after 1 t = iblk1 V c 1 t := by dsimp only [dat1]; rfl
theorem after1_2 (c : Dev nD) (t : Fin (cfgL (F := F)).N) : (dat1 V c).after 2 t = iblk1 V c 2 t := by dsimp only [dat1]; rfl
theorem after1_3 (c : Dev nD) (t : Fin (cfgL (F := F)).N) :
    (dat1 V c).after 3 t = k1_pay6 (scr V c (t.val + 1)).2.1 (scr V c (t.val + 1)).2.2 := by dsimp only [dat1]; rfl

/-- The tables held whole, one by one. -/
theorem prefHeld_lit_eq (c : Dev nD) :
    (Pipeline.prefHeld (Ix := Unit) (Name := ℕ) (U := UR sig nD τ) (Lvl := ℕ) pre1 c (fun _ => fullShare) (litTbl (F := F)) : sProp 𝕄)
      = iprop(tbPt c tbM0 (litTbl (F := F) 0) ∗ tbPt c tbM1 (litTbl (F := F) 1) ∗ tbPt c tbM2 (litTbl (F := F) 2) ∗ tbPt c tbM3 (litTbl (F := F) 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The invariant before the first point, from the generator register, the tables held whole and the scoped buffers
    this call does not stage; -/
theorem phi_in1 (c : Dev nD) :
    iprop((∃ r, prngReg c r) ∗ Pipeline.prefHeld (Ix := Unit) (Name := ℕ) (U := UR sig nD τ) (Lvl := ℕ) pre1 c (fun _ => fullShare) (litTbl (F := F))
        ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, prefHeld_lit_eq, scopedRest1_eq]
  unfold Phi1 otherScoped
  simp only [scM0, scM1, scM2, owns_whole]
  iintro ⟨Hp, ⟨HT0, HT1, HT2, HT3⟩, A1, A2, A3, A4, A5, A6, A7, A8, A9, ⟨%f0, S0⟩, ⟨%f1, S1⟩, ⟨%f2, S2⟩⟩
  isplitl [A1 A2 A3 A4 A5 A6 A7 A8 A9]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [Hp]; · iexact Hp
  isplitl [HT0]; · iexact HT0
  isplitl [HT1]; · iexact HT1
  isplitl [HT2]; · iexact HT2
  isplitl [HT3]; · iexact HT3
  iexists f0, f1, f2
  isplitr; · ipureintro; intro h; exact absurd rfl h
  isplitl [S0]; · iexact S0
  isplitl [S1]; · iexact S1
  iexact S2

/-- and after the last point it gives them back. -/
theorem phi_out1 (c : Dev nD) :
    (dat1 V c).Φ (Fin.last (cfgL (F := F)).N)
      ⊢ iprop(((∃ r, prngReg c r) ∗ Pipeline.prefHeld (Ix := Unit) (Name := ℕ) (U := UR sig nD τ) (Lvl := ℕ) pre1 c (fun _ => fullShare) (litTbl (F := F)))
        ∗ Pipeline.scopedRest (Ix := Unit) (Name := ℕ) (U := UR sig nD τ) (Lvl := ℕ) (Val := Elt F) spec1 c) := by
  rw [show (dat1 V c).Φ (Fin.last (cfgL (F := F)).N) = Phi1 V c (Fin.last (cfgL (F := F)).N).val from rfl, prefHeld_lit_eq, scopedRest1_eq]
  unfold Phi1 otherScoped
  simp only [scM0, scM1, scM2, owns_whole]
  iintro ⟨⟨A1, A2, A3, A4, A5, A6, A7, A8, A9⟩, Hp, HT0, HT1, HT2, HT3, %m, %l, %a, -, S0, S1, S2⟩
  isplitl [Hp HT0 HT1 HT2 HT3]
  · isplitl [Hp]; · iexact Hp
    isplitl [HT0]; · iexact HT0
    isplitl [HT1]; · iexact HT1
    isplitl [HT2]; · iexact HT2
    iexact HT3
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S0]; · iexists _; iexact S0
  isplitl [S1]; · iexists _; iexact S1
  iexists _; iexact S2

/-! ## The body obligation -/

/-- The table's first pair is flagged "first": what the scratch held before point 0 is never used. -/
theorem first_zero : isFirst (lit2 (0 : Fin 10)) := by decide

/-- One point's update of the scratch contents, from whatever the invariant hands the body. -/
theorem scr_step (c : Dev nD) (t : Fin (cfgL (F := F)).N) (m0 l0 : Vec F S1024x1 .f32) (a0 : Vec F S1024x64 .f32)
    (hscr : t.val ≠ 0 → (m0, l0, a0) = scr V c t.val) :
    scr V c (t.val + 1) =
      (mOut (lit0 (pairOf t)) (lit1 (pairOf t)) (lit2 (pairOf t)) (iblk1 V c 0 t) (iblk1 V c 1 t) m0,
       lOut (lit0 (pairOf t)) (lit1 (pairOf t)) (lit2 (pairOf t)) (iblk1 V c 0 t) (iblk1 V c 1 t) m0 l0,
       aOut (lit0 (pairOf t)) (lit1 (pairOf t)) (lit2 (pairOf t)) (iblk1 V c 0 t) (iblk1 V c 1 t) (iblk1 V c 2 t) m0 a0) := by
  rw [scr, dif_pos t.isLt]
  dsimp only
  by_cases hz : t.val = 0
  · have hp : pairOf t = 0 := by unfold pairOf; apply Fin.ext; show t.val % 10 = 0; rw [hz]
    have hf : isFirst (lit2 (pairOf t)) := by rw [hp]; exact first_zero
    unfold mOut lOut aOut mIn lIn aIn
    simp only [Fin.eta, if_pos hf]
  · have h := hscr hz
    have h1 : m0 = (scr V c t.val).1 := congrArg Prod.fst h
    have h2 : l0 = (scr V c t.val).2.1 := congrArg (fun p => p.2.1) h
    have h3 : a0 = (scr V c t.val).2.2 := congrArg (fun p => p.2.2) h
    simp only [Fin.eta, ← h1, ← h2, ← h3]

/-- Each input's current staging buffer holds its block at every point, fetched there or not. -/
theorem before1_0 (c : Dev nD) (t : Fin (cfgL (F := F)).N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgL (F := F)).N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgL (F := F)).N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Each window's current staging memref at point `t`, and its wholeness. -/
abbrev ms1_0 (t : Fin (cfgL (F := F)).N) : Memref sig .tc .vmem S1x1024x64 .bf16 := spec1_0.stage ((cfgL (F := F)).slots t 0)
abbrev hs1_0 (t : Fin (cfgL (F := F)).N) : (ms1_0 (F := F) t).IsWhole := hstage1_0 (((cfgL (F := F)).slots t 0).cast nbuf1_0)
abbrev ms1_1 (t : Fin (cfgL (F := F)).N) : Memref sig .tc .vmem S1x1024x64 .bf16 := spec1_1.stage ((cfgL (F := F)).slots t 1)
abbrev hs1_1 (t : Fin (cfgL (F := F)).N) : (ms1_1 (F := F) t).IsWhole := hstage1_1 (((cfgL (F := F)).slots t 1).cast nbuf1_1)
abbrev ms1_2 (t : Fin (cfgL (F := F)).N) : Memref sig .tc .vmem S1x1024x64 .bf16 := spec1_2.stage ((cfgL (F := F)).slots t 2)
abbrev hs1_2 (t : Fin (cfgL (F := F)).N) : (ms1_2 (F := F) t).IsWhole := hstage1_2 (((cfgL (F := F)).slots t 2).cast nbuf1_2)
abbrev ms1_3 (t : Fin (cfgL (F := F)).N) : Memref sig .tc .vmem S1x1024x64 .f32 := spec1_3.stage ((cfgL (F := F)).slots t 3)
abbrev hs1_3 (t : Fin (cfgL (F := F)).N) : (ms1_3 (F := F) t).IsWhole := hstage1_3 (((cfgL (F := F)).slots t 3).cast nbuf1_3)

/-- The kernel body at point `t`, on what the pipeline calls it with. -/
abbrev bodyAt1 (t : Fin (cfgL (F := F)).N) : Prog (TpuEff nD τ sig (Elt F) Λ₀ .tc) PUnit :=
  cc1__attn_kernel (grid1.coords t) tbM0 (Memref.isWhole_whole _) tbM1 (Memref.isWhole_whole _) tbM2 (Memref.isWhole_whole _) tbM3 (Memref.isWhole_whole _)
    (ms1_0 (F := F) t) (hs1_0 t) (ms1_1 (F := F) t) (hs1_1 t) (ms1_2 (F := F) t) (hs1_2 t) (ms1_3 (F := F) t) (hs1_3 t)
    scM0 (Memref.isWhole_whole _) scM1 (Memref.isWhole_whole _) scM2 (Memref.isWhole_whole _)

/-- What the body is called with at point `t`, the windows one by one, -/
def bodyPre1 (c : Dev nD) (t : Fin (cfgL (F := F)).N) : sProp 𝕄 :=
  iprop((dat1 V c).Φ t.castSucc ∗ (dat1 V c).owesAt () t.castSucc
    ∗ (∃ d, owns (c : Thread nD τ) (ms1_0 (F := F) t) fullShare ((dat1 V c).before 0 t d))
    ∗ (∃ d, owns (c : Thread nD τ) (ms1_1 (F := F) t) fullShare ((dat1 V c).before 1 t d))
    ∗ (∃ d, owns (c : Thread nD τ) (ms1_2 (F := F) t) fullShare ((dat1 V c).before 2 t d))
    ∗ (∃ d, owns (c : Thread nD τ) (ms1_3 (F := F) t) fullShare ((dat1 V c).before 3 t d)))

/-- and what it returns: the output window as it was found at a point idle for it. -/
def bodyPost1 (c : Dev nD) (t : Fin (cfgL (F := F)).N) : sProp 𝕄 :=
  iprop((dat1 V c).Φ t.succ ∗ (dat1 V c).owesAt () t.succ
    ∗ owns (c : Thread nD τ) (ms1_0 (F := F) t) fullShare ((dat1 V c).after 0 t)
    ∗ owns (c : Thread nD τ) (ms1_1 (F := F) t) fullShare ((dat1 V c).after 1 t)
    ∗ owns (c : Thread nD τ) (ms1_2 (F := F) t) fullShare ((dat1 V c).after 2 t)
    ∗ (match (cfgL (F := F)).idle 3 ((cfgL (F := F)).grid.coords t) with
        | true =>
          match ((cfgL (F := F)).win 3).flush t with
          | false => iprop(∃ d, owns (c : Thread nD τ) (ms1_3 (F := F) t) fullShare ((dat1 V c).before 3 t d))
          | true => owns (c : Thread nD τ) (ms1_3 (F := F) t) fullShare ((dat1 V c).after 3 t)
        | false => owns (c : Thread nD τ) (ms1_3 (F := F) t) fullShare ((dat1 V c).after 3 t)))

/-- At a pair flagged "last" the output window is live: the body leaves it at the quotient. -/
theorem bodyPost1_last (c : Dev nD) (t : Fin (cfgL (F := F)).N) (hL : lit3 (pairOf t) = 1#32) :
    bodyPost1 V c t = iprop((dat1 V c).Φ t.succ ∗ (dat1 V c).owesAt () t.succ
      ∗ owns (c : Thread nD τ) (ms1_0 (F := F) t) fullShare ((dat1 V c).after 0 t)
      ∗ owns (c : Thread nD τ) (ms1_1 (F := F) t) fullShare ((dat1 V c).after 1 t)
      ∗ owns (c : Thread nD τ) (ms1_2 (F := F) t) fullShare ((dat1 V c).after 2 t)
      ∗ owns (c : Thread nD τ) (ms1_3 (F := F) t) fullShare ((dat1 V c).after 3 t)) := by
  unfold bodyPost1
  rw [idle3_L (F := F) t, beq_iff_eq.mpr hL]
  rfl

/-- At any other pair it is idle and not written back: the body hands the buffer back as it found it. -/
theorem bodyPost1_idle (c : Dev nD) (t : Fin (cfgL (F := F)).N) (hL : ¬ lit3 (pairOf t) = 1#32) :
    bodyPost1 V c t = iprop((dat1 V c).Φ t.succ ∗ (dat1 V c).owesAt () t.succ
      ∗ owns (c : Thread nD τ) (ms1_0 (F := F) t) fullShare ((dat1 V c).after 0 t)
      ∗ owns (c : Thread nD τ) (ms1_1 (F := F) t) fullShare ((dat1 V c).after 1 t)
      ∗ owns (c : Thread nD τ) (ms1_2 (F := F) t) fullShare ((dat1 V c).after 2 t)
      ∗ ∃ d, owns (c : Thread nD τ) (ms1_3 (F := F) t) fullShare ((dat1 V c).before 3 t d)) := by
  have hb : (lit3 (pairOf t) == 1#32) = false := by
    cases h : (lit3 (pairOf t) == 1#32)
    · rfl
    · exact absurd (beq_iff_eq.mp h) hL
  unfold bodyPost1
  rw [idle3_L (F := F) t, flush3_L (F := F) t, hb]
  rfl

theorem sound_body1 (c : Dev nD) (t : Fin (cfgL (F := F)).N) :
    bodyPre1 V c t ⊢ wp frame (wpE (defs₀ (F := F)) Variants.none c none) Set.univ (bodyAt1 (F := F) t) (fun _ => bodyPost1 V c t) := by
  by_cases hL : lit3 (pairOf t) = 1#32
  · rw [bodyPost1_last V c t hL]
    unfold bodyPre1 bodyAt1
    simp only [before1_0, before1_1, before1_2]
    rw [show (dat1 V c).owesAt () t.succ = (dat1 V c).owesAt () t.castSucc from rfl,
      show (dat1 V c).Φ t.succ = Phi1 V c (t.val + 1) from rfl,
      show (dat1 V c).Φ t.castSucc = Phi1 V c t.val from rfl,
      after1_0, after1_1, after1_2, after1_3]
    unfold Phi1
    iintro ⟨⟨Hos, Hp, HT0, HT1, HT2, HT3, %m0, %l0, %a0, %hscr, Hm, Hl, Ha⟩, Ho, ⟨%d0, H0⟩, ⟨%d1, H1⟩, ⟨%d2, H2⟩, ⟨%d3, H3⟩⟩
    iapply (sound_kernel1 c Set.univ (grid1.coords t) _ _ _ _ _ _ _ _ _ _ _ _ _ _ (iblk1 V c 0 t) (iblk1 V c 1 t) (iblk1 V c 2 t)
      ((dat1 V c).before 3 t d3) m0 l0 a0 (litTbl (F := F) 0) (litTbl (F := F) 1) (litTbl (F := F) 2) (litTbl (F := F) 3) _)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    isplitl [HT2]; · iexact HT2
    isplitl [HT3]; · iexact HT3
    iintro ⟨H0, H1, H2, H3, Hm, Hl, Ha, HT0, HT1, HT2, HT3⟩
    have hw0 := word0_L (F := F) c t
    have hw1 := word1_L (F := F) c t
    have hw2 := word2_L (F := F) c t
    have hw3 := word3_L (F := F) c t
    have hs := scr_step V c t m0 l0 a0 hscr
    rw [show grid1.coords t = (cfgL (F := F)).grid.coords t from rfl, hw0, hw1, hw2, hw3]
    isplitl [Hos Hp HT0 HT1 HT2 HT3 Hm Hl Ha]
    · isplitl [Hos]; · iexact Hos
      isplitl [Hp]; · iexact Hp
      isplitl [HT0]; · iexact HT0
      isplitl [HT1]; · iexact HT1
      isplitl [HT2]; · iexact HT2
      isplitl [HT3]; · iexact HT3
      iexists _, _, _
      isplitr; · ipureintro; intro _; exact hs.symm
      isplitl [Hm]; · iexact Hm
      isplitl [Hl]; · iexact Hl
      iexact Ha
    isplitl [Ho]; · iexact Ho
    isplitl [H0]; · iexact H0
    isplitl [H1]; · iexact H1
    isplitl [H2]; · iexact H2
    have hlast : isLast (lit3 (pairOf t)) := by
      unfold isLast; have h := cond2_lit3 (pairOf t); rw [beq_iff_eq.mpr hL] at h; exact beq_iff_eq.mp h
    iapply (show owns (c : Thread nD τ) (ms1_3 (F := F) t) fullShare
        (if isLast (lit3 (pairOf t)) then oOut (lit0 (pairOf t)) (lit1 (pairOf t)) (lit2 (pairOf t)) (iblk1 V c 0 t) (iblk1 V c 1 t) (iblk1 V c 2 t) m0 l0 a0
          else (dat1 V c).before 3 t d3)
      ⊢ (owns (c : Thread nD τ) (ms1_3 (F := F) t) fullShare (k1_pay6 (scr V c (t.val + 1)).2.1 (scr V c (t.val + 1)).2.2) : sProp 𝕄) from
        Entails.of_eq (congrArg (fun x => owns (c : Thread nD τ) (ms1_3 (F := F) t) fullShare x)
          ((if_pos hlast).trans (congrArg (fun p : Vec F S1024x1 .f32 × Vec F S1024x1 .f32 × Vec F S1024x64 .f32 => k1_pay6 p.2.1 p.2.2) hs.symm))))
    iexact H3
  · rw [bodyPost1_idle V c t hL]
    unfold bodyPre1 bodyAt1
    simp only [before1_0, before1_1, before1_2]
    rw [show (dat1 V c).owesAt () t.succ = (dat1 V c).owesAt () t.castSucc from rfl,
      show (dat1 V c).Φ t.succ = Phi1 V c (t.val + 1) from rfl,
      show (dat1 V c).Φ t.castSucc = Phi1 V c t.val from rfl,
      after1_0, after1_1, after1_2]
    unfold Phi1
    iintro ⟨⟨Hos, Hp, HT0, HT1, HT2, HT3, %m0, %l0, %a0, %hscr, Hm, Hl, Ha⟩, Ho, ⟨%d0, H0⟩, ⟨%d1, H1⟩, ⟨%d2, H2⟩, ⟨%d3, H3⟩⟩
    iapply (sound_kernel1 c Set.univ (grid1.coords t) _ _ _ _ _ _ _ _ _ _ _ _ _ _ (iblk1 V c 0 t) (iblk1 V c 1 t) (iblk1 V c 2 t)
      ((dat1 V c).before 3 t d3) m0 l0 a0 (litTbl (F := F) 0) (litTbl (F := F) 1) (litTbl (F := F) 2) (litTbl (F := F) 3) _)
    isplitl [H0]; · iexact H0
    isplitl [H1]; · iexact H1
    isplitl [H2]; · iexact H2
    isplitl [H3]; · iexact H3
    isplitl [Hm]; · iexact Hm
    isplitl [Hl]; · iexact Hl
    isplitl [Ha]; · iexact Ha
    isplitl [HT0]; · iexact HT0
    isplitl [HT1]; · iexact HT1
    isplitl [HT2]; · iexact HT2
    isplitl [HT3]; · iexact HT3
    iintro ⟨H0, H1, H2, H3, Hm, Hl, Ha, HT0, HT1, HT2, HT3⟩
    have hw0 := word0_L (F := F) c t
    have hw1 := word1_L (F := F) c t
    have hw2 := word2_L (F := F) c t
    have hw3 := word3_L (F := F) c t
    have hs := scr_step V c t m0 l0 a0 hscr
    rw [show grid1.coords t = (cfgL (F := F)).grid.coords t from rfl, hw0, hw1, hw2, hw3]
    isplitl [Hos Hp HT0 HT1 HT2 HT3 Hm Hl Ha]
    · isplitl [Hos]; · iexact Hos
      isplitl [Hp]; · iexact Hp
      isplitl [HT0]; · iexact HT0
      isplitl [HT1]; · iexact HT1
      isplitl [HT2]; · iexact HT2
      isplitl [HT3]; · iexact HT3
      iexists _, _, _
      isplitr; · ipureintro; intro _; exact hs.symm
      isplitl [Hm]; · iexact Hm
      isplitl [Hl]; · iexact Hl
      iexact Ha
    isplitl [Ho]; · iexact Ho
    isplitl [H0]; · iexact H0
    isplitl [H1]; · iexact H1
    isplitl [H2]; · iexact H2
    have hlast : ¬ isLast (lit3 (pairOf t)) := by
      unfold isLast; intro hc; have h := cond2_lit3 (pairOf t); rw [beq_iff_eq.mpr hc] at h
      exact hL (beq_iff_eq.mp h.symm)
    iexists d3
    iapply (show owns (c : Thread nD τ) (ms1_3 (F := F) t) fullShare
        (if isLast (lit3 (pairOf t)) then oOut (lit0 (pairOf t)) (lit1 (pairOf t)) (lit2 (pairOf t)) (iblk1 V c 0 t) (iblk1 V c 1 t) (iblk1 V c 2 t) m0 l0 a0
          else (dat1 V c).before 3 t d3)
      ⊢ (owns (c : Thread nD τ) (ms1_3 (F := F) t) fullShare ((dat1 V c).before 3 t d3) : sProp 𝕄) from
        Entails.of_eq (congrArg (fun x => owns (c : Thread nD τ) (ms1_3 (F := F) t) fullShare x) (if_neg hlast)))
    iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

end R1

end Cert.KernelIdeal.Hand

end
-- ==== Proof.Run.lean ====
/-
  The launch of the kernel program. @main is one stretch of host operations (the four constant tables and the
  concatenation of the three weight matrices) followed by the two kernel regions: the projections, then the
  attention. This module names the buffers' contents at each boundary (a fold from the launch memory: the host
  stretch's results, then each region's arrays at what its write-backs leave), states each region as a segment over
  the thread state "every unscoped buffer at the boundary's contents, the generator register at some state, nothing
  owed", and composes the segments into the run from the launch memory to the return.
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import proofs.«402720_j7730941132963_3_alg».proof.Proof.Gen.KernelIdeal.Regions
import proofs.«402720_j7730941132963_3_alg».proof.Proof.R1Sched
import proofs.«402720_j7730941132963_3_alg».proof.Proof.R0Body
import proofs.«402720_j7730941132963_3_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the attention region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit: its arrays at what the pipeline leaves, every other buffer as entered. -/
def W3 (c : Dev nD) : Valuation τ sig (Elt F) :=
  Pipeline.withArrays spec1 c (W2 m ρ c) fun w => (dat1 (V2 m ρ) c).arrAt w (cfgL (F := F)).N
theorem W3_arr (c : Dev nD) (w : Fin (cfgL (F := F)).W) :
    W3 m ρ c (Proc.devRef .tc (Pipeline.arrRef spec1 w)) = (dat1 (V2 m ρ) c).arrAt w (cfgL (F := F)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin (cfgL (F := F)).W) :
    (dat1 (V2 m ρ) c).arrAt w (cfgL (F := F)).N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: the projection pipeline has none, the attention pipeline the four
    constant tables. -/
abbrev adm : (p : Fin 2) → (pcfgs (F := F) p).Adm
  | ⟨0, _⟩ => cfg0.toPCfg_adm
  | ⟨1, _⟩ => admL
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region over the thread state: entered from every unscoped buffer at `W1`, left at `W2`. Its
    arrays are split out of the unscoped buffers and put back at the exit contents; the generator register goes into
    the class invariant and comes back; nothing is owed; the kernel has no semaphore of its own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The tables at the attention region's entry -/

/-- Each table's buffer is written by its own constant of the host stretch, and is no array of the projection
    region: it enters the attention region at the constant. -/
theorem V2_main_c (c : Dev nD) : V2 m ρ c main_c = litTbl (F := F) 0 :=
  (W2_of_ne m ρ c main_c (by decide)).trans (by
    show StableHlo.after hostOps0 (W0 m ρ c) (Proc.devRef .tc main_c) = _
    after_results; rfl)
theorem V2_main_c_0 (c : Dev nD) : V2 m ρ c main_c_0 = litTbl (F := F) 1 :=
  (W2_of_ne m ρ c main_c_0 (by decide)).trans (by
    show StableHlo.after hostOps0 (W0 m ρ c) (Proc.devRef .tc main_c_0) = _
    after_results; rfl)
theorem V2_main_c_1 (c : Dev nD) : V2 m ρ c main_c_1 = litTbl (F := F) 2 :=
  (W2_of_ne m ρ c main_c_1 (by decide)).trans (by
    show StableHlo.after hostOps0 (W0 m ρ c) (Proc.devRef .tc main_c_1) = _
    after_results; rfl)
theorem V2_main_c_2 (c : Dev nD) : V2 m ρ c main_c_2 = litTbl (F := F) 3 :=
  (W2_of_ne m ρ c main_c_2 (by decide)).trans (by
    show StableHlo.after hostOps0 (W0 m ρ c) (Proc.devRef .tc main_c_2) = _
    after_results; rfl)

/-- The four tables enter the attention region at the admissible contents. -/
theorem tables_V2 (c : Dev nD) : ∀ k, V2 m ρ c (pre1.ref k) = litTbl (F := F) k
  | 0 => V2_main_c m ρ c
  | 1 => V2_main_c_0 m ρ c
  | 2 => V2_main_c_1 m ρ c
  | 3 => V2_main_c_2 m ρ c
  | ⟨_ + 4, h⟩ => absurd h (Nat.not_lt.2 (Nat.le_add_left _ _))

/-- The unscoped buffers that are no array of the attention region are the four tables, at the admissible contents,
    and the buffers the region passes by. -/
theorem rest_split1 (c : Dev nD) :
    (Pipeline.unscopedRest (Ix := Unit) (Name := ℕ) (U := UR sig nD τ) (Lvl := ℕ) spec1 c (V2 m ρ c) : sProp 𝕄)
      = iprop(Pipeline.prefHeld (Ix := Unit) (Name := ℕ) (U := UR sig nD τ) (Lvl := ℕ) pre1 c (fun _ => fullShare) (litTbl (F := F))
          ∗ Pipeline.unscopedRestP (Ix := Unit) (Name := ℕ) (U := UR sig nD τ) (Lvl := ℕ) pre1 spec1 c (V2 m ρ c)) := by
  rw [Pipeline.unscopedRest_split preFacts1 c (V2 m ρ c),
    show (fun k => V2 m ρ c (pre1.ref k)) = litTbl (F := F) from funext (tables_V2 m ρ c)]

set_option backward.isDefEq.respectTransparency.types false in
/-- The attention region over the thread state: entered from every unscoped buffer at `W2`, left at `W3`. Its arrays
    and its four tables are split out of the unscoped buffers — the tables at the admissible contents, which is what
    the host stretch wrote there — and put back at the exit; the generator register and the tables go into the
    region's invariant and come back; nothing is owed; the kernel has no semaphore of its own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r)
    ∗ Pipeline.prefHeld (Ix := Unit) (Name := ℕ) (U := UR sig nD τ) (Lvl := ℕ) pre1 c (fun _ => fullShare) (litTbl (F := F)))
  Z c := Pipeline.unscopedRestP (Ix := Unit) (Name := ℕ) (U := UR sig nD τ) (Lvl := ℕ) pre1 spec1 c (V2 m ρ c)
  hentry c := by
    rw [Pipeline.ownSems0_none]
    have hsplit0 := Pipeline.arrays_of_unscopedBufs (p := 1) (pcfgs (F := F)) adm (pdats m ρ) (launch1 (F := F)).win (launch1 (F := F)).arr_whole c
      ((pdats m ρ 1 c).share_full fun _ => rfl) (V2 m ρ c) fun _ => rfl
    rw [Pipeline.unscopedBufs_held] at hsplit0
    have hsplit : (StableHlo.held (c : Thread nD τ) (Pipeline.ucRefs τ sig) (W2 m ρ c) : sProp 𝕄)
        ⊢ iprop((pdats m ρ 1 c).arrays ((pdats m ρ 1 c).arrAt · 0)
          ∗ Pipeline.prefHeld (Ix := Unit) (Name := ℕ) (U := UR sig nD τ) (Lvl := ℕ) pre1 c (fun _ => fullShare) (litTbl (F := F))
          ∗ Pipeline.unscopedRestP (Ix := Unit) (Name := ℕ) (U := UR sig nD τ) (Lvl := ℕ) pre1 spec1 c (V2 m ρ c)) := by
      rw [← rest_split1 m ρ c]; exact hsplit0
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in1 (V2 m ρ) c
  hout c := by
    rw [Pipeline.ownSems0_none]
    refine (phi_out1 (V2 m ρ) c).trans ?_
    iintro ⟨HY, Hr⟩
    isplitl [HY]; · iexact HY
    isplitr; · iempintro
    iexact Hr
  hexit c := by
    have hjoin0 := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · (cfgL (F := F)).N) (hF1 m ρ c) (hrest1 m ρ c)
    rw [Pipeline.unscopedBufs_held] at hjoin0
    have hjoin : iprop((pdats m ρ 1 c).arrays ((pdats m ρ 1 c).arrAt · (cfgL (F := F)).N)
          ∗ Pipeline.prefHeld (Ix := Unit) (Name := ℕ) (U := UR sig nD τ) (Lvl := ℕ) pre1 c (fun _ => fullShare) (litTbl (F := F))
          ∗ Pipeline.unscopedRestP (Ix := Unit) (Name := ℕ) (U := UR sig nD τ) (Lvl := ℕ) pre1 spec1 c (V2 m ρ c))
        ⊢ (StableHlo.held (c : Thread nD τ) (Pipeline.ucRefs τ sig) (W3 m ρ c) : sProp 𝕄) := by
      rw [← rest_split1 m ρ c]; exact hjoin0
    iintro ⟨Ha, HO, ⟨Hp, Ht⟩, Hrest⟩
    imodintro
    isplitl [Ha Ht Hrest Hp]
    · isplitl [Ha Ht Hrest]
      · iapply hjoin
        isplitl [Ha]; · iexact Ha
        isplitl [Ht]; · iexact Ht
        iexact Hrest
      iexact Hp
    unfold Pipeline.Dat.owesAt Pipeline.owesWithin
    icases HO with ⟨%W, -, HO⟩; iexists W; iexact HO

/-! ## @main as segments, and the launch -/

/-- @main's three segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) :=
  main_segs adm (pdats m ρ) () 𝒱₀ L lv _ (reg0 m ρ) (reg1 m ρ) rfl c

set_option backward.isDefEq.respectTransparency.types false in
/-- From the launch memory every weakly fair execution of @main terminates, and every unscoped buffer ends at the
    last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm))
      (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm))
              (Pipeline.launchToks (Pipeline.pin (pcfgs (F := F)) adm) (cellOf_inj adm))) : sProp 𝕄)
            ⊢ BI.own (emb₁ (initOf (Pipeline.cells (Pipeline.pin (pcfgs (F := F)) adm) (cellOf_inj adm))
              (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## The boundaries' contents read back -/

/-- The arguments end as launched: the host stretch writes none, a region reads one through an input window or
    passes it by. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) :=
      (W2_arr m ρ c 0).trans (((dat0 (V1 m ρ) c).arrAt_in 0 rfl _).trans (A_eq0 (V1 m ρ) c 0))
    _ = m ((c : Thread nD τ).loc main_arg0) := Gen.V1_of m c main_arg0 (by decide)
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    Gen.V1_of m c main_arg1 (by decide)
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    Gen.V1_of m c main_arg2 (by decide)
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    Gen.V1_of m c main_arg3 (by decide)
/-- The result buffer ends at what the attention pipeline's write-backs leave. -/
theorem W3_main_v2 (c : Dev nD) : W3 m ρ c (Proc.devRef .tc main_v2) = (dat1 (V2 m ρ) c).arrAt 3 (cfgL (F := F)).N :=
  W3_arr m ρ c 3
/-- The three projections enter the attention region at what the projection pipeline's write-backs leave. -/
theorem V2_main_v1_0 (c : Dev nD) : V2 m ρ c main_v1_0 = (dat0 (V1 m ρ) c).arrAt 2 cfg0.N := W2_arr m ρ c 2
theorem V2_main_v1_1 (c : Dev nD) : V2 m ρ c main_v1_1 = (dat0 (V1 m ρ) c).arrAt 3 cfg0.N := W2_arr m ρ c 3
theorem V2_main_v1_2 (c : Dev nD) : V2 m ρ c main_v1_2 = (dat0 (V1 m ρ) c).arrAt 4 cfg0.N := W2_arr m ρ c 4
/-- The projection region enters with the first argument as launched, -/
theorem V1_main_arg0 (c : Dev nD) : V1 m ρ c main_arg0 = m ((c : Thread nD τ).loc main_arg0) :=
  Gen.V1_of m c main_arg0 (by decide)
/-- and the weights' buffer at the concatenation of the three weight matrices as launched. -/
theorem V1_main_v0 (c : Dev nD) : V1 m ρ c main_v0
    = concatenate S1024x192 1 [⟨S1024x64, m ((c : Thread nD τ).loc main_arg2)⟩, ⟨S1024x64, m ((c : Thread nD τ).loc main_arg1)⟩,
        ⟨S1024x64, m ((c : Thread nD τ).loc main_arg3)⟩] concatenates_S1024x64_S1024x64_S1024x64_S1024x192_d1 := by
  show StableHlo.after hostOps0 (W0 m ρ c) (Proc.devRef .tc main_v0) = _
  after_results; rfl

end Cert.KernelIdeal.Hand

end
-- ==== Proof.AttnSpec.lean ====
/-
  Causal single-head attention over one batch row, as two functions on the extended reals.

  One query row has 4096 masked scores `ms s` (the scaled dot product where the key position is not after the
  query position, `⊥` elsewhere) and, per output channel, 4096 values `vv s`.

  * `refRow` is the textbook softmax-weighted sum: subtract the row maximum, exponentiate, divide each weight by
    the sum of the weights, and sum the weighted values.
  * `run` is the streaming form over tiles of 1024 key positions: a running maximum `M`, a running sum of weights `L`
    and a running weighted sum `A`, each rescaled by `exp (M - M')` when the maximum moves from `M` to `M'`;
    `kerOut` divides the weighted sum by the sum of weights at the end.
-/
import Idealize.ShloMosaic.PureOps.Ideal
import Idealize.ShloMosaic.Lib.ValueIdx

noncomputable section

open scoped BigOperators

namespace Cert.Attn

open Idealize.ShloMosaic Idealize.ShloMosaic.ValueIdx

/-- The three array shapes of the problem, as literal index sets. -/
abbrev SX : Shape := ⟨3, ![8, 4096, 1024]⟩
abbrev SW : Shape := ⟨2, ![1024, 64]⟩
abbrev SP : Shape := ⟨3, ![8, 4096, 64]⟩

/-- A projection `x · W`: entry `(b, t, h)` is the sum over the 1024 embedding coordinates. -/
def proj (x : SX.Idx → EReal) (w : SW.Idx → EReal) (b : Fin 8) (t : Fin 4096) (h : Fin 64) : EReal :=
  ∑ e : Fin 1024, x (ix3 b t e) * w (ix2 e h)

/-- The scale `1/8 = 64 ^ (-1/2)`, as the word both programs carry. -/
def eighth : EReal := Ideal.ofBits .f32 0x3E000000#32

/-- The scaled score of query position `t` against key position `s`. -/
def score (q k : Fin 8 → Fin 4096 → Fin 64 → EReal) (b : Fin 8) (t s : Fin 4096) : EReal :=
  (∑ h : Fin 64, q b t h * k b s h) * eighth

/-- The causal mask: a key position after the query position scores `⊥`. -/
def masked (q k : Fin 8 → Fin 4096 → Fin 64 → EReal) (b : Fin 8) (t s : Fin 4096) : EReal :=
  if s.val ≤ t.val then score q k b t s else ⊥

/-- The row maximum as the reference takes it. -/
def rowMax (ms : Fin 4096 → EReal) : EReal := max ⊥ ((Finset.univ : Finset (Fin 4096)).fold max ⊥ ms)

/-- The reference's softmax-weighted sum of one row. -/
def refRow (ms vv : Fin 4096 → EReal) : EReal :=
  ∑ s : Fin 4096, Ideal.div (Ideal.exp (ms s - rowMax ms)) (0 + ∑ s' : Fin 4096, Ideal.exp (ms s' - rowMax ms)) * vv s

/-- The whole reference: attention of the three projections, entry `(b, t, h)`. -/
def refAt (x : SX.Idx → EReal) (wk wq wv : SW.Idx → EReal) (b : Fin 8) (t : Fin 4096) (h : Fin 64) : EReal :=
  refRow (fun s => masked (proj x wq) (proj x wk) b t s) (fun s => proj x wv b s h)

/-! ## The streaming form -/

/-- The maximum of one tile of scores. -/
def tileMax (sT : Fin 1024 → EReal) : EReal := (Finset.univ : Finset (Fin 1024)).fold max ⊥ sT

/-- One tile's update of the running maximum, -/
def stepM (M : EReal) (sT : Fin 1024 → EReal) : EReal := max M (tileMax sT)
/-- of the running sum of weights, -/
def stepL (M L : EReal) (sT : Fin 1024 → EReal) : EReal :=
  Ideal.exp (M - stepM M sT) * L + ∑ c : Fin 1024, Ideal.exp (sT c - stepM M sT)
/-- and of the running weighted sum. -/
def stepA (M A : EReal) (sT vT : Fin 1024 → EReal) : EReal :=
  Ideal.exp (M - stepM M sT) * A + ∑ c : Fin 1024, Ideal.exp (sT c - stepM M sT) * vT c

/-- The state after the first `n` tiles, from `(⊥, 0, 0)`: tile `j` has scores `ms j` and values `vv j`. -/
def run (ms vv : ℕ → Fin 1024 → EReal) : ℕ → EReal × EReal × EReal
  | 0 => (⊥, 0, 0)
  | n + 1 => (stepM (run ms vv n).1 (ms n), stepL (run ms vv n).1 (run ms vv n).2.1 (ms n),
      stepA (run ms vv n).1 (run ms vv n).2.2 (ms n) (vv n))

/-- The final quotient, guarded as the kernel guards it. -/
def kerOut (L A : EReal) : EReal := Ideal.div A (if 0 < L then L else 1)

/-- Column `c` of tile `j` as a key position. -/
def col (j : Fin 4) (c : Fin 1024) : Fin 4096 := ⟨j.val * 1024 + c.val, by omega⟩

/-- A row of 4096 entries cut into its four tiles of 1024 (a tile past the fourth is all `⊥`; none is read). -/
def tiles (f : Fin 4096 → EReal) : ℕ → Fin 1024 → EReal :=
  fun j c => if h : j < 4 then f (col ⟨j, h⟩ c) else ⊥

/-- What the streaming form computes for entry `(b, t, h)`: the tiles up to and including the one that holds the
    query position, then the guarded quotient. -/
def kerAt (x : SX.Idx → EReal) (wk wq wv : SW.Idx → EReal) (b : Fin 8) (t : Fin 4096) (h : Fin 64) : EReal :=
  kerOut (run (tiles fun s => masked (proj x wq) (proj x wk) b t s) (tiles fun s => proj x wv b s h) (t.val / 1024 + 1)).2.1
    (run (tiles fun s => masked (proj x wq) (proj x wk) b t s) (tiles fun s => proj x wv b s h) (t.val / 1024 + 1)).2.2

end Cert.Attn

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.R1Payload.lean ====
/-
  The attention kernel's update of one pair, read entry by entry on the extended reals: the masked tile scores, and the
  running maximum, sum of weights and weighted sum after the pair as the streaming form's `stepM`, `stepL`, `stepA`
  of what the pair starts from; the final quotient as `kerOut`.
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import proofs.«402720_j7730941132963_3_alg».proof.Proof.R1Body
import proofs.«402720_j7730941132963_3_alg».proof.Proof.AttnSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Predicate
import Idealize.ShloMosaic.PureOps.IdealRules
import Idealize.ShloMosaic.Lib.IdealHost
import proofs.«402720_j7730941132963_3_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Idealize.ShloMosaic.StableHlo.Predicate (sge_iff_toNat)
open scoped BigOperators

/-! ## Words and constants -/

/-- The word `0xFF800000` is `-∞`. -/
theorem ofBits_neg_inf : Ideal.ofBits .f32 0xFF800000#32 = (⊥ : EReal) := by
  simp [Ideal.ofBits, Ideal.ieee]

/-- The masking constant is `-∞` on the extended reals, by the table of named constants. -/
theorem neg_big_eq : Named.named (F := Ideal) Cert.KernelIdeal.κ "neg_big" (φ := .f32) 0xFF333332#32 = (⊥ : EReal) :=
  IdealRules.named_const.ideal_named_scalar _ _ _ _ rfl

/-- A tile number at most 3, times 1024, plus a position inside the tile, as a 32-bit word: nothing wraps. -/
theorem toNat_tile_add (w : BitVec 32) (hw : w.toNat ≤ 3) (r : Fin 1024) :
    (IntOp.addi (Scalar.muli w 1024#32) (BitVec.ofNat 32 r.val)).toNat = w.toNat * 1024 + r.val := by
  show (w * 1024#32 + BitVec.ofNat 32 r.val).toNat = _
  have hr := r.isLt
  rw [BitVec.toNat_add, BitVec.toNat_mul, BitVec.toNat_ofNat]
  show (w.toNat * 1024 % 2 ^ 32 + r.val % 2 ^ 32) % 2 ^ 32 = _
  omega

/-! ## The first product: queries against keys -/

theorem lhsA_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhsA_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhsA_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhsA_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product into a zero accumulator, entry `(r, c)`: the sum over the 64 channels. -/
theorem matmulA_apply (l : FVec Ideal S1024x64 .bf16) (rr : FVec Ideal S64x1024 .bf16) (r c : Fin 1024) :
    matmul dot_S1024x64_S64x1024_S1024x1024_1_0_0_1_n_n none l rr (constant S1024x1024 .f32 0x00000000#32) (ix2 r c)
      = ∑ h : Fin 64, l (ix2 r h) * rr (ix2 h c) := by
  refine (Ideal.matmul_constant_zero_apply dot_S1024x64_S64x1024_S1024x1024_1_0_0_1_n_n none l rr (ix2 r c)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact lhsA_0 _ _
    | ⟨1, _⟩ => exact (lhsA_1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (rhsA_0 _ _).trans hk
    | ⟨1, _⟩ => exact rhsA_1 _ _)
  rw [el, er]

/-- Row `r` of the tile's masked scores: query tile `w0`, key tile `w1`. -/
def sT (w0 w1 : BitVec 32) (xq xk : Vec Ideal S1x1024x64 .bf16) (r : Fin 1024) : Fin 1024 → EReal :=
  fun c => k1_pay11 (F := Ideal) w0 w1 xq xk (ix2 r c)

/-- An entry of the tile's masked scores, by its row. -/
theorem sT_eq (w0 w1 : BitVec 32) (xq xk : Vec Ideal S1x1024x64 .bf16) (r c : Fin 1024) :
    k1_pay11 (F := Ideal) w0 w1 xq xk (ix2 r c) = sT w0 w1 xq xk r c := by
  unfold sT; rfl

/-- A masked score: the scaled dot product where the key position is not after the query position, `⊥` elsewhere. -/
theorem sT_apply (w0 w1 : BitVec 32) (h0 : w0.toNat ≤ 3) (h1 : w1.toNat ≤ 3) (xq xk : Vec Ideal S1x1024x64 .bf16) (r c : Fin 1024) :
    sT w0 w1 xq xk r c
      = if w1.toNat * 1024 + c.val ≤ w0.toNat * 1024 + r.val then (∑ h : Fin 64, xq (ix3 0 r h) * xk (ix3 0 c h)) * Cert.Attn.eighth else ⊥ := by
  unfold sT k1_pay11
  show Scalar.select
      (IntOp.cmpi .sge
        (IntOp.addi (Scalar.muli w0 1024#32) (iota .tc S1024x1024 32 [0] iota_S1024x1024_d0_w32 (ix2 r c)))
        (IntOp.addi (Scalar.muli w1 1024#32) (iota .tc S1024x1024 32 [1] iota_S1024x1024_d1_w32 (ix2 r c))))
      (matmul dot_S1024x64_S64x1024_S1024x1024_1_0_0_1_n_n none
          (shapeCast S1024x64 xq shapeCasts_S1x1024x64_S1024x64)
          (transpose S64x1024 [1, 0] (shapeCast S1024x64 xk shapeCasts_S1x1024x64_S1024x64) transposes_S1024x64_p1_0_S64x1024)
          (constant S1024x1024 .f32 0x00000000#32) (ix2 r c)
        * Ideal.ofBits .f32 0x3E000000#32)
      (Named.named (F := Ideal) Cert.KernelIdeal.κ "neg_big" (φ := .f32) 0xFF333332#32) = _
  rw [iota_single_apply, iota_single_apply, matmulA_apply, neg_big_eq]
  have e0 : ((ix2 r c : S1024x1024.Idx) 0).val = r.val := rfl
  have e1 : ((ix2 r c : S1024x1024.Idx) 1).val = c.val := rfl
  rw [e0, e1]
  have hc := sge_iff_toNat
    (a := IntOp.addi (Scalar.muli w0 1024#32) (BitVec.ofNat 32 r.val))
    (b := IntOp.addi (Scalar.muli w1 1024#32) (BitVec.ofNat 32 c.val))
    (by rw [toNat_tile_add w0 h0 r]; have := r.isLt; omega) (by rw [toNat_tile_add w1 h1 c]; have := c.isLt; omega)
  rw [toNat_tile_add w0 h0 r, toNat_tile_add w1 h1 c] at hc
  have es : (∑ h : Fin 64, shapeCast S1024x64 xq shapeCasts_S1x1024x64_S1024x64 (ix2 r h)
        * transpose S64x1024 [1, 0] (shapeCast S1024x64 xk shapeCasts_S1x1024x64_S1024x64) transposes_S1024x64_p1_0_S64x1024 (ix2 h c))
      = ∑ h : Fin 64, xq (ix3 0 r h) * xk (ix3 0 c h) :=
    Finset.sum_congr rfl fun h _ => by
      rw [transpose_ix2_apply, shapeCast_1ab_ab_apply, shapeCast_1ab_ab_apply]
  rw [es]
  by_cases hst : w1.toNat * 1024 + c.val ≤ w0.toNat * 1024 + r.val
  · rw [hc.2 hst, select_one, if_pos hst]; rfl
  · rw [eq_zero_of_ne_one (fun e => hst (hc.1 e)), select_zero, if_neg hst]

/-- The reset values. -/
theorem pay7_apply (r : Fin 1024) : k1_pay7 (F := Ideal) (ix2 r 0) = ⊥ := by
  unfold k1_pay7
  rw [shapeCast_self]
  exact ofBits_neg_inf
theorem pay8_apply (r : Fin 1024) : k1_pay8 (F := Ideal) (ix2 r 0) = 0 := by
  unfold k1_pay8
  rw [shapeCast_self]
  exact Ideal.ofBits_zero_f32
theorem pay9_apply (r : Fin 1024) (h : Fin 64) : k1_pay9 (F := Ideal) (ix2 r h) = 0 := by
  unfold k1_pay9
  rw [shapeCast_self]
  exact Ideal.ofBits_zero_f32

/-! ## The second product: weights against values -/

theorem lhsB_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsB_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsB_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsB_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product into a zero accumulator, entry `(r, h)`: the sum over the tile's 1024 key positions. -/
theorem matmulB_apply (l : FVec Ideal S1024x1024 .bf16) (rr : FVec Ideal S1024x64 .bf16) (r : Fin 1024) (h : Fin 64) :
    matmul dot_S1024x1024_S1024x64_S1024x64_1_0_0_1_n_n none l rr (constant S1024x64 .f32 0x00000000#32) (ix2 r h)
      = ∑ c : Fin 1024, l (ix2 r c) * rr (ix2 c h) := by
  refine (Ideal.matmul_constant_zero_apply dot_S1024x1024_S1024x64_S1024x64_1_0_0_1_n_n none l rr (ix2 r h)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r h) ((contrEquiv1 dot_S1024x1024_S1024x64_S1024x64_1_0_0_1_n_n 1024 rfl rfl).symm k) = ix2 r k := funext fun a => Fin.ext (by
    match a with
    | ⟨0, _⟩ => exact lhsB_0 _ _
    | ⟨1, _⟩ => exact (lhsB_1 _ _).trans hk)
  have er : dot_S1024x1024_S1024x64_S1024x64_1_0_0_1_n_n.rhsIdx (ix2 r h) ((contrEquiv1 dot_S1024x1024_S1024x64_S1024x64_1_0_0_1_n_n 1024 rfl rfl).symm k) = ix2 k h := funext fun a => Fin.ext (by
    match a with
    | ⟨0, _⟩ => exact (rhsB_0 _ _).trans hk
    | ⟨1, _⟩ => exact rhsB_1 _ _)
  rw [el, er]

/-! ## The row reductions of a tile -/

/-- Two folds of `max` over one index range agree when their start values and their terms do. -/
theorem fold_max_congr {n : ℕ} {a b : EReal} {f g : Fin n → EReal} (hab : a = b) (hfg : ∀ c, f c = g c) :
    (Finset.univ : Finset (Fin n)).fold max a f = (Finset.univ : Finset (Fin n)).fold max b g := by
  rw [hab, funext hfg]

/-- Two sums over one index range agree when their terms do. -/
theorem sum_congr_fin {n : ℕ} {f g : Fin n → EReal} (hfg : ∀ c, f c = g c) : ∑ c, f c = ∑ c, g c :=
  Finset.sum_congr rfl fun c _ => hfg c

/-- The source index over row `r` with column `c` inserted. -/
theorem lift_row (r c : Fin 1024) : reduces_S1024x1024_S1024.lift (ValueIdx.ix1 r) c = ix2 r c :=
  funext fun a => Fin.ext (by match a with | ⟨0, _⟩ => rfl | ⟨1, _⟩ => rfl)

/-- The new running maximum of row `r`: the old one against the maximum of the row's masked scores. -/
theorem pay12_apply (w0 w1 : BitVec 32) (xq xk : Vec Ideal S1x1024x64 .bf16) (m : Vec Ideal S1024x1 .f32) (r : Fin 1024) :
    k1_pay12 (F := Ideal) w0 w1 xq xk m (ix2 r 0) = Cert.Attn.stepM (m (ix2 r 0)) (sT w0 w1 xq xk r) := by
  unfold k1_pay12 Cert.Attn.stepM Cert.Attn.tileMax
  rw [maximumf_apply, Cert.Lib.shapeCast_a_a1_apply]
  refine congrArg (max (m (ix2 r 0))) ?_
  refine (Ideal.multiReduction_maximumf_single _ _ _ _ _ _).trans ?_
  refine fold_max_congr (n := 1024) ofBits_neg_inf fun c => ?_
  exact congrArg (k1_pay11 (F := Ideal) w0 w1 xq xk) (lift_row r c)

/-- The weight of a masked score against a row's maximum. -/
theorem pay2_apply (s : FVec Ideal S1024x1024 .f32) (m' : FVec Ideal S1024x1 .f32) (r c : Fin 1024) :
    k1_pay2 (F := Ideal) s m' (ix2 r c) = Ideal.exp (s (ix2 r c) - m' (ix2 r 0)) := by
  unfold k1_pay2
  show Ideal.exp (s (ix2 r c) - broadcastTo S1024x1024 m' broadcasts_S1024x1_S1024x1024 (ix2 r c)) = _
  rw [Cert.Lib.broadcastTo_a1_ab_apply]

/-- The rescaling factor of what a row carried. -/
theorem pay1_apply (m m' : FVec Ideal S1024x1 .f32) (i : S1024x1.Idx) :
    k1_pay1 (F := Ideal) m m' i = Ideal.exp (m i - m' i) := rfl

/-- The pair's update, entry by entry. -/
theorem mOut_apply (w0 w1 w2 : BitVec 32) (xq xk : Vec Ideal S1x1024x64 .bf16) (m : Vec Ideal S1024x1 .f32) (r : Fin 1024) :
    mOut (F := Ideal) w0 w1 w2 xq xk m (ix2 r 0) = Cert.Attn.stepM (mIn (F := Ideal) w2 m (ix2 r 0)) (sT w0 w1 xq xk r) := by
  unfold mOut k1_pay5
  rw [shapeCast_self]
  exact pay12_apply w0 w1 xq xk _ r
theorem lOut_apply (w0 w1 w2 : BitVec 32) (xq xk : Vec Ideal S1x1024x64 .bf16) (m l : Vec Ideal S1024x1 .f32) (r : Fin 1024) :
    lOut (F := Ideal) w0 w1 w2 xq xk m l (ix2 r 0)
      = Cert.Attn.stepL (mIn (F := Ideal) w2 m (ix2 r 0)) (lIn (F := Ideal) w2 l (ix2 r 0)) (sT w0 w1 xq xk r) := by
  unfold lOut k1_pay3 Cert.Attn.stepL
  rw [shapeCast_self, addf_apply, mulf_apply, Cert.Lib.shapeCast_a_a1_apply, pay1_apply, pay12_apply]
  refine congrArg (Ideal.exp (mIn (F := Ideal) w2 m (ix2 r 0) - Cert.Attn.stepM (mIn (F := Ideal) w2 m (ix2 r 0)) (sT w0 w1 xq xk r)) * lIn (F := Ideal) w2 l (ix2 r 0) + ·) ?_
  refine (Ideal.multiReduction_add_single _ _ _ _ _ _).trans ?_
  refine sum_congr_fin (n := 1024) fun c => ?_
  rw [lift_row, pay2_apply, pay12_apply, sT_eq]
theorem aOut_apply (w0 w1 w2 : BitVec 32) (xq xk xv : Vec Ideal S1x1024x64 .bf16) (m : Vec Ideal S1024x1 .f32) (a : Vec Ideal S1024x64 .f32)
    (r : Fin 1024) (h : Fin 64) :
    aOut (F := Ideal) w0 w1 w2 xq xk xv m a (ix2 r h)
      = Cert.Attn.stepA (mIn (F := Ideal) w2 m (ix2 r 0)) (aIn (F := Ideal) w2 a (ix2 r h)) (sT w0 w1 xq xk r) (fun c => xv (ix3 0 c h)) := by
  unfold aOut k1_pay4 Cert.Attn.stepA
  rw [shapeCast_self, addf_apply, mulf_apply, Cert.Lib.broadcastTo_a1_ab_apply, pay1_apply, pay12_apply, matmulB_apply]
  refine congrArg (Ideal.exp (mIn (F := Ideal) w2 m (ix2 r 0) - Cert.Attn.stepM (mIn (F := Ideal) w2 m (ix2 r 0)) (sT w0 w1 xq xk r)) * aIn (F := Ideal) w2 a (ix2 r h) + ·) ?_
  refine sum_congr_fin fun c => ?_
  rw [truncf_apply, pay2_apply, pay12_apply, sT_eq]
  unfold k1_pay10
  rw [shapeCast_1ab_ab_apply]

/-- The divisor's guard: the sum of weights where it is positive, else one. -/
theorem guard_eq (L : Ideal .f32) :
    Scalar.select (FloatOps.cmpf .ogt L (Scalar.ofBits .f32 0x00000000#32)) L (Scalar.ofBits .f32 0x3F800000#32)
      = if (0 : EReal) < L then L else (1 : EReal) := by
  have hs : ∀ b : BitVec 32, Scalar.ofBits (F := Ideal) .f32 b = Ideal.ofBits .f32 b := fun _ => rfl
  simp only [Scalar.select, Ideal.cmpf_def, hs, Ideal.cmp, Ideal.ofBits_zero_f32, Ideal.ofBits_one_f32]
  by_cases hl : (0 : EReal) < L <;> simp [hl]

/-- The output block's entry: the guarded quotient. -/
theorem pay6_apply (l : Vec Ideal S1024x1 .f32) (a : Vec Ideal S1024x64 .f32) (r : Fin 1024) (h : Fin 64) :
    k1_pay6 (F := Ideal) l a (ix3 0 r h) = Cert.Attn.kerOut (l (ix2 r 0)) (a (ix2 r h)) := by
  unfold k1_pay6 Cert.Attn.kerOut
  rw [shapeCast_ab_1ab_apply, divf_apply, Cert.Lib.broadcastTo_a1_ab_apply, select_apply, cmpf_apply, broadcast_apply,
    broadcast_apply]
  exact congrArg (Ideal.div (a (ix2 r h))) (guard_eq _)

end Cert.KernelIdeal.Hand

end
-- ==== Proof.R1Value.lean ====
/-
  The attention output array after the second pallas_call, entry by entry on the extended reals: if the three arrays
  the call reads hold the query, key and value projections, the array it writes holds the streaming form
  `Cert.Attn.kerAt` of the inputs. By induction over the pairs of a query tile (the scratch buffers after pair
  `(qi, ki)` hold the streaming state after `ki + 1` tiles, for each of the tile's 1024 rows), then the output
  blocks written at the "last" pairs cover the array.
-/
import proofs.«402720_j7730941132963_3_alg».proof.Proof.Gen.KernelIdeal.Launch
import proofs.«402720_j7730941132963_3_alg».proof.Proof.Gen.KernelIdeal.Skeleton
import proofs.«402720_j7730941132963_3_alg».proof.Proof.Gen.KernelIdeal.Points
import proofs.«402720_j7730941132963_3_alg».proof.Proof.R1Payload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (V : (c : Dev nD) → (b : Ref sig .tc) → Buf (Elt Ideal) ((c : Thread nD τ).loc b))

namespace RV

/-! ## The tables, read: pair `p` is (query tile, key tile) with the key tile at most the query tile -/

/-- Every tile named is one of the four. -/
theorem lit0_le : ∀ p : Fin 10, (lit0 p).toNat ≤ 3 := by decide
theorem lit1_le : ∀ p : Fin 10, (lit1 p).toNat ≤ 3 := by decide

/-- A point's number is below 80. -/
theorem lt80 (t : Fin (cfgL (F := Ideal)).N) : t.val < 80 := Nat.lt_of_lt_of_eq t.isLt N_L

/-- The batch row, the query position and the key position a point's blocks start at. -/
def rowOf (t : Fin (cfgL (F := Ideal)).N) : Fin 8 := ⟨t.val / 10, by have := lt80 t; omega⟩
def qPos (t : Fin (cfgL (F := Ideal)).N) (r : Fin 1024) : Fin 4096 :=
  ⟨(lit0 (pairOf t)).toNat * 1024 + r.val, by have := lit0_le (pairOf t); have := r.isLt; omega⟩
def kPos (t : Fin (cfgL (F := Ideal)).N) (r : Fin 1024) : Fin 4096 :=
  ⟨(lit1 (pairOf t)).toNat * 1024 + r.val, by have := lit1_le (pairOf t); have := r.isLt; omega⟩

/-! ## Block reads: a block's entry is the array's entry at block index × block size + the entry's own coordinate -/

theorem blk0_read (c : Dev nD) (t : Fin (cfgL (F := Ideal)).N) (r : Fin 1024) (h : Fin 64) :
    iblk1 (F := Ideal) V c 0 t (ix3 0 r h) = V c main_v1_0 (ix3 (rowOf t) (qPos t r) h) := by
  show V c main_v1_0 ((((cfgL (F := Ideal)).win 0).blk t).view.emb (ix3 0 r h)) = V c main_v1_0 _
  refine congrArg (V c main_v1_0) (funext fun a => Fin.ext ?_)
  have e := index0_L (F := Ideal) t
  match a with
  | ⟨0, _⟩ =>
    show ((cfgL (F := Ideal)).win 0).index t 0 * 1 + 1 * 0 = t.val / 10
    rw [e]; show t.val / 10 * 1 + 1 * 0 = _; omega
  | ⟨1, _⟩ =>
    show ((cfgL (F := Ideal)).win 0).index t 1 * 1024 + 1 * r.val = (lit0 (pairOf t)).toNat * 1024 + r.val
    rw [e]; show (lit0 (pairOf t)).toNat * 1024 + 1 * r.val = _; omega
  | ⟨2, _⟩ =>
    show ((cfgL (F := Ideal)).win 0).index t 2 * 64 + 1 * h.val = h.val
    rw [e]; show 0 * 64 + 1 * h.val = _; omega

theorem blk1_read (c : Dev nD) (t : Fin (cfgL (F := Ideal)).N) (r : Fin 1024) (h : Fin 64) :
    iblk1 (F := Ideal) V c 1 t (ix3 0 r h) = V c main_v1_1 (ix3 (rowOf t) (kPos t r) h) := by
  show V c main_v1_1 ((((cfgL (F := Ideal)).win 1).blk t).view.emb (ix3 0 r h)) = V c main_v1_1 _
  refine congrArg (V c main_v1_1) (funext fun a => Fin.ext ?_)
  have e := index1_L (F := Ideal) t
  match a with
  | ⟨0, _⟩ =>
    show ((cfgL (F := Ideal)).win 1).index t 0 * 1 + 1 * 0 = t.val / 10
    rw [e]; show t.val / 10 * 1 + 1 * 0 = _; omega
  | ⟨1, _⟩ =>
    show ((cfgL (F := Ideal)).win 1).index t 1 * 1024 + 1 * r.val = (lit1 (pairOf t)).toNat * 1024 + r.val
    rw [e]; show (lit1 (pairOf t)).toNat * 1024 + 1 * r.val = _; omega
  | ⟨2, _⟩ =>
    show ((cfgL (F := Ideal)).win 1).index t 2 * 64 + 1 * h.val = h.val
    rw [e]; show 0 * 64 + 1 * h.val = _; omega

theorem blk2_read (c : Dev nD) (t : Fin (cfgL (F := Ideal)).N) (r : Fin 1024) (h : Fin 64) :
    iblk1 (F := Ideal) V c 2 t (ix3 0 r h) = V c main_v1_2 (ix3 (rowOf t) (kPos t r) h) := by
  show V c main_v1_2 ((((cfgL (F := Ideal)).win 2).blk t).view.emb (ix3 0 r h)) = V c main_v1_2 _
  refine congrArg (V c main_v1_2) (funext fun a => Fin.ext ?_)
  have e := index2_L (F := Ideal) t
  match a with
  | ⟨0, _⟩ =>
    show ((cfgL (F := Ideal)).win 2).index t 0 * 1 + 1 * 0 = t.val / 10
    rw [e]; show t.val / 10 * 1 + 1 * 0 = _; omega
  | ⟨1, _⟩ =>
    show ((cfgL (F := Ideal)).win 2).index t 1 * 1024 + 1 * r.val = (lit1 (pairOf t)).toNat * 1024 + r.val
    rw [e]; show (lit1 (pairOf t)).toNat * 1024 + 1 * r.val = _; omega
  | ⟨2, _⟩ =>
    show ((cfgL (F := Ideal)).win 2).index t 2 * 64 + 1 * h.val = h.val
    rw [e]; show 0 * 64 + 1 * h.val = _; omega

theorem scr_at_succ (c : Dev nD) (t : Fin (cfgL (F := Ideal)).N) :
    scr (F := Ideal) V c (t.val + 1)
      = (mOut (lit0 (pairOf t)) (lit1 (pairOf t)) (lit2 (pairOf t)) (iblk1 V c 0 t) (iblk1 V c 1 t) (scr V c t.val).1,
         lOut (lit0 (pairOf t)) (lit1 (pairOf t)) (lit2 (pairOf t)) (iblk1 V c 0 t) (iblk1 V c 1 t) (scr V c t.val).1 (scr V c t.val).2.1,
         aOut (lit0 (pairOf t)) (lit1 (pairOf t)) (lit2 (pairOf t)) (iblk1 V c 0 t) (iblk1 V c 1 t) (iblk1 V c 2 t) (scr V c t.val).1 (scr V c t.val).2.2) := by
  rw [scr, dif_pos t.isLt]

/-! ## The tiles the body sees are the tiles of the row's masked scores and values -/

section Spec

variable (X : Cert.Attn.SX.Idx → EReal) (Wk Wq Wv : Cert.Attn.SW.Idx → EReal)

/-- The masked scores of query position `T` of batch row `b`, and the values of channel `h`, by key position. -/
def msRow (b : Fin 8) (T : Fin 4096) : Fin 4096 → EReal :=
  fun s => Cert.Attn.masked (Cert.Attn.proj X Wq) (Cert.Attn.proj X Wk) b T s
def vvRow (b : Fin 8) (h : Fin 64) : Fin 4096 → EReal := fun s => Cert.Attn.proj X Wv b s h

/-- The streaming state of row `r` of point `t`'s query tile, channel `h`, after `k` key tiles. -/
def runAt (t : Fin (cfgL (F := Ideal)).N) (r : Fin 1024) (h : Fin 64) (k : ℕ) : EReal × EReal × EReal :=
  Cert.Attn.run (Cert.Attn.tiles (msRow X Wk Wq (rowOf t) (qPos t r))) (Cert.Attn.tiles (vvRow X Wv (rowOf t) h)) k

theorem kerAt_eq (b : Fin 8) (T : Fin 4096) (h : Fin 64) :
    Cert.Attn.kerAt X Wk Wq Wv b T h
      = Cert.Attn.kerOut (Cert.Attn.run (Cert.Attn.tiles (msRow X Wk Wq b T)) (Cert.Attn.tiles (vvRow X Wv b h)) (T.val / 1024 + 1)).2.1
          (Cert.Attn.run (Cert.Attn.tiles (msRow X Wk Wq b T)) (Cert.Attn.tiles (vvRow X Wv b h)) (T.val / 1024 + 1)).2.2 := rfl

/-- The tile of masked scores the body forms at point `t`, row `r`, is the key tile's part of the row's masked scores. -/
theorem sT_tile (c : Dev nD)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (t : Fin (cfgL (F := Ideal)).N) (r : Fin 1024) :
    sT (lit0 (pairOf t)) (lit1 (pairOf t)) (iblk1 (F := Ideal) V c 0 t) (iblk1 (F := Ideal) V c 1 t) r
      = Cert.Attn.tiles (msRow X Wk Wq (rowOf t) (qPos t r)) (lit1 (pairOf t)).toNat := by
  funext c'
  rw [sT_apply _ _ (lit0_le _) (lit1_le _)]
  have h4 : (lit1 (pairOf t)).toNat < 4 := by have := lit1_le (pairOf t); omega
  unfold Cert.Attn.tiles
  rw [dif_pos h4]
  show _ = Cert.Attn.masked (Cert.Attn.proj X Wq) (Cert.Attn.proj X Wk) (rowOf t) (qPos t r) (kPos t c')
  unfold Cert.Attn.masked Cert.Attn.score
  refine if_congr Iff.rfl ?_ rfl
  congr 1
  refine Finset.sum_congr rfl fun h _ => ?_
  rw [blk0_read, blk1_read, hq, hk]

/-- The value block's column `h` is the key tile's part of the channel's values. -/
theorem vT_tile (c : Dev nD)
    (hv : ∀ (b : Fin 8) (t : Fin 4096) (h : Fin 64), V c main_v1_2 (ix3 b t h) = Cert.Attn.proj X Wv b t h)
    (t : Fin (cfgL (F := Ideal)).N) (h : Fin 64) :
    (fun c' : Fin 1024 => iblk1 (F := Ideal) V c 2 t (ix3 0 c' h))
      = Cert.Attn.tiles (vvRow X Wv (rowOf t) h) (lit1 (pairOf t)).toNat := by
  funext c'
  have h4 : (lit1 (pairOf t)).toNat < 4 := by have := lit1_le (pairOf t); omega
  unfold Cert.Attn.tiles
  rw [dif_pos h4]
  exact (blk2_read V c t c' h).trans (hv _ _ _)

/-! ## The scratch rows after each point: the streaming state after the pair's key tile -/

/-- A pair flagged "first" has key tile 0; -/
theorem first_pair : ∀ p : Fin 10, isFirst (lit2 p) → (lit1 p).toNat = 0 := by decide
/-- any other pair follows the pair of the same query tile with the key tile before. -/
theorem prev_pair : ∀ p : Fin 10, ¬isFirst (lit2 p) → 0 < p.val ∧ ∀ hp : p.val - 1 < 10,
    lit0 ⟨p.val - 1, hp⟩ = lit0 p ∧ (lit1 ⟨p.val - 1, hp⟩).toNat + 1 = (lit1 p).toNat := by decide

/-- One pair's update takes the streaming state after the key tiles before the pair's to the state after the pair's. -/
theorem pair_step (c : Dev nD)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (hv : ∀ (b : Fin 8) (t : Fin 4096) (h : Fin 64), V c main_v1_2 (ix3 b t h) = Cert.Attn.proj X Wv b t h)
    (t : Fin (cfgL (F := Ideal)).N) (r : Fin 1024) (h : Fin 64)
    (eM : mIn (F := Ideal) (lit2 (pairOf t)) (scr (F := Ideal) V c t.val).1 (ix2 r 0)
        = (runAt X Wk Wq Wv t r h (lit1 (pairOf t)).toNat).1)
    (eL : lIn (F := Ideal) (lit2 (pairOf t)) (scr (F := Ideal) V c t.val).2.1 (ix2 r 0)
        = (runAt X Wk Wq Wv t r h (lit1 (pairOf t)).toNat).2.1)
    (eA : aIn (F := Ideal) (lit2 (pairOf t)) (scr (F := Ideal) V c t.val).2.2 (ix2 r h)
        = (runAt X Wk Wq Wv t r h (lit1 (pairOf t)).toNat).2.2) :
    (scr (F := Ideal) V c (t.val + 1)).1 (ix2 r 0) = (runAt X Wk Wq Wv t r h ((lit1 (pairOf t)).toNat + 1)).1
    ∧ (scr (F := Ideal) V c (t.val + 1)).2.1 (ix2 r 0) = (runAt X Wk Wq Wv t r h ((lit1 (pairOf t)).toNat + 1)).2.1
    ∧ (scr (F := Ideal) V c (t.val + 1)).2.2 (ix2 r h) = (runAt X Wk Wq Wv t r h ((lit1 (pairOf t)).toNat + 1)).2.2 := by
  rw [scr_at_succ]
  refine ⟨?_, ?_, ?_⟩
  · show mOut (F := Ideal) _ _ _ _ _ _ (ix2 r 0) = _
    rw [mOut_apply, eM, sT_tile V X Wk Wq c hq hk]
    rfl
  · show lOut (F := Ideal) _ _ _ _ _ _ _ (ix2 r 0) = _
    rw [lOut_apply, eM, eL, sT_tile V X Wk Wq c hq hk]
    rfl
  · show aOut (F := Ideal) _ _ _ _ _ _ _ _ (ix2 r h) = _
    rw [aOut_apply, eM, eA, sT_tile V X Wk Wq c hq hk, vT_tile V X Wv c hv]
    rfl

/-- Point number `n`. -/
abbrev pt (n : ℕ) (hn : n < 80) : Fin (cfgL (F := Ideal)).N := ⟨n, hn⟩

/-- After every point, each row of the scratch buffers holds the streaming state of its query position after the
    pair's key tile: a first pair starts from the reset values, any other from what the pair before left. -/
theorem scr_inv (c : Dev nD)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (hv : ∀ (b : Fin 8) (t : Fin 4096) (h : Fin 64), V c main_v1_2 (ix3 b t h) = Cert.Attn.proj X Wv b t h) :
    ∀ (n : ℕ) (hn : n < 80) (r : Fin 1024) (h : Fin 64),
      (scr (F := Ideal) V c (n + 1)).1 (ix2 r 0) = (runAt X Wk Wq Wv (pt n hn) r h ((lit1 (pairOf (pt n hn))).toNat + 1)).1
      ∧ (scr (F := Ideal) V c (n + 1)).2.1 (ix2 r 0) = (runAt X Wk Wq Wv (pt n hn) r h ((lit1 (pairOf (pt n hn))).toNat + 1)).2.1
      ∧ (scr (F := Ideal) V c (n + 1)).2.2 (ix2 r h) = (runAt X Wk Wq Wv (pt n hn) r h ((lit1 (pairOf (pt n hn))).toNat + 1)).2.2 := by
  intro n
  induction n using Nat.strong_induction_on with
  | _ n ih =>
    intro hn r h
    by_cases hf : isFirst (lit2 (pairOf (pt n hn)))
    · have hk0 := first_pair _ hf
      refine pair_step V X Wk Wq Wv c hq hk hv (pt n hn) r h ?_ ?_ ?_
      · unfold mIn; rw [if_pos hf, pay7_apply, hk0]; rfl
      · unfold lIn; rw [if_pos hf, pay8_apply, hk0]; rfl
      · unfold aIn; rw [if_pos hf, pay9_apply, hk0]; rfl
    · obtain ⟨hp, hprev⟩ := prev_pair _ hf
      have hp' : 0 < n % 10 := hp
      obtain ⟨n', rfl⟩ : ∃ n', n = n' + 1 := ⟨n - 1, by omega⟩
      have hn' : n' < 80 := by omega
      obtain ⟨iM, iL, iA⟩ := ih n' (Nat.lt_succ_self _) hn' r h
      have hlt : (n' + 1) % 10 - 1 < 10 := by omega
      obtain ⟨e0, e1⟩ := hprev hlt
      have epair : pairOf (pt n' hn') = ⟨(pairOf (pt (n' + 1) hn)).val - 1, hlt⟩ :=
        Fin.ext (by show n' % 10 = (n' + 1) % 10 - 1; omega)
      rw [← epair] at e0 e1
      have eb : rowOf (pt n' hn') = rowOf (pt (n' + 1) hn) := Fin.ext (by show n' / 10 = (n' + 1) / 10; omega)
      have eq : qPos (pt n' hn') r = qPos (pt (n' + 1) hn) r :=
        Fin.ext (by show (lit0 (pairOf (pt n' hn'))).toNat * 1024 + r.val = (lit0 (pairOf (pt (n' + 1) hn))).toNat * 1024 + r.val; rw [e0])
      have erun : ∀ k, runAt X Wk Wq Wv (pt n' hn') r h k = runAt X Wk Wq Wv (pt (n' + 1) hn) r h k := fun k => by
        unfold runAt; rw [eb, eq]
      rw [erun, e1] at iM iL iA
      refine pair_step V X Wk Wq Wv c hq hk hv (pt (n' + 1) hn) r h ?_ ?_ ?_
      · unfold mIn; rw [if_neg hf]; exact iM
      · unfold lIn; rw [if_neg hf]; exact iL
      · unfold aIn; rw [if_neg hf]; exact iA

/-! ## The output block of a last pair, and the array the blocks cover -/

/-- A pair flagged "last" has its key tile equal to its query tile, -/
theorem last_pair : ∀ p : Fin 10, (lit3 p == 1#32) = true → (lit1 p).toNat = (lit0 p).toNat := by decide
/-- and every query tile has one. -/
theorem last_of_tile : ∀ q : Fin 4, ∃ p : Fin 10, (lit3 p == 1#32) = true ∧ (lit0 p).toNat = q.val := by decide

/-- At a last pair the output block's row `r` is the streaming attention of the row's query position. -/
theorem out_block (c : Dev nD)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (hv : ∀ (b : Fin 8) (t : Fin 4096) (h : Fin 64), V c main_v1_2 (ix3 b t h) = Cert.Attn.proj X Wv b t h)
    (t : Fin (cfgL (F := Ideal)).N) (hl : (lit3 (pairOf t) == 1#32) = true) (r : Fin 1024) (h : Fin 64) :
    (dat1 (F := Ideal) V c).after 3 t (ix3 0 r h) = Cert.Attn.kerAt X Wk Wq Wv (rowOf t) (qPos t r) h := by
  rw [after1_3, pay6_apply, kerAt_eq]
  obtain ⟨_, iL, iA⟩ := scr_inv V X Wk Wq Wv c hq hk hv t.val (lt80 t) r h
  rw [iL, iA]
  have e : (qPos t r).val / 1024 = (lit1 (pairOf t)).toNat := by
    rw [last_pair _ hl]
    show ((lit0 (pairOf t)).toNat * 1024 + r.val) / 1024 = _
    have := r.isLt
    omega
  rw [e]
  rfl

/-- Where the output block's entries sit in the array. -/
theorem blk3_emb (t : Fin (cfgL (F := Ideal)).N) (r : Fin 1024) (h : Fin 64) :
    ((((cfgL (F := Ideal)).win 3).blk t).view.emb (ix3 0 r h) : S8x4096x64.Idx) = ix3 (rowOf t) (qPos t r) h := by
  refine funext fun a => Fin.ext ?_
  have e := index3_L (F := Ideal) t
  match a with
  | ⟨0, _⟩ =>
    show ((cfgL (F := Ideal)).win 3).index t 0 * 1 + 1 * 0 = t.val / 10
    rw [e]; show t.val / 10 * 1 + 1 * 0 = _; omega
  | ⟨1, _⟩ =>
    show ((cfgL (F := Ideal)).win 3).index t 1 * 1024 + 1 * r.val = (lit0 (pairOf t)).toNat * 1024 + r.val
    rw [e]; show (lit0 (pairOf t)).toNat * 1024 + 1 * r.val = _; omega
  | ⟨2, _⟩ =>
    show ((cfgL (F := Ideal)).win 3).index t 2 * 64 + 1 * h.val = h.val
    rw [e]; show 0 * 64 + 1 * h.val = _; omega

/-- The streaming attention of the inputs, as one array. -/
def attnArr : S8x4096x64.Idx → EReal := fun i => Cert.Attn.kerAt X Wk Wq Wv (i 0) (i 1) (i 2)

/-- What a point that writes back writes is its block of that array. -/
theorem flushed3_eq (c : Dev nD)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (hv : ∀ (b : Fin 8) (t : Fin 4096) (h : Fin 64), V c main_v1_2 (ix3 b t h) = Cert.Attn.proj X Wv b t h)
    (t : Fin (cfgL (F := Ideal)).N) (hf : ((cfgL (F := Ideal)).win 3).flush t = true) :
    (dat1 (F := Ideal) V c).flushed 3 t = (((cfgL (F := Ideal)).win 3).blk t).view.read (Elt Ideal) (attnArr X Wk Wq Wv) := by
  have hl : (lit3 (pairOf t) == 1#32) = true := by rw [← flush3_L]; exact hf
  refine funext fun (y : S1x1024x64.Idx) => ?_
  obtain ⟨a, r, h, rfl⟩ : ∃ (a : Fin 1) (r : Fin 1024) (h : Fin 64), y = ix3 a r h := ⟨y 0, y 1, y 2, eq_ix3 y⟩
  obtain rfl : a = 0 := Subsingleton.elim _ _
  show (dat1 (F := Ideal) V c).after 3 t (ix3 0 r h)
    = attnArr X Wk Wq Wv ((((cfgL (F := Ideal)).win 3).blk t).view.emb (ix3 0 r h))
  rw [blk3_emb]
  exact out_block V X Wk Wq Wv c hq hk hv t hl r h

/-- An index of the array is in point `t`'s output block iff each coordinate is in the block's range on its axis. -/
theorem mem_blk3 (t : Fin (cfgL (F := Ideal)).N) (i : S8x4096x64.Idx) :
    i ∈ (((cfgL (F := Ideal)).win 3).blk t).view.set
      ↔ ∀ a : Fin 3, ((cfgL (F := Ideal)).win 3).index t a * S1x1024x64.size a ≤ (i a).val
          ∧ (i a).val < ((cfgL (F := Ideal)).win 3).index t a * S1x1024x64.size a + S1x1024x64.size a := by
  show i ∈ ((View.whole main_v2).slice (((cfgL (F := Ideal)).win 3).rect t)).set ↔ _
  rw [View.set_slice_whole, Rect.mem_set_unit]
  exact Iff.rfl

/-- Every entry of the array is in the block written at the last pair of its batch row and query tile. -/
theorem cover3 (i : S8x4096x64.Idx) :
    ∃ t : Fin (cfgL (F := Ideal)).N, ((cfgL (F := Ideal)).win 3).flush t = true ∧ i ∈ (((cfgL (F := Ideal)).win 3).blk t).view.set := by
  have h0 : (i 0).val < 8 := (i 0).isLt
  have h1 : (i 1).val < 4096 := (i 1).isLt
  have h2 : (i 2).val < 64 := (i 2).isLt
  obtain ⟨p, hl, hp⟩ := last_of_tile ⟨(i 1).val / 1024, by omega⟩
  have hp' : (lit0 p).toNat = (i 1).val / 1024 := hp
  have hpl := p.isLt
  obtain ⟨n, hn⟩ : ∃ n, n = (i 0).val * 10 + p.val := ⟨_, rfl⟩
  have hn80 : n < 80 := by omega
  have epair : pairOf (pt n hn80) = p := Fin.ext (by show n % 10 = p.val; omega)
  refine ⟨pt n hn80, ?_, ?_⟩
  · rw [flush3_L, epair]; exact hl
  · rw [mem_blk3]
    have e := index3_L (F := Ideal) (pt n hn80)
    rw [epair] at e
    intro a
    match a with
    | ⟨0, _⟩ =>
      show ((cfgL (F := Ideal)).win 3).index (pt n hn80) 0 * 1 ≤ (i 0).val ∧ (i 0).val < ((cfgL (F := Ideal)).win 3).index (pt n hn80) 0 * 1 + 1
      rw [e]; show n / 10 * 1 ≤ (i 0).val ∧ (i 0).val < n / 10 * 1 + 1; omega
    | ⟨1, _⟩ =>
      show ((cfgL (F := Ideal)).win 3).index (pt n hn80) 1 * 1024 ≤ (i 1).val ∧ (i 1).val < ((cfgL (F := Ideal)).win 3).index (pt n hn80) 1 * 1024 + 1024
      rw [e]; show (lit0 p).toNat * 1024 ≤ (i 1).val ∧ (i 1).val < (lit0 p).toNat * 1024 + 1024; omega
    | ⟨2, _⟩ =>
      show ((cfgL (F := Ideal)).win 3).index (pt n hn80) 2 * 64 ≤ (i 2).val ∧ (i 2).val < ((cfgL (F := Ideal)).win 3).index (pt n hn80) 2 * 64 + 64
      rw [e]; show 0 * 64 ≤ (i 2).val ∧ (i 2).val < 0 * 64 + 64; omega

end Spec

end RV

/-- If the call's three input arrays are the projections of `x` by the query, key and value weights, its output array is
    the streaming attention of `x`. -/
theorem arr1_out (c : Dev nD) (X : Cert.Attn.SX.Idx → EReal) (Wk Wq Wv : Cert.Attn.SW.Idx → EReal)
    (hq : ∀ (b : Fin 8) (t : Fin 4096) (h : Fin 64), V c main_v1_0 (ix3 b t h) = Cert.Attn.proj X Wq b t h)
    (hk : ∀ (b : Fin 8) (t : Fin 4096) (h : Fin 64), V c main_v1_1 (ix3 b t h) = Cert.Attn.proj X Wk b t h)
    (hv : ∀ (b : Fin 8) (t : Fin 4096) (h : Fin 64), V c main_v1_2 (ix3 b t h) = Cert.Attn.proj X Wv b t h)
    (b : Fin 8) (t : Fin 4096) (h : Fin 64) :
    (dat1 (F := Ideal) V c).arrAt 3 (cfgL (F := Ideal)).N (ix3 b t h) = Cert.Attn.kerAt X Wk Wq Wv b t h := by
  have hfin := (dat1 (F := Ideal) V c).arrAt_eq_of_cover 3 (RV.attnArr X Wk Wq Wv)
    (fun t hf => RV.flushed3_eq V X Wk Wq Wv c hq hk hv t hf) RV.cover3
  exact congrFun hfin (ix3 b t h)

end

end Cert.KernelIdeal.Hand

end
-- ==== Proof.R0Value.lean ====
/-
  The projection kernel's three output arrays after its region, at the ideal values: entry (b, t, h) of the query,
  key and value arrays is row t of batch b of `x` times column h, h + 64, h + 128 of the concatenated weights.
  First the kernel's payloads at an index (one matrix product, then a column slice and a change of shape), then what
  every grid point writes back, as its block of that one function of the arrays, and the blocks cover each array.
-/
import proofs.«402720_j7730941132963_3_alg».proof.Proof.R0Body
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! ## The matrix product at an index -/

theorem lhs_proj_0 (i : S2048x192.Idx) (q : dot_S2048x1024_S1024x192_S2048x192_1_0_0_1_n_n.contr.Idx) :
    (dot_S2048x1024_S1024x192_S2048x192_1_0_0_1_n_n.lhsIdx i q 0).val = (i 0).val := by
  unfold DotDims.lhsIdx
  rw [dif_neg (show ¬(0 : Fin S2048x1024.rank) ∈ dot_S2048x1024_S1024x192_S2048x192_1_0_0_1_n_n.lhsBatch by decide), dif_pos (show (0 : Fin S2048x1024.rank) ∈ dot_S2048x1024_S1024x192_S2048x192_1_0_0_1_n_n.lhsNonContracting by decide)]
  rfl
theorem lhs_proj_1 (i : S2048x192.Idx) (q : dot_S2048x1024_S1024x192_S2048x192_1_0_0_1_n_n.contr.Idx) :
    (dot_S2048x1024_S1024x192_S2048x192_1_0_0_1_n_n.lhsIdx i q 1).val = (q ⟨0, by decide⟩).val :=
  dot_S2048x1024_S1024x192_S2048x192_1_0_0_1_n_n.lhsIdx_val_of_single rfl i q
theorem rhs_proj_0 (i : S2048x192.Idx) (q : dot_S2048x1024_S1024x192_S2048x192_1_0_0_1_n_n.contr.Idx) :
    (dot_S2048x1024_S1024x192_S2048x192_1_0_0_1_n_n.rhsIdx i q 0).val = (q ⟨0, by decide⟩).val :=
  dot_S2048x1024_S1024x192_S2048x192_1_0_0_1_n_n.rhsIdx_val_of_single rfl i q
theorem rhs_proj_1 (i : S2048x192.Idx) (q : dot_S2048x1024_S1024x192_S2048x192_1_0_0_1_n_n.contr.Idx) :
    (dot_S2048x1024_S1024x192_S2048x192_1_0_0_1_n_n.rhsIdx i q 1).val = (i 1).val := by
  unfold DotDims.rhsIdx
  rw [dif_neg (show ¬(1 : Fin S1024x192.rank) ∈ dot_S2048x1024_S1024x192_S2048x192_1_0_0_1_n_n.rhsBatch by decide), dif_pos (show (1 : Fin S1024x192.rank) ∈ dot_S2048x1024_S1024x192_S2048x192_1_0_0_1_n_n.rhsNonContracting by decide)]
  rfl

/-- A [2048,1024] matrix times a [1024,192] matrix into the zero accumulator, at row `r` and column `n`: the sum
    over the 1024 inner positions of the products. -/
theorem proj_matmul_apply (a : FVec Ideal S2048x1024 .bf16) (b : FVec Ideal S1024x192 .bf16) (r : Fin 2048) (n : Fin 192) :
    (matmul dot_S2048x1024_S1024x192_S2048x192_1_0_0_1_n_n none a b (constant (F := Ideal) S2048x192 .f32 0x00000000#32) : FVec Ideal S2048x192 .f32) (ix2 r n)
      = ∑ e : Fin 1024, a (ix2 r e) * b (ix2 e n) := by
  simp only [matmul]
  rw [Ideal.matmul_constant_zero_apply, ← Equiv.sum_comp (contrEquiv1 dot_S2048x1024_S1024x192_S2048x192_1_0_0_1_n_n 1024 rfl rfl).symm]
  refine Finset.sum_congr rfl fun k _ => ?_
  have hk := contrEquiv1_symm_val dot_S2048x1024_S1024x192_S2048x192_1_0_0_1_n_n 1024 rfl rfl k
  have el : dot_S2048x1024_S1024x192_S2048x192_1_0_0_1_n_n.lhsIdx (ix2 r n) ((contrEquiv1 dot_S2048x1024_S1024x192_S2048x192_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S2048x1024_S1024x192_S2048x192_1_0_0_1_n_n.rhsIdx (ix2 r n) ((contrEquiv1 dot_S2048x1024_S1024x192_S2048x192_1_0_0_1_n_n 1024 rfl rfl).symm k) = ix2 k n := funext fun a => Fin.ext (by
    match a with
    | ⟨0, _⟩ => exact (rhs_proj_0 _ _).trans hk
    | ⟨1, _⟩ => exact rhs_proj_1 _ _)
  rw [el, er]

/-! ## The payloads at an index -/

/-- The product the three outputs are cut from, at row `r` and column `n`: the block of `x` loses its unit axis,
    and the two changes of format are the identity on the extended reals. -/
theorem projpay1_apply (x0 : Vec Ideal S1x2048x1024 .f32) (x1 : Vec Ideal S1024x192 .f32) (r : Fin 2048) (n : Fin 192) :
    k0_pay1 x0 x1 (ix2 r n) = ∑ e : Fin 1024, (x0 (ix3 0 r e) : EReal) * (x1 (ix2 e n) : EReal) := by
  unfold k0_pay1
  refine (proj_matmul_apply _ _ r n).trans (Finset.sum_congr rfl fun e _ => ?_)
  rw [truncf_apply, truncf_apply, shapeCast_self]
  congr 1
  refine shapeCast_apply x0 _ (ix2 r e) (ix3 0 r e) ?_
  rw [Shape.rowMajor_val_three, Shape.rowMajor_val_two]
  show (0 * 2048 + r.val) * 1024 + e.val = r.val * 1024 + e.val
  omega

/-- A 64-column slice of the product at column offset `off`, narrowed and given a leading unit axis, at (z, r, h):
    the product at row `r` and column `h + off`. -/
theorem pay_slice_apply (off : Nat) (hoff : off + 64 ≤ 192) (hs : S2048x192.Slices ![0, off] S2048x64)
    (x0 : Vec Ideal S1x2048x1024 .f32) (x1 : Vec Ideal S1024x192 .f32) (z : Fin 1) (r : Fin 2048) (h : Fin 64) :
    (shapeCast S1x2048x64 (truncf .bf16 (extractStridedSlice S2048x64 ![0, off] (k0_pay1 x0 x1) hs) bitsLt_bf16_f32 : FVec Ideal S2048x64 .bf16) shapeCasts_S2048x64_S1x2048x64 : FVec Ideal S1x2048x64 .bf16) (ix3 z r h)
      = ∑ e : Fin 1024, (x0 (ix3 0 r e) : EReal) * (x1 (ix2 e ⟨h.val + off, by omega⟩) : EReal) := by
  refine (shapeCast_apply _ _ (ix3 z r h) (ix2 r h) ?_).trans ?_
  · rw [Shape.rowMajor_val_three, Shape.rowMajor_val_two]
    show r.val * 64 + h.val = (z.val * 2048 + r.val) * 64 + h.val
    have := z.isLt
    omega
  rw [truncf_apply]
  refine (extractStridedSlice_apply _ _ hs (ix2 r h) (ix2 r ⟨h.val + off, by omega⟩) fun a => ?_).trans (projpay1_apply x0 x1 r _)
  match a with
  | ⟨0, _⟩ => show r.val = 0 + r.val; omega
  | ⟨1, _⟩ => show h.val + off = off + h.val; omega

theorem payQ_apply (x0 : Vec Ideal S1x2048x1024 .f32) (x1 : Vec Ideal S1024x192 .f32) (z : Fin 1) (r : Fin 2048) (h : Fin 64) :
    k0_pay2 x0 x1 (ix3 z r h) = ∑ e : Fin 1024, (x0 (ix3 0 r e) : EReal) * (x1 (ix2 e ⟨h.val + 0, by omega⟩) : EReal) :=
  pay_slice_apply 0 (by omega) slices_S2048x192_o0_0_S2048x64 x0 x1 z r h
theorem payK_apply (x0 : Vec Ideal S1x2048x1024 .f32) (x1 : Vec Ideal S1024x192 .f32) (z : Fin 1) (r : Fin 2048) (h : Fin 64) :
    k0_pay3 x0 x1 (ix3 z r h) = ∑ e : Fin 1024, (x0 (ix3 0 r e) : EReal) * (x1 (ix2 e ⟨h.val + 64, by omega⟩) : EReal) :=
  pay_slice_apply 64 (by omega) slices_S2048x192_o0_64_S2048x64 x0 x1 z r h
theorem payV_apply (x0 : Vec Ideal S1x2048x1024 .f32) (x1 : Vec Ideal S1024x192 .f32) (z : Fin 1) (r : Fin 2048) (h : Fin 64) :
    k0_pay4 x0 x1 (ix3 z r h) = ∑ e : Fin 1024, (x0 (ix3 0 r e) : EReal) * (x1 (ix2 e ⟨h.val + 128, by omega⟩) : EReal) :=
  pay_slice_apply 128 (by omega) slices_S2048x192_o0_128_S2048x64 x0 x1 z r h

section R0Value

-- the contents of the unscoped buffers when the region is entered, at the ideal values
variable (V : (c : Dev nD) → (b : Ref sig .tc) → Buf (Elt Ideal) ((c : Thread nD τ).loc b))

/-! ## The arrays as functions on their index sets -/

/-- The array `x` and the concatenated weights as the region finds them, -/
abbrev xArr (c : Dev nD) : S8x4096x1024.Idx → EReal := V c main_arg0
abbrev wArr (c : Dev nD) : S1024x192.Idx → EReal := V c main_v0
/-- and the query, key and value arrays after the region's last write-back. -/
abbrev qArr (c : Dev nD) : S8x4096x64.Idx → EReal := (dat0 (F := Ideal) V c).arrAt 2 cfg0.N
abbrev kArr (c : Dev nD) : S8x4096x64.Idx → EReal := (dat0 (F := Ideal) V c).arrAt 3 cfg0.N
abbrev vArr (c : Dev nD) : S8x4096x64.Idx → EReal := (dat0 (F := Ideal) V c).arrAt 4 cfg0.N

/-- Entry (b, t, h) of a projection: row `t` of batch `b` of `x` times column `h + off` of the weights. -/
def projArr (c : Dev nD) (off : Nat) (hoff : off + 64 ≤ 192) : S8x4096x64.Idx → EReal :=
  fun i => ∑ e : Fin 1024, xArr V c (ix3 (i 0) (i 1) e) * wArr V c (ix2 e ⟨(i 2).val + off, by have : (i 2).val < 64 := (i 2).isLt; omega⟩)

/-! ## The index maps over the grid -/

theorem hzw3 : (![0, 0, 0] : Fin 3 → Nat) = fun _ => 0 := funext fun a => by fin_cases a <;> rfl
theorem hzw2 : (![0, 0] : Fin 2 → Nat) = fun _ => 0 := funext fun a => by fin_cases a <;> rfl

/-- Point `t` of the 8 × 2 grid works on batch `t / 2` and on row block `t % 2`, for `x` and for the three outputs
    alike; the weights' one block is the whole matrix. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-! ## The input blocks at an index -/

/-- The block of `x` at point `t`, at (z, r, e): batch `t / 2`, row `(t % 2) * 2048 + r`. -/
theorem xblk_apply (c : Dev nD) (t : Fin cfg0.N) (y : S1x2048x1024.Idx) (k : S8x4096x1024.Idx)
    (h0 : (k 0).val = t.val / 2) (h1 : (k 1).val = (t.val % 2) * 2048 + (y 1).val) (h2 : (k 2).val = (y 2).val) :
    (iblk0 V c 0 t : Vec Ideal S1x2048x1024 .f32) y = xArr V c k := by
  obtain ⟨e0, e1, e2, -⟩ := idx_facts t
  unfold iblk0
  rw [View.read_apply]
  show V c main_arg0 _ = V c main_arg0 _
  congr 1
  funext a
  apply Fin.ext
  have hy : (y 0).val < 1 := (y 0).isLt
  match a with
  | ⟨0, _⟩ => show win0_0.index t (0 : Fin 3) * 1 + 1 * (y 0).val = (k 0).val; rw [e0, h0]; omega
  | ⟨1, _⟩ => show win0_0.index t (1 : Fin 3) * 2048 + 1 * (y 1).val = (k 1).val; rw [e1, h1]; omega
  | ⟨2, _⟩ => show win0_0.index t (2 : Fin 3) * 1024 + 1 * (y 2).val = (k 2).val; rw [e2, h2]; omega

/-- The weights' block at any point is the whole matrix. -/
theorem wblk_apply (c : Dev nD) (t : Fin cfg0.N) (y : S1024x192.Idx) :
    (iblk0 V c 1 t : Vec Ideal S1024x192 .f32) y = wArr V c y := by
  obtain ⟨-, -, -, e0, e1, -⟩ := idx_facts t
  unfold iblk0
  rw [View.read_apply]
  show V c main_v0 _ = V c main_v0 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 192 + 1 * (y 1).val = (y 1).val; rw [e1]; omega

/-! ## What a point writes back -/

/-- The sum a payload computes from two blocks is the projection's entry at `i`, when the first block's row `r` is row
    `i 1` of batch `i 0` of `x`, the second block is the weights, and `i`'s column is `h`. -/
theorem sum_eq_proj (c : Dev nD) (off : Nat) (hoff : off + 64 ≤ 192) (x0 : Vec Ideal S1x2048x1024 .f32) (x1 : Vec Ideal S1024x192 .f32)
    (r : Fin 2048) (h : Fin 64) (i : S8x4096x64.Idx)
    (hx : ∀ e : Fin 1024, x0 (ix3 0 r e) = xArr V c (ix3 (i 0) (i 1) e)) (hw : ∀ y, x1 y = wArr V c y) (h2 : (i 2).val = h.val) :
    (∑ e : Fin 1024, (x0 (ix3 0 r e) : EReal) * (x1 (ix2 e ⟨h.val + off, by omega⟩) : EReal)) = projArr V c off hoff i := by
  unfold projArr
  refine Finset.sum_congr rfl fun e _ => ?_
  rw [hx e, hw]
  congr 2
  funext a
  apply Fin.ext
  match a with
  | ⟨0, _⟩ => rfl
  | ⟨1, _⟩ => show h.val + off = (i 2).val + off; rw [h2]

/-- The place of block index `j` of an output's block at point `t`: batch `t / 2`, row `(t % 2) * 2048 + j 1`, column `j 2`. -/
theorem emb_q (t : Fin cfg0.N) (j : S1x2048x64.Idx) :
    ((((cfg0.win 2).blk t).view.emb j : S8x4096x64.Idx) 0).val = t.val / 2
    ∧ ((((cfg0.win 2).blk t).view.emb j : S8x4096x64.Idx) 1).val = (t.val % 2) * 2048 + (j 1).val
    ∧ ((((cfg0.win 2).blk t).view.emb j : S8x4096x64.Idx) 2).val = (j 2).val := by
  obtain ⟨-, -, -, -, -, e0, e1, e2, -⟩ := idx_facts t
  have hj : (j 0).val < 1 := (j 0).isLt
  refine ⟨?_, ?_, ?_⟩
  · show win0_2.index t (0 : Fin 3) * 1 + 1 * (j 0).val = _; rw [e0]; omega
  · show win0_2.index t (1 : Fin 3) * 2048 + 1 * (j 1).val = _; rw [e1]; omega
  · show win0_2.index t (2 : Fin 3) * 64 + 1 * (j 2).val = _; rw [e2]; omega

/-- Every point writes back to the query array its block of the projection at column offset 0. -/
theorem flushedQ_eq (c : Dev nD) (t : Fin cfg0.N) :
    (dat0 (F := Ideal) V c).flushed 2 t = ((cfg0.win 2).blk t).view.read (Elt Ideal) (projArr V c 0 (by omega)) := by
  show (cfg0.win 2).cut (grid0.coords t) ((dat0 (F := Ideal) V c).after 2 t) = _
  rw [after0_2]
  unfold outQ
  rw [View.canon_unit_zero hzw3]
  simp only [View.ld_unit_zero (S := S1x2048x1024) hzw3, View.ld_unit_zero (S := S1024x192) hzw2]
  funext j
  obtain ⟨h0, h1, h2⟩ := emb_q t j
  obtain ⟨z, r, h, rfl⟩ : ∃ (z : Fin 1) (r : Fin 2048) (h : Fin 64), j = ix3 z r h := ⟨j 0, j 1, j 2, eq_ix3 j⟩
  rw [View.read_apply]
  exact (payQ_apply _ _ z r h).trans
    (sum_eq_proj V c 0 (by omega) _ _ r h _ (fun e => xblk_apply V c t _ _ h0 h1 rfl) (wblk_apply V c t) h2)

theorem emb_k (t : Fin cfg0.N) (j : S1x2048x64.Idx) :
    ((((cfg0.win 3).blk t).view.emb j : S8x4096x64.Idx) 0).val = t.val / 2
    ∧ ((((cfg0.win 3).blk t).view.emb j : S8x4096x64.Idx) 1).val = (t.val % 2) * 2048 + (j 1).val
    ∧ ((((cfg0.win 3).blk t).view.emb j : S8x4096x64.Idx) 2).val = (j 2).val := by
  obtain ⟨-, -, -, -, -, -, -, -, e0, e1, e2, -⟩ := idx_facts t
  have hj : (j 0).val < 1 := (j 0).isLt
  refine ⟨?_, ?_, ?_⟩
  · show win0_3.index t (0 : Fin 3) * 1 + 1 * (j 0).val = _; rw [e0]; omega
  · show win0_3.index t (1 : Fin 3) * 2048 + 1 * (j 1).val = _; rw [e1]; omega
  · show win0_3.index t (2 : Fin 3) * 64 + 1 * (j 2).val = _; rw [e2]; omega

theorem emb_v (t : Fin cfg0.N) (j : S1x2048x64.Idx) :
    ((((cfg0.win 4).blk t).view.emb j : S8x4096x64.Idx) 0).val = t.val / 2
    ∧ ((((cfg0.win 4).blk t).view.emb j : S8x4096x64.Idx) 1).val = (t.val % 2) * 2048 + (j 1).val
    ∧ ((((cfg0.win 4).blk t).view.emb j : S8x4096x64.Idx) 2).val = (j 2).val := by
  obtain ⟨-, -, -, -, -, -, -, -, -, -, -, e0, e1, e2⟩ := idx_facts t
  have hj : (j 0).val < 1 := (j 0).isLt
  refine ⟨?_, ?_, ?_⟩
  · show win0_4.index t (0 : Fin 3) * 1 + 1 * (j 0).val = _; rw [e0]; omega
  · show win0_4.index t (1 : Fin 3) * 2048 + 1 * (j 1).val = _; rw [e1]; omega
  · show win0_4.index t (2 : Fin 3) * 64 + 1 * (j 2).val = _; rw [e2]; omega

/-- Likewise the key array, at column offset 64, -/
theorem flushedK_eq (c : Dev nD) (t : Fin cfg0.N) :
    (dat0 (F := Ideal) V c).flushed 3 t = ((cfg0.win 3).blk t).view.read (Elt Ideal) (projArr V c 64 (by omega)) := by
  show (cfg0.win 3).cut (grid0.coords t) ((dat0 (F := Ideal) V c).after 3 t) = _
  rw [after0_3]
  unfold outK
  rw [View.canon_unit_zero hzw3]
  simp only [View.ld_unit_zero (S := S1x2048x1024) hzw3, View.ld_unit_zero (S := S1024x192) hzw2]
  funext j
  obtain ⟨h0, h1, h2⟩ := emb_k t j
  obtain ⟨z, r, h, rfl⟩ : ∃ (z : Fin 1) (r : Fin 2048) (h : Fin 64), j = ix3 z r h := ⟨j 0, j 1, j 2, eq_ix3 j⟩
  rw [View.read_apply]
  exact (payK_apply _ _ z r h).trans
    (sum_eq_proj V c 64 (by omega) _ _ r h _ (fun e => xblk_apply V c t _ _ h0 h1 rfl) (wblk_apply V c t) h2)

/-- and the value array, at column offset 128. -/
theorem flushedV_eq (c : Dev nD) (t : Fin cfg0.N) :
    (dat0 (F := Ideal) V c).flushed 4 t = ((cfg0.win 4).blk t).view.read (Elt Ideal) (projArr V c 128 (by omega)) := by
  show (cfg0.win 4).cut (grid0.coords t) ((dat0 (F := Ideal) V c).after 4 t) = _
  rw [after0_4]
  unfold outV
  rw [View.canon_unit_zero hzw3]
  simp only [View.ld_unit_zero (S := S1x2048x1024) hzw3, View.ld_unit_zero (S := S1024x192) hzw2]
  funext j
  obtain ⟨h0, h1, h2⟩ := emb_v t j
  obtain ⟨z, r, h, rfl⟩ : ∃ (z : Fin 1) (r : Fin 2048) (h : Fin 64), j = ix3 z r h := ⟨j 0, j 1, j 2, eq_ix3 j⟩
  rw [View.read_apply]
  exact (payV_apply _ _ z r h).trans
    (sum_eq_proj V c 128 (by omega) _ _ r h _ (fun e => xblk_apply V c t _ _ h0 h1 rfl) (wblk_apply V c t) h2)

/-! ## The blocks cover the arrays -/

/-- The point that covers row `i 1` of batch `i 0`: `(i 0) * 2 + (i 1) / 2048`. -/
def coverPt (i : S8x4096x64.Idx) : Fin cfg0.N :=
  ⟨(i 0).val * 2 + (i 1).val / 2048, by
    have h0 : (i 0).val < 8 := (i 0).isLt
    have h1 : (i 1).val < 4096 := (i 1).isLt
    show _ < grid0.N
    rw [N_0]; omega⟩

theorem coverPt_val (i : S8x4096x64.Idx) : (coverPt i).val = (i 0).val * 2 + (i 1).val / 2048 := rfl

theorem coverQ (i : S8x4096x64.Idx) : ∃ t : Fin cfg0.N, (cfg0.win 2).flush t = true ∧ i ∈ ((cfg0.win 2).blk t).view.set := by
  refine ⟨coverPt i, flush0_2 _, ?_⟩
  obtain ⟨-, -, -, -, -, e0, e1, e2, -⟩ := idx_facts (coverPt i)
  have hv := coverPt_val i
  have h0 : (i 0).val < 8 := (i 0).isLt
  have h1 : (i 1).val < 4096 := (i 1).isLt
  have h2 : (i 2).val < 64 := (i 2).isLt
  show i ∈ ((View.whole main_v1_0).slice (win0_2.rect (coverPt i))).set
  rw [View.set_slice_whole, Rect.mem_set_unit]
  intro a
  match a with
  | ⟨0, _⟩ => show win0_2.index (coverPt i) (0 : Fin 3) * 1 ≤ (i 0).val ∧ (i 0).val < win0_2.index (coverPt i) (0 : Fin 3) * 1 + 1; rw [e0, hv]; omega
  | ⟨1, _⟩ => show win0_2.index (coverPt i) (1 : Fin 3) * 2048 ≤ (i 1).val ∧ (i 1).val < win0_2.index (coverPt i) (1 : Fin 3) * 2048 + 2048; rw [e1, hv]; omega
  | ⟨2, _⟩ => show win0_2.index (coverPt i) (2 : Fin 3) * 64 ≤ (i 2).val ∧ (i 2).val < win0_2.index (coverPt i) (2 : Fin 3) * 64 + 64; rw [e2]; omega

theorem coverK (i : S8x4096x64.Idx) : ∃ t : Fin cfg0.N, (cfg0.win 3).flush t = true ∧ i ∈ ((cfg0.win 3).blk t).view.set := by
  refine ⟨coverPt i, flush0_3 _, ?_⟩
  obtain ⟨-, -, -, -, -, -, -, -, e0, e1, e2, -⟩ := idx_facts (coverPt i)
  have hv := coverPt_val i
  have h0 : (i 0).val < 8 := (i 0).isLt
  have h1 : (i 1).val < 4096 := (i 1).isLt
  have h2 : (i 2).val < 64 := (i 2).isLt
  show i ∈ ((View.whole main_v1_1).slice (win0_3.rect (coverPt i))).set
  rw [View.set_slice_whole, Rect.mem_set_unit]
  intro a
  match a with
  | ⟨0, _⟩ => show win0_3.index (coverPt i) (0 : Fin 3) * 1 ≤ (i 0).val ∧ (i 0).val < win0_3.index (coverPt i) (0 : Fin 3) * 1 + 1; rw [e0, hv]; omega
  | ⟨1, _⟩ => show win0_3.index (coverPt i) (1 : Fin 3) * 2048 ≤ (i 1).val ∧ (i 1).val < win0_3.index (coverPt i) (1 : Fin 3) * 2048 + 2048; rw [e1, hv]; omega
  | ⟨2, _⟩ => show win0_3.index (coverPt i) (2 : Fin 3) * 64 ≤ (i 2).val ∧ (i 2).val < win0_3.index (coverPt i) (2 : Fin 3) * 64 + 64; rw [e2]; omega

theorem coverV (i : S8x4096x64.Idx) : ∃ t : Fin cfg0.N, (cfg0.win 4).flush t = true ∧ i ∈ ((cfg0.win 4).blk t).view.set := by
  refine ⟨coverPt i, flush0_4 _, ?_⟩
  obtain ⟨-, -, -, -, -, -, -, -, -, -, -, e0, e1, e2⟩ := idx_facts (coverPt i)
  have hv := coverPt_val i
  have h0 : (i 0).val < 8 := (i 0).isLt
  have h1 : (i 1).val < 4096 := (i 1).isLt
  have h2 : (i 2).val < 64 := (i 2).isLt
  show i ∈ ((View.whole main_v1_2).slice (win0_4.rect (coverPt i))).set
  rw [View.set_slice_whole, Rect.mem_set_unit]
  intro a
  match a with
  | ⟨0, _⟩ => show win0_4.index (coverPt i) (0 : Fin 3) * 1 ≤ (i 0).val ∧ (i 0).val < win0_4.index (coverPt i) (0 : Fin 3) * 1 + 1; rw [e0, hv]; omega
  | ⟨1, _⟩ => show win0_4.index (coverPt i) (1 : Fin 3) * 2048 ≤ (i 1).val ∧ (i 1).val < win0_4.index (coverPt i) (1 : Fin 3) * 2048 + 2048; rw [e1, hv]; omega
  | ⟨2, _⟩ => show win0_4.index (coverPt i) (2 : Fin 3) * 64 ≤ (i 2).val ∧ (i 2).val < win0_4.index (coverPt i) (2 : Fin 3) * 64 + 64; rw [e2]; omega

/-! ## The three arrays after the region -/

theorem arr0_q_eq (c : Dev nD) : (dat0 (F := Ideal) V c).arrAt 2 cfg0.N = projArr V c 0 (by omega) :=
  (dat0 (F := Ideal) V c).arrAt_eq_of_cover 2 (projArr V c 0 (by omega)) (fun t _ => flushedQ_eq V c t) coverQ
theorem arr0_k_eq (c : Dev nD) : (dat0 (F := Ideal) V c).arrAt 3 cfg0.N = projArr V c 64 (by omega) :=
  (dat0 (F := Ideal) V c).arrAt_eq_of_cover 3 (projArr V c 64 (by omega)) (fun t _ => flushedK_eq V c t) coverK
theorem arr0_v_eq (c : Dev nD) : (dat0 (F := Ideal) V c).arrAt 4 cfg0.N = projArr V c 128 (by omega) :=
  (dat0 (F := Ideal) V c).arrAt_eq_of_cover 4 (projArr V c 128 (by omega)) (fun t _ => flushedV_eq V c t) coverV

/-- Entry (b, t, h) of the query array after the region: row `t` of batch `b` of `x` times column `h` of the weights; -/
theorem arr0_q (c : Dev nD) (b : Fin 8) (t : Fin 4096) (h : Fin 64) :
    qArr V c (ix3 b t h) = ∑ e : Fin 1024, xArr V c (ix3 b t e) * wArr V c (ix2 e ⟨h.val, by omega⟩) :=
  congrFun (arr0_q_eq V c) (ix3 b t h)
/-- of the key array: times column `h + 64`; -/
theorem arr0_k (c : Dev nD) (b : Fin 8) (t : Fin 4096) (h : Fin 64) :
    kArr V c (ix3 b t h) = ∑ e : Fin 1024, xArr V c (ix3 b t e) * wArr V c (ix2 e ⟨h.val + 64, by omega⟩) :=
  congrFun (arr0_k_eq V c) (ix3 b t h)
/-- of the value array: times column `h + 128`. -/
theorem arr0_v (c : Dev nD) (b : Fin 8) (t : Fin 4096) (h : Fin 64) :
    vArr V c (ix3 b t h) = ∑ e : Fin 1024, xArr V c (ix3 b t e) * wArr V c (ix2 e ⟨h.val + 128, by omega⟩) :=
  congrFun (arr0_v_eq V c) (ix3 b t h)

end R0Value

end Cert.KernelIdeal.Hand

end
-- ==== Proof.Bridge.lean ====
/-
  The three arrays the projection call leaves are the specification's projections: with `x` in the first array and
  the query, key and value weights side by side in the 192-column matrix, entry (b, t, h) of the query array is
  `proj x wq b t h`, of the key array `proj x wk b t h`, of the value array `proj x wv b t h`.
-/
import proofs.«402720_j7730941132963_3_alg».proof.Proof.R0Value
import proofs.«402720_j7730941132963_3_alg».proof.Proof.AttnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## The 192-column weight matrix at an index -/

/-- The three [1024,64] weight matrices side by side along the columns. -/
abbrev wcat (wq wk wv : Cert.Attn.SW.Idx → EReal) : S1024x192.Idx → EReal :=
  concatenate S1024x192 1 [⟨S1024x64, wq⟩, ⟨S1024x64, wk⟩, ⟨S1024x64, wv⟩] concatenates_S1024x64_S1024x64_S1024x64_S1024x192_d1

/-- Columns 0 … 63 are the first matrix, -/
theorem wcat_q (wq wk wv : Cert.Attn.SW.Idx → EReal) (e : Fin 1024) (h : Fin 64) :
    wcat wq wk wv (ix2 e ⟨h.val, by omega⟩) = wq (ix2 e h) := by
  refine concatenate_apply_piece (1 : Fin S1024x192.rank) _ _ (ix2 e ⟨h.val, by omega⟩) 0 (by show 0 < 3; omega) S1024x64 wq rfl rfl 0 (by rfl) (ix2 e h) (fun b hb => ?_) ?_
  · match b with
    | ⟨0, _⟩ => rfl
    | ⟨1, _⟩ => exact absurd rfl hb
  · show 0 + h.val = h.val; omega

/-- columns 64 … 127 the second, -/
theorem wcat_k (wq wk wv : Cert.Attn.SW.Idx → EReal) (e : Fin 1024) (h : Fin 64) :
    wcat wq wk wv (ix2 e ⟨h.val + 64, by omega⟩) = wk (ix2 e h) := by
  refine concatenate_apply_piece (1 : Fin S1024x192.rank) _ _ (ix2 e ⟨h.val + 64, by omega⟩) 1 (by show 1 < 3; omega) S1024x64 wk rfl rfl 64 (by rfl) (ix2 e h) (fun b hb => ?_) ?_
  · match b with
    | ⟨0, _⟩ => rfl
    | ⟨1, _⟩ => exact absurd rfl hb
  · show 64 + h.val = h.val + 64; omega

/-- columns 128 … 191 the third. -/
theorem wcat_v (wq wk wv : Cert.Attn.SW.Idx → EReal) (e : Fin 1024) (h : Fin 64) :
    wcat wq wk wv (ix2 e ⟨h.val + 128, by omega⟩) = wv (ix2 e h) := by
  refine concatenate_apply_piece (1 : Fin S1024x192.rank) _ _ (ix2 e ⟨h.val + 128, by omega⟩) 2 (by show 2 < 3; omega) S1024x64 wv rfl rfl 128 (by rfl) (ix2 e h) (fun b hb => ?_) ?_
  · match b with
    | ⟨0, _⟩ => rfl
    | ⟨1, _⟩ => exact absurd rfl hb
  · show 128 + h.val = h.val + 128; omega

/-! ## The three arrays are the projections -/

section Bridge

variable (V : (c : Dev nD) → (b : Ref sig .tc) → Buf (Elt Ideal) ((c : Thread nD τ).loc b))

theorem q_is_proj (c : Dev nD) (x : Cert.Attn.SX.Idx → EReal) (wq wk wv : Cert.Attn.SW.Idx → EReal)
    (hx : xArr V c = x)
    (hw : wArr V c = concatenate S1024x192 1 [⟨S1024x64, wq⟩, ⟨S1024x64, wk⟩, ⟨S1024x64, wv⟩] concatenates_S1024x64_S1024x64_S1024x64_S1024x192_d1)
    (b : Fin 8) (t : Fin 4096) (h : Fin 64) : qArr V c (ix3 b t h) = Cert.Attn.proj x wq b t h := by
  unfold Cert.Attn.proj
  rw [arr0_q V c b t h]
  refine Finset.sum_congr rfl fun e _ => ?_
  rw [hx, hw]
  exact congrArg _ (wcat_q wq wk wv e h)

theorem k_is_proj (c : Dev nD) (x : Cert.Attn.SX.Idx → EReal) (wq wk wv : Cert.Attn.SW.Idx → EReal)
    (hx : xArr V c = x)
    (hw : wArr V c = concatenate S1024x192 1 [⟨S1024x64, wq⟩, ⟨S1024x64, wk⟩, ⟨S1024x64, wv⟩] concatenates_S1024x64_S1024x64_S1024x64_S1024x192_d1)
    (b : Fin 8) (t : Fin 4096) (h : Fin 64) : kArr V c (ix3 b t h) = Cert.Attn.proj x wk b t h := by
  unfold Cert.Attn.proj
  rw [arr0_k V c b t h]
  refine Finset.sum_congr rfl fun e _ => ?_
  rw [hx, hw]
  exact congrArg _ (wcat_k wq wk wv e h)

theorem v_is_proj (c : Dev nD) (x : Cert.Attn.SX.Idx → EReal) (wq wk wv : Cert.Attn.SW.Idx → EReal)
    (hx : xArr V c = x)
    (hw : wArr V c = concatenate S1024x192 1 [⟨S1024x64, wq⟩, ⟨S1024x64, wk⟩, ⟨S1024x64, wv⟩] concatenates_S1024x64_S1024x64_S1024x64_S1024x192_d1)
    (b : Fin 8) (t : Fin 4096) (h : Fin 64) : vArr V c (ix3 b t h) = Cert.Attn.proj x wv b t h := by
  unfold Cert.Attn.proj
  rw [arr0_v V c b t h]
  refine Finset.sum_congr rfl fun e _ => ?_
  rw [hx, hw]
  exact congrArg _ (wcat_v wq wk wv e h)

end Bridge

end Cert.KernelIdeal.Hand

end
-- ==== Proof.AttnMath.lean ====
/-
  The streaming form of causal attention equals the textbook softmax-weighted sum, on finite inputs.

  The road: every score is a real or `⊥` and every value is a real, so every weight `exp (s - M)` against a real
  maximum `M` is the cast of a nonnegative real `ew s M` (zero exactly at a masked score).  All sums then live in `ℝ`,
  where the rescaling `exp (M - M') * exp (s - M) = exp (s - M')` and distributivity are plain algebra.
-/
import proofs.«402720_j7730941132963_3_alg».proof.Proof.AttnSpec

noncomputable section

open scoped BigOperators

namespace Cert.Attn

open Idealize.ShloMosaic Idealize.ShloMosaic.ValueIdx

/-! ## Casts of finite real sums -/

/-- The cast of a finite real sum is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of finite arrays is finite. -/
theorem proj_real (x : SX.Idx → EReal) (w : SW.Idx → EReal) (hx : ∀ i, ∃ r : ℝ, x i = (r : EReal))
    (hw : ∀ i, ∃ r : ℝ, w i = (r : EReal)) (b : Fin 8) (t : Fin 4096) (h : Fin 64) :
    ∃ r : ℝ, proj x w b t h = (r : EReal) := by
  choose xr hxr using hx
  choose wr hwr using hw
  refine ⟨∑ e : Fin 1024, xr (ix3 b t e) * wr (ix2 e h), ?_⟩
  rw [proj, coe_sum]
  refine Finset.sum_congr rfl fun e _ => ?_
  rw [hxr, hwr, EReal.coe_mul]

/-- The scale is the real `1/8`. -/
theorem eighth_eq : eighth = (((1 : ℝ) / 8 : ℝ) : EReal) := by
  simp [eighth, Ideal.ofBits, Ideal.ieee, -EReal.coe_mul]; norm_num

/-- A score of finite projections is finite. -/
theorem score_real (q k : Fin 8 → Fin 4096 → Fin 64 → EReal) (hq : ∀ b t h, ∃ r : ℝ, q b t h = (r : EReal))
    (hk : ∀ b t h, ∃ r : ℝ, k b t h = (r : EReal)) (b : Fin 8) (t s : Fin 4096) :
    ∃ r : ℝ, score q k b t s = (r : EReal) := by
  choose qr hqr using hq
  choose kr hkr using hk
  refine ⟨(∑ h : Fin 64, qr b t h * kr b s h) * (1 / 8), ?_⟩
  rw [score, eighth_eq, EReal.coe_mul, coe_sum]
  congr 1
  refine Finset.sum_congr rfl fun h _ => ?_
  rw [hqr, hkr, EReal.coe_mul]

/-! ## Weights as reals -/

/-- The weight of a score `m` against a real maximum `M`: zero at a masked score, `exp (m - M)` at a real one. -/
def ew (m : EReal) (M : ℝ) : ℝ := if m = ⊥ then 0 else Real.exp (m.toReal - M)

theorem ew_bot (M : ℝ) : ew ⊥ M = 0 := by simp [ew]

theorem ew_nonneg (m : EReal) (M : ℝ) : 0 ≤ ew m M := by
  unfold ew; split_ifs
  · exact le_rfl
  · exact (Real.exp_pos _).le

theorem ew_pos {m : EReal} (hm : m ≠ ⊥) (M : ℝ) : 0 < ew m M := by
  unfold ew; rw [if_neg hm]; exact Real.exp_pos _

/-- The extended-real weight is the cast of the real one. -/
theorem exp_sub_coe (m : EReal) (hm : m ≠ ⊤) (M : ℝ) : Ideal.exp (m - (M : EReal)) = ((ew m M : ℝ) : EReal) := by
  induction m using EReal.rec with
  | bot => rw [EReal.bot_sub, Ideal.exp_bot, ew_bot, EReal.coe_zero]
  | coe r =>
    rw [← EReal.coe_sub, Ideal.exp_coe, ew, if_neg (EReal.coe_ne_bot r), EReal.toReal_coe]
  | top => exact absurd rfl hm

/-- Moving the maximum from `M` up to `M'` rescales a weight by `exp (M - M')`. -/
theorem ew_rescale (m M : EReal) (hM : M ≠ ⊤) (hmM : m ≤ M) (M' : ℝ) : ew M M' * ew m M.toReal = ew m M' := by
  by_cases hm : m = ⊥
  · simp [ew, hm]
  · have hMb : M ≠ ⊥ := fun h => hm (le_bot_iff.mp (h ▸ hmM))
    rw [ew, ew, ew, if_neg hMb, if_neg hm, if_neg hm, ← Real.exp_add]
    congr 1; ring

/-! ## The running maximum -/

/-- The maximum of the scores of the first `n` tiles. -/
def supTo (ms : ℕ → Fin 1024 → EReal) (n : ℕ) : EReal :=
  (Finset.range n).sup fun j => Finset.univ.sup (ms j)

theorem tileMax_eq_sup (sT : Fin 1024 → EReal) : tileMax sT = Finset.univ.sup sT := rfl

theorem supTo_succ (ms : ℕ → Fin 1024 → EReal) (n : ℕ) :
    supTo ms (n + 1) = max (supTo ms n) (Finset.univ.sup (ms n)) := by
  rw [supTo, Finset.range_add_one, Finset.sup_insert, max_comm]; rfl

/-- The running maximum after `n` tiles is the maximum of their scores. -/
theorem run_fst (ms vv : ℕ → Fin 1024 → EReal) (n : ℕ) : (run ms vv n).1 = supTo ms n := by
  induction n with
  | zero => simp [run, supTo]
  | succ n ih =>
    show stepM (run ms vv n).1 (ms n) = _
    rw [ih, stepM, tileMax_eq_sup, supTo_succ]

theorem le_supTo (ms : ℕ → Fin 1024 → EReal) {n j : ℕ} (hj : j < n) (c : Fin 1024) : ms j c ≤ supTo ms n :=
  le_trans (Finset.le_sup (f := ms j) (Finset.mem_univ c))
    (Finset.le_sup (f := fun j => Finset.univ.sup (ms j)) (Finset.mem_range.2 hj))

theorem supTo_ne_top (ms : ℕ → Fin 1024 → EReal) (n : ℕ) (hs : ∀ j < n, ∀ c, ms j c ≠ ⊤) : supTo ms n ≠ ⊤ := by
  refine ne_of_lt ((Finset.sup_lt_iff bot_lt_top).2 fun j hj => ?_)
  exact (Finset.sup_lt_iff bot_lt_top).2 fun c _ => lt_top_iff_ne_top.2 (hs j (Finset.mem_range.1 hj) c)

theorem supTo_ne_bot (ms : ℕ → Fin 1024 → EReal) {n : ℕ} (hn : 0 < n) (h0 : ms 0 0 ≠ ⊥) : supTo ms n ≠ ⊥ :=
  fun h => h0 (le_bot_iff.mp (h ▸ le_supTo ms hn 0))

/-! ## One tile's update, in reals -/

theorem stepL_coe (M : EReal) (hM : M ≠ ⊤) (Lr : ℝ) (sT : Fin 1024 → EReal) (hs : ∀ c, sT c ≠ ⊤) (M' : ℝ)
    (hM' : stepM M sT = (M' : EReal)) :
    stepL M (Lr : EReal) sT = ((ew M M' * Lr + ∑ c, ew (sT c) M' : ℝ) : EReal) := by
  rw [stepL, hM', exp_sub_coe M hM, EReal.coe_add, EReal.coe_mul, coe_sum]
  congr 1
  exact Finset.sum_congr rfl fun c _ => exp_sub_coe (sT c) (hs c) M'

theorem stepA_coe (M : EReal) (hM : M ≠ ⊤) (Ar : ℝ) (sT vT : Fin 1024 → EReal) (hs : ∀ c, sT c ≠ ⊤)
    (hv : ∀ c, vT c = ((vT c).toReal : EReal)) (M' : ℝ) (hM' : stepM M sT = (M' : EReal)) :
    stepA M (Ar : EReal) sT vT = ((ew M M' * Ar + ∑ c, ew (sT c) M' * (vT c).toReal : ℝ) : EReal) := by
  rw [stepA, hM', exp_sub_coe M hM, EReal.coe_add, EReal.coe_mul, coe_sum]
  congr 1
  refine Finset.sum_congr rfl fun c _ => ?_
  rw [exp_sub_coe (sT c) (hs c) M', EReal.coe_mul, ← hv c]

/-! ## The streaming invariant -/

/-- After `n` tiles the running sum of weights and the running weighted sum are the sums over the columns seen so
    far, each weight taken against the current maximum. -/
theorem run_inv (ms vv : ℕ → Fin 1024 → EReal) (N : ℕ) (hs : ∀ j < N, ∀ c, ms j c ≠ ⊤)
    (hv : ∀ j < N, ∀ c, vv j c = ((vv j c).toReal : EReal)) (h0 : ms 0 0 ≠ ⊥) :
    ∀ n ≤ N,
      (run ms vv n).2.1 = ((∑ j ∈ Finset.range n, ∑ c, ew (ms j c) (supTo ms n).toReal : ℝ) : EReal) ∧
      (run ms vv n).2.2 =
        ((∑ j ∈ Finset.range n, ∑ c, ew (ms j c) (supTo ms n).toReal * (vv j c).toReal : ℝ) : EReal) := by
  intro n
  induction n with
  | zero => intro _; simp [run]
  | succ n ih =>
    intro hn
    obtain ⟨ihL, ihA⟩ := ih (Nat.le_of_succ_le hn)
    have hM : supTo ms n ≠ ⊤ := supTo_ne_top ms n fun j hj => hs j (by omega)
    have hM't : supTo ms (n + 1) ≠ ⊤ := supTo_ne_top ms (n + 1) fun j hj => hs j (by omega)
    have hM'b : supTo ms (n + 1) ≠ ⊥ := supTo_ne_bot ms (Nat.succ_pos n) h0
    have hstep : stepM (supTo ms n) (ms n) = (((supTo ms (n + 1)).toReal : ℝ) : EReal) := by
      rw [EReal.coe_toReal hM't hM'b, stepM, tileMax_eq_sup, supTo_succ]
    have hsn : ∀ c, ms n c ≠ ⊤ := hs n (by omega)
    have hvn : ∀ c, vv n c = ((vv n c).toReal : EReal) := hv n (by omega)
    have hres : ∀ j ∈ Finset.range n, ∀ c : Fin 1024,
        ew (supTo ms n) (supTo ms (n + 1)).toReal * ew (ms j c) (supTo ms n).toReal
          = ew (ms j c) (supTo ms (n + 1)).toReal :=
      fun j hj c => ew_rescale (ms j c) (supTo ms n) hM (le_supTo ms (Finset.mem_range.1 hj) c) _
    constructor
    · show stepL (run ms vv n).1 (run ms vv n).2.1 (ms n) = _
      rw [run_fst, ihL, stepL_coe _ hM _ _ hsn _ hstep]
      congr 1
      rw [Finset.sum_range_succ, Finset.mul_sum]
      congr 1
      refine Finset.sum_congr rfl fun j hj => ?_
      rw [Finset.mul_sum]
      exact Finset.sum_congr rfl fun c _ => hres j hj c
    · show stepA (run ms vv n).1 (run ms vv n).2.2 (ms n) (vv n) = _
      rw [run_fst, ihA, stepA_coe _ hM _ _ _ hsn hvn _ hstep]
      congr 1
      rw [Finset.sum_range_succ, Finset.mul_sum]
      congr 1
      refine Finset.sum_congr rfl fun j hj => ?_
      rw [Finset.mul_sum]
      refine Finset.sum_congr rfl fun c _ => ?_
      rw [← mul_assoc, hres j hj c]

/-! ## The row cut into tiles -/

theorem tiles_val (f : Fin 4096 → EReal) (j : Fin 4) (c : Fin 1024) : tiles f j.val c = f (col j c) := by
  show (if h : j.val < 4 then f (col ⟨j.val, h⟩ c) else ⊥) = _
  rw [dif_pos j.isLt]

/-- The columns of the four tiles are the 4096 key positions, each once. -/
def colEquiv : Fin 4 × Fin 1024 ≃ Fin 4096 where
  toFun p := col p.1 p.2
  invFun s := (⟨s.val / 1024, by have := s.isLt; omega⟩, ⟨s.val % 1024, Nat.mod_lt _ (by norm_num)⟩)
  left_inv := by
    rintro ⟨j, c⟩
    have hj := j.isLt
    have hc := c.isLt
    refine Prod.ext (Fin.ext ?_) (Fin.ext ?_)
    · show (j.val * 1024 + c.val) / 1024 = j.val
      omega
    · show (j.val * 1024 + c.val) % 1024 = c.val
      omega
  right_inv := by
    intro s
    refine Fin.ext ?_
    show s.val / 1024 * 1024 + s.val % 1024 = s.val
    omega

/-- A sum over the key positions, tile by tile. -/
theorem sum_cols (f : Fin 4096 → ℝ) : ∑ s, f s = ∑ j : Fin 4, ∑ c : Fin 1024, f (col j c) := by
  rw [← colEquiv.sum_comp f, Fintype.sum_prod_type]
  rfl

/-- A sum over the key positions whose tiles from the `n`-th on contribute nothing is the sum over the first
    `n` tiles. -/
theorem sum_tiles (g : ℕ → Fin 1024 → ℝ) (f : Fin 4096 → ℝ) (hg : ∀ (j : Fin 4) (c : Fin 1024), g j.val c = f (col j c))
    (n : ℕ) (hn : n ≤ 4) (hz : ∀ j, n ≤ j → j < 4 → ∀ c, g j c = 0) :
    ∑ s, f s = ∑ j ∈ Finset.range n, ∑ c, g j c := by
  rw [sum_cols]
  rw [show (∑ j : Fin 4, ∑ c : Fin 1024, f (col j c)) = ∑ j : Fin 4, (fun j : ℕ => ∑ c, g j c) j.val from
    Finset.sum_congr rfl fun j _ => Finset.sum_congr rfl fun c _ => (hg j c).symm]
  rw [Fin.sum_univ_eq_sum_range (fun j => ∑ c, g j c) 4]
  symm
  refine Finset.sum_subset (Finset.range_subset_range.2 hn) fun j hj hjn => ?_
  refine Finset.sum_eq_zero fun c _ => ?_
  exact hz j (by simpa using hjn) (Finset.mem_range.1 hj) c

/-! ## The two forms agree on one row -/

/-- One row: scores real or masked, the first never masked, everything past the query position masked, values
    real.  The streaming form over the tiles up to the query's own equals the softmax-weighted sum. -/
theorem stream_eq_ref (ms4 vv4 : Fin 4096 → EReal) (t : Fin 4096) (hs : ∀ s, ms4 s ≠ ⊤) (h0 : ms4 0 ≠ ⊥)
    (hmask : ∀ s : Fin 4096, t.val < s.val → ms4 s = ⊥) (hv : ∀ s, ∃ r : ℝ, vv4 s = (r : EReal)) :
    kerOut (run (tiles ms4) (tiles vv4) (t.val / 1024 + 1)).2.1
        (run (tiles ms4) (tiles vv4) (t.val / 1024 + 1)).2.2
      = refRow ms4 vv4 := by
  have ht := t.isLt
  obtain ⟨n, hn⟩ : ∃ n, n = t.val / 1024 + 1 := ⟨_, rfl⟩
  rw [← hn]
  have hn4 : n ≤ 4 := by omega
  have hn0 : 0 < n := by omega
  have htile : ∀ j (hj : j < 4) c, tiles ms4 j c = ms4 (col ⟨j, hj⟩ c) := fun j hj c => tiles_val ms4 ⟨j, hj⟩ c
  have hsT : ∀ j < 4, ∀ c, tiles ms4 j c ≠ ⊤ := fun j hj c => by rw [htile j hj]; exact hs _
  have hvT : ∀ j < 4, ∀ c, tiles vv4 j c = ((tiles vv4 j c).toReal : EReal) := by
    intro j hj c
    rw [tiles_val vv4 ⟨j, hj⟩ c]
    obtain ⟨r, hr⟩ := hv (col ⟨j, hj⟩ c)
    rw [hr, EReal.toReal_coe]
  have h00 : tiles ms4 0 0 ≠ ⊥ := by
    rw [htile 0 (by norm_num)]
    exact h0
  obtain ⟨hL, hA⟩ := run_inv (tiles ms4) (tiles vv4) 4 hsT hvT h00 n hn4
  -- the reference's maximum is the streaming one
  have hR : rowMax ms4 = supTo (tiles ms4) n := by
    have h1 : rowMax ms4 = Finset.univ.sup ms4 := max_eq_right bot_le
    rw [h1]
    apply le_antisymm
    · refine Finset.sup_le fun s _ => ?_
      by_cases hst : s.val ≤ t.val
      · have hj : s.val / 1024 < n := by omega
        have hj4 : s.val / 1024 < 4 := by omega
        have h2 : ms4 s = tiles ms4 (s.val / 1024) ⟨s.val % 1024, Nat.mod_lt _ (by norm_num)⟩ := by
          rw [htile _ hj4]
          congr 1
          refine Fin.ext ?_
          show s.val = s.val / 1024 * 1024 + s.val % 1024
          omega
        rw [h2]
        exact le_supTo _ hj _
      · rw [hmask s (by omega)]
        exact bot_le
    · refine Finset.sup_le fun j hj => Finset.sup_le fun c _ => ?_
      have hj4 : j < 4 := by have := Finset.mem_range.1 hj; omega
      rw [htile j hj4]
      exact Finset.le_sup (Finset.mem_univ _)
  have hRt : supTo (tiles ms4) n ≠ ⊤ := supTo_ne_top _ n fun j hj => hsT j (by omega)
  have hRb : supTo (tiles ms4) n ≠ ⊥ := supTo_ne_bot _ hn0 h00
  obtain ⟨R, hRdef⟩ : ∃ R : ℝ, R = (supTo (tiles ms4) n).toReal := ⟨_, rfl⟩
  rw [← hRdef] at hL hA
  have hRcoe : rowMax ms4 = (R : EReal) := by rw [hR, hRdef, EReal.coe_toReal hRt hRb]
  -- the sums over the first tiles are the sums over the whole row
  have hzero : ∀ j, n ≤ j → ∀ hj : j < 4, ∀ c : Fin 1024, tiles ms4 j c = ⊥ := by
    intro j hnj hj c
    rw [htile j hj]
    refine hmask _ ?_
    show t.val < j * 1024 + c.val
    omega
  have hLZ : ∑ s, ew (ms4 s) R = ∑ j ∈ Finset.range n, ∑ c, ew (tiles ms4 j c) R :=
    sum_tiles (fun j c => ew (tiles ms4 j c) R) (fun s => ew (ms4 s) R)
      (fun j c => by show ew (tiles ms4 j.val c) R = _; rw [tiles_val]) n hn4
      (fun j hnj hj c => by show ew (tiles ms4 j c) R = 0; rw [hzero j hnj hj c, ew_bot])
  have hAB : ∑ s, ew (ms4 s) R * (vv4 s).toReal
      = ∑ j ∈ Finset.range n, ∑ c, ew (tiles ms4 j c) R * (tiles vv4 j c).toReal :=
    sum_tiles (fun j c => ew (tiles ms4 j c) R * (tiles vv4 j c).toReal) (fun s => ew (ms4 s) R * (vv4 s).toReal)
      (fun j c => by
        show ew (tiles ms4 j.val c) R * (tiles vv4 j.val c).toReal = _
        rw [tiles_val, tiles_val]) n hn4
      (fun j hnj hj c => by
        show ew (tiles ms4 j c) R * (tiles vv4 j c).toReal = 0
        rw [hzero j hnj hj c, ew_bot, zero_mul])
  rw [← hLZ] at hL
  rw [← hAB] at hA
  -- the sum of weights is positive: the first column is never masked
  have hZ : 0 < ∑ s, ew (ms4 s) R :=
    Finset.sum_pos' (fun s _ => ew_nonneg _ _) ⟨0, Finset.mem_univ _, ew_pos h0 R⟩
  -- the streaming side
  rw [hL, hA, kerOut, if_pos (EReal.coe_pos.2 hZ), Ideal.div_coe hZ.ne', ← EReal.coe_mul]
  -- the reference side
  have hterm : ∀ s, Ideal.div (Ideal.exp (ms4 s - rowMax ms4)) (0 + ∑ s' : Fin 4096, Ideal.exp (ms4 s' - rowMax ms4))
      * vv4 s = ((ew (ms4 s) R * (1 / ∑ s', ew (ms4 s') R) * (vv4 s).toReal : ℝ) : EReal) := by
    intro s
    have hsum : (0 : EReal) + ∑ s' : Fin 4096, Ideal.exp (ms4 s' - rowMax ms4)
        = ((∑ s', ew (ms4 s') R : ℝ) : EReal) := by
      rw [zero_add, coe_sum, hRcoe]
      exact Finset.sum_congr rfl fun s' _ => exp_sub_coe (ms4 s') (hs s') R
    obtain ⟨r, hr⟩ := hv s
    rw [hsum, Ideal.div_coe hZ.ne', hRcoe, exp_sub_coe (ms4 s) (hs s) R, hr, EReal.toReal_coe, EReal.coe_mul,
      EReal.coe_mul]
  rw [refRow, Finset.sum_congr rfl fun s _ => hterm s, ← coe_sum]
  congr 1
  rw [Finset.sum_mul]
  refine Finset.sum_congr rfl fun s _ => ?_
  ring

/-! ## The two forms agree at every entry -/

/-- On finite inputs the streaming form and the reference agree at every entry. -/
theorem kerAt_eq_refAt (x : SX.Idx → EReal) (wk wq wv : SW.Idx → EReal)
    (hx : ∀ i, ∃ r : ℝ, x i = (r : EReal)) (hwk : ∀ i, ∃ r : ℝ, wk i = (r : EReal))
    (hwq : ∀ i, ∃ r : ℝ, wq i = (r : EReal)) (hwv : ∀ i, ∃ r : ℝ, wv i = (r : EReal))
    (b : Fin 8) (t : Fin 4096) (h : Fin 64) :
    kerAt x wk wq wv b t h = refAt x wk wq wv b t h := by
  have hsc : ∀ s, ∃ r : ℝ, score (proj x wq) (proj x wk) b t s = (r : EReal) := fun s =>
    score_real _ _ (fun b t h => proj_real x wq hx hwq b t h) (fun b t h => proj_real x wk hx hwk b t h) b t s
  refine stream_eq_ref (fun s => masked (proj x wq) (proj x wk) b t s) (fun s => proj x wv b s h) t ?_ ?_ ?_ ?_
  · intro s
    show masked (proj x wq) (proj x wk) b t s ≠ ⊤
    obtain ⟨r, hr⟩ := hsc s
    rw [masked, hr]
    split_ifs
    · exact EReal.coe_ne_top r
    · exact bot_ne_top
  · show masked (proj x wq) (proj x wk) b t 0 ≠ ⊥
    obtain ⟨r, hr⟩ := hsc 0
    rw [masked, hr, if_pos (by simp)]
    exact EReal.coe_ne_bot r
  · intro s hst
    show masked (proj x wq) (proj x wk) b t s = ⊥
    rw [masked, if_neg (by omega)]
  · intro s
    exact proj_real x wv hx hwv b s h

end Cert.Attn

end
-- ==== Proof.RefValue.lean ====
/-
  The reference program's result, read at an index, is the textbook attention `Cert.Attn.refAt` of its arguments.
-/
import proofs.«402720_j7730941132963_3_alg».proof.Proof.Gen.ReferenceIdeal.Read
import proofs.«402720_j7730941132963_3_alg».proof.Proof.AttnSpec
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate (sge_iff_toNat)
open Cert.Attn

/-- The activations and a weight matrix, as arrays of extended reals. -/
abbrev AX := (⟨S8x4096x1024, .f32⟩ : BufTy).Contents (Elt Ideal)
abbrev AW := (⟨S1024x64, .f32⟩ : BufTy).Contents (Elt Ideal)

/-! ## The word of `-∞` -/

/-- The word `0xFF800000` is `-∞`. -/
theorem ofBits_neg_inf : Ideal.ofBits .f32 0xFF800000#32 = (⊥ : EReal) := by
  simp [Ideal.ofBits, Ideal.ieee]

/-! ## Index equations: each operand index, at a result index given by coordinates, by coordinates -/

section Idx
variable (b : Fin 8) (t s : Fin 4096) (h : Fin 64)

theorem lidx_v0 (k : Fin 1024) : lidx_main_v0 (ix3 b t h) k = ix3 b t k :=
  funext fun a => Fin.ext (by match a with | ⟨0, _⟩ => rfl | ⟨1, _⟩ => rfl | ⟨2, _⟩ => rfl)
theorem ridx_v0 (k : Fin 1024) : ridx_main_v0 (ix3 b t h) k = ix2 k h :=
  funext fun a => Fin.ext (by match a with | ⟨0, _⟩ => rfl | ⟨1, _⟩ => rfl)
theorem lidx_v1 (k : Fin 1024) : lidx_main_v1 (ix3 b t h) k = ix3 b t k :=
  funext fun a => Fin.ext (by match a with | ⟨0, _⟩ => rfl | ⟨1, _⟩ => rfl | ⟨2, _⟩ => rfl)
theorem ridx_v1 (k : Fin 1024) : ridx_main_v1 (ix3 b t h) k = ix2 k h :=
  funext fun a => Fin.ext (by match a with | ⟨0, _⟩ => rfl | ⟨1, _⟩ => rfl)
theorem lidx_v2 (k : Fin 1024) : lidx_main_v2 (ix3 b t h) k = ix3 b t k :=
  funext fun a => Fin.ext (by match a with | ⟨0, _⟩ => rfl | ⟨1, _⟩ => rfl | ⟨2, _⟩ => rfl)
theorem ridx_v2 (k : Fin 1024) : ridx_main_v2 (ix3 b t h) k = ix2 k h :=
  funext fun a => Fin.ext (by match a with | ⟨0, _⟩ => rfl | ⟨1, _⟩ => rfl)
theorem lidx_v3 (k : Fin 64) : lidx_main_v3 (ix3 b t s) k = ix3 b t k :=
  funext fun a => Fin.ext (by match a with | ⟨0, _⟩ => rfl | ⟨1, _⟩ => rfl | ⟨2, _⟩ => rfl)
theorem ridx_v3 (k : Fin 64) : ridx_main_v3 (ix3 b t s) k = ix3 b s k :=
  funext fun a => Fin.ext (by match a with | ⟨0, _⟩ => rfl | ⟨1, _⟩ => rfl | ⟨2, _⟩ => rfl)
theorem idx_c1v1 : idx_main_call1_v1 (ix3 b t s) = ix2 t s :=
  funext fun a => Fin.ext (by match a with | ⟨0, _⟩ => rfl | ⟨1, _⟩ => rfl)
theorem idx_v13 : idx_main_v12 (idx_main_v13 (ix3 b t s)) = ix2 b t :=
  funext fun a => Fin.ext (by match a with | ⟨0, _⟩ => rfl | ⟨1, _⟩ => rfl)
theorem idx_v18 : idx_main_v17 (idx_main_v18 (ix3 b t s)) = ix2 b t :=
  funext fun a => Fin.ext (by match a with | ⟨0, _⟩ => rfl | ⟨1, _⟩ => rfl)
theorem idx_v16 (k : Fin 4096) : idx_main_v16 (ix2 b t) k = ix3 b t k :=
  funext fun a => Fin.ext (by match a with | ⟨0, _⟩ => rfl | ⟨1, _⟩ => rfl | ⟨2, _⟩ => rfl)
theorem lidx_v20 (k : Fin 4096) : lidx_main_v20 (ix3 b t h) k = ix3 b t k :=
  funext fun a => Fin.ext (by match a with | ⟨0, _⟩ => rfl | ⟨1, _⟩ => rfl | ⟨2, _⟩ => rfl)
theorem ridx_v20 (k : Fin 4096) : ridx_main_v20 (ix3 b t h) k = ix3 b k h :=
  funext fun a => Fin.ext (by match a with | ⟨0, _⟩ => rfl | ⟨1, _⟩ => rfl | ⟨2, _⟩ => rfl)

end Idx

/-! ## The three projections -/

theorem v0_at (x0 : AX) (x1 : AW) (b : Fin 8) (t : Fin 4096) (h : Fin 64) :
    val_main_v0 (F := Ideal) x0 x1 (ix3 b t h) = proj x0 x1 b t h := by
  rw [val_main_v0_apply]; simp only [lidx_v0, ridx_v0]; rfl

theorem v1_at (x0 : AX) (x2 : AW) (b : Fin 8) (t : Fin 4096) (h : Fin 64) :
    val_main_v1 (F := Ideal) x0 x2 (ix3 b t h) = proj x0 x2 b t h := by
  rw [val_main_v1_apply]; simp only [lidx_v1, ridx_v1]; rfl

theorem v2_at (x0 : AX) (x3 : AW) (b : Fin 8) (t : Fin 4096) (h : Fin 64) :
    val_main_v2 (F := Ideal) x0 x3 (ix3 b t h) = proj x0 x3 b t h := by
  rw [val_main_v2_apply]; simp only [lidx_v2, ridx_v2]; rfl

/-! ## The scaled scores -/

theorem v5_at (x0 : AX) (x1 x2 : AW) (b : Fin 8) (t s : Fin 4096) :
    val_main_v5 (F := Ideal) x0 x1 x2 (ix3 b t s) = score (proj x0 x2) (proj x0 x1) b t s := by
  rw [val_main_v5_apply, val_main_v3_apply, val_main_v4_apply, val_main_cst_apply]
  simp only [lidx_v3, ridx_v3, v1_at, v0_at, Ideal.mulf_def, Ideal.ofBits_def]
  rfl

/-! ## The causal mask -/

/-- The mask bit at `(t, s)`: row index at least column index, as signed 32-bit words below 4096. -/
theorem v7_at (t s : Fin 4096) :
    val_main_v7 (F := Ideal) (ix2 t s) = if s.val ≤ t.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  have ht : (BitVec.ofNat 32 t.val).toNat = t.val := by
    rw [BitVec.toNat_ofNat]; exact Nat.mod_eq_of_lt (by have := t.isLt; omega)
  have hs : (BitVec.ofNat 32 s.val).toNat = s.val := by
    rw [BitVec.toNat_ofNat]; exact Nat.mod_eq_of_lt (by have := s.isLt; omega)
  have h0 : IntOp.addi (BitVec.ofNat 32 t.val) 0#32 = BitVec.ofNat 32 t.val := by
    show BitVec.ofNat 32 t.val + 0#32 = _; exact BitVec.add_zero _
  show Scalar.select (IntOp.cmpi .sge (IntOp.addi (BitVec.ofNat 32 t.val) 0#32) (BitVec.ofNat 32 s.val)) 1#1 0#1 = _
  rw [h0]
  have hc := sge_iff_toNat (a := BitVec.ofNat 32 t.val) (b := BitVec.ofNat 32 s.val)
    (by rw [ht]; have := t.isLt; omega) (by rw [hs]; have := s.isLt; omega)
  rw [ht, hs] at hc
  by_cases hst : s.val ≤ t.val
  · rw [hc.2 hst, select_one, if_pos hst]
  · rw [eq_zero_of_ne_one (fun e => hst (hc.1 e)), select_zero, if_neg hst]

/-- The masked scores. -/
theorem v8_at (x0 : AX) (x1 x2 : AW) (b : Fin 8) (t s : Fin 4096) :
    val_main_v8 (F := Ideal) x0 x1 x2 (ix3 b t s) = masked (proj x0 x2) (proj x0 x1) b t s := by
  rw [val_main_v8_apply, val_main_call1_v1_apply, idx_c1v1, v7_at, v5_at, val_main_call1_v2_apply,
    val_main_call1_v0_apply, val_main_cst_0_apply, Ideal.ofBits_def, ofBits_neg_inf]
  unfold masked
  by_cases hst : s.val ≤ t.val
  · rw [if_pos hst, if_pos hst, select_one]
  · rw [if_neg hst, if_neg hst, select_zero]

/-! ## The row maximum -/

theorem red2 : S8x4096x4096.Reduces [2] S8x4096 := by decide

theorem lift_at (b : Fin 8) (t s : Fin 4096) : red2.lift (ix2 b t) s = ix3 b t s :=
  funext fun a => Fin.ext (by match a with | ⟨0, _⟩ => rfl | ⟨1, _⟩ => rfl | ⟨2, _⟩ => rfl)

/-- The reduction with `maximum` over the key axis is the fold of `max` from `-∞` over the 4096 masked scores of the row. -/
theorem v9_at (x0 : AX) (x1 x2 : AW) (b : Fin 8) (t : Fin 4096) :
    val_main_v9 (F := Ideal) x0 x1 x2 (ix2 b t)
      = (Finset.univ : Finset (Fin 4096)).fold max ⊥ (fun s => masked (proj x0 x2) (proj x0 x1) b t s) := by
  unfold val_main_v9
  refine (Host.reduce_eq_fold_single FloatOps.maximumf _ _ reducesTo_S8x4096x4096_S8x4096_d2 red2 h_S_ (ix2 b t)).trans ?_
  show (Finset.univ : Finset (Fin 4096)).fold max (Ideal.ofBits .f32 0xFF800000#32)
    (fun s => val_main_v8 (F := Ideal) x0 x1 x2 (red2.lift (ix2 b t) s)) = _
  rw [ofBits_neg_inf]
  refine congrArg (Finset.fold max ⊥ · Finset.univ) (funext fun (s : Fin 4096) => ?_)
  rw [lift_at, v8_at]

/-- The row maximum as the program takes it: `max` of `-∞` and the reduction. -/
theorem v11_at (x0 : AX) (x1 x2 : AW) (b : Fin 8) (t : Fin 4096) :
    val_main_v11 (F := Ideal) x0 x1 x2 (ix2 b t) = rowMax (fun s => masked (proj x0 x2) (proj x0 x1) b t s) := by
  rw [val_main_v11_apply, val_main_v10_apply, val_main_cst_2_apply, v9_at, Ideal.ofBits_def, ofBits_neg_inf,
    Ideal.maximumf_def]
  rfl

/-! ## The exponentials, their sum, the weights -/

theorem v15_at (x0 : AX) (x1 x2 : AW) (b : Fin 8) (t s : Fin 4096) :
    val_main_v15 (F := Ideal) x0 x1 x2 (ix3 b t s)
      = Ideal.exp (masked (proj x0 x2) (proj x0 x1) b t s - rowMax (fun s' => masked (proj x0 x2) (proj x0 x1) b t s')) := by
  rw [val_main_v15_apply, val_main_v14_apply, val_main_v13_apply, val_main_v12_apply, idx_v13, v11_at, v8_at,
    Ideal.hostUnary_exp_def, Ideal.subf_def]

theorem v16_at (x0 : AX) (x1 x2 : AW) (b : Fin 8) (t : Fin 4096) :
    val_main_v16 (F := Ideal) x0 x1 x2 (ix2 b t)
      = 0 + ∑ s' : Fin 4096, Ideal.exp (masked (proj x0 x2) (proj x0 x1) b t s'
          - rowMax (fun s'' => masked (proj x0 x2) (proj x0 x1) b t s'')) := by
  rw [val_main_v16_apply, val_main_cst_3_apply, Ideal.ofBits_def, Ideal.ofBits_zero_f32]
  simp only [idx_v16, v15_at]

theorem v19_at (x0 : AX) (x1 x2 : AW) (b : Fin 8) (t s : Fin 4096) :
    val_main_v19 (F := Ideal) x0 x1 x2 (ix3 b t s)
      = Ideal.div (Ideal.exp (masked (proj x0 x2) (proj x0 x1) b t s - rowMax (fun s' => masked (proj x0 x2) (proj x0 x1) b t s')))
          (0 + ∑ s' : Fin 4096, Ideal.exp (masked (proj x0 x2) (proj x0 x1) b t s'
            - rowMax (fun s'' => masked (proj x0 x2) (proj x0 x1) b t s''))) := by
  rw [val_main_v19_apply, val_main_v18_apply, val_main_v17_apply, idx_v18, v16_at, v15_at, Ideal.hostDivf_def]

/-! ## The result -/

/-- Entry `(b, t, h)` of the reference's result (argument 1 is the key weight, 2 the query weight, 3 the value weight). -/
theorem ref_apply (x0 : (⟨S8x4096x1024, .f32⟩ : BufTy).Contents (Elt Ideal)) (x1 x2 x3 : (⟨S1024x64, .f32⟩ : BufTy).Contents (Elt Ideal))
    (b : Fin 8) (t : Fin 4096) (h : Fin 64) :
    Cert.ReferenceIdeal.Read.val_main_v20 x0 x1 x2 x3 (ix3 b t h) = Cert.Attn.refAt x0 x1 x2 x3 b t h := by
  rw [val_main_v20_apply]
  simp only [lidx_v20, ridx_v20, v19_at, v2_at]
  rfl

end Cert.ReferenceIdeal.RefValue

end
-- ==== Proof.Finite.lean ====
/-
  The precondition "every float input is finite", decoded: every entry of the four argument arrays is a real number.
-/
import proofs.«402720_j7730941132963_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Idealize.ShloMosaic Cert.Pre_finite_inputs Cert.Pre_finite_inputs.Gen

/-- A rank-zero shape has a single index. -/
instance subsingleton_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value `max x (-x)` lies strictly below `+∞` is a real number:
    at `⊥` and at `⊤` the maximum is `⊤`. -/
theorem real_of_abs_lt (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One entry of the comparison `|x| < +∞` being one says that entry of `x` is real. -/
theorem real_of_cmp {s : Shape} (bc : S_.BroadcastsInDim s (![] : Fin 0 → Fin s.rank)) (x : FVec Ideal s .f32) (i : s.Idx)
    (h : cmpf .olt (Host.absf x) (broadcastInDim s ![] bc (constant S_ .f32 0x7F800000#32)) i = 1#1) :
    ∃ r : ℝ, x i = (r : EReal) := by
  refine real_of_abs_lt (x i) ?_
  rw [← inf_word]
  exact h

/-- If the printed predicate is all ones at the ideal instance, every entry of each argument is real. -/
theorem real_of_pre (x0 : FVec Ideal S8x4096x1024 .f32) (x1 x2 x3 : FVec Ideal S1024x64 .f32)
    (hpre : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h := congrFun hpre ValueIdx.ix0
  dsimp only [fn, fn_part1] at h
  obtain ⟨h012, h3⟩ := IntOp.andi_eq_one.1 h
  obtain ⟨h01, h2⟩ := IntOp.andi_eq_one.1 h012
  obtain ⟨h0, h1⟩ := IntOp.andi_eq_one.1 h01
  refine ⟨fun i => ?_, fun i => ?_, fun i => ?_, fun i => ?_⟩
  · exact real_of_cmp _ x0 i (Host.reduce_andi_all _ _ _ _ _ h0 i)
  · exact real_of_cmp _ x1 i (Host.reduce_andi_all _ _ _ _ _ h1 i)
  · exact real_of_cmp _ x2 i (Host.reduce_andi_all _ _ _ _ _ h2 i)
  · exact real_of_cmp _ x3 i (Host.reduce_andi_all _ _ _ _ _ h3 i)

end Cert.Pre_finite_inputs.Decode

end
-- ==== Proof.Final.lean ====
/-
  The certificate's claims about the idealized kernel and the idealized reference, assembled: each runs and leaves
  its arguments unchanged; the one named constant of the idealization has its table's value; and from memories that
  agree on the four arguments, all finite, the two programs end with the same result array. The last is the chain:
  the kernel's result array is the streaming form of attention of its arguments, the streaming form equals the
  softmax-weighted sum on finite inputs, and the reference's result is that sum.
-/
import proofs.«402720_j7730941132963_3_alg».proof.Defs
import proofs.«402720_j7730941132963_3_alg».proof.Proof.Run
import proofs.«402720_j7730941132963_3_alg».proof.Proof.R1Value
import proofs.«402720_j7730941132963_3_alg».proof.Proof.Bridge
import proofs.«402720_j7730941132963_3_alg».proof.Proof.R0Value
import proofs.«402720_j7730941132963_3_alg».proof.Proof.AttnMath
import proofs.«402720_j7730941132963_3_alg».proof.Proof.RefValue
import proofs.«402720_j7730941132963_3_alg».proof.Proof.Finite
import proofs.«402720_j7730941132963_3_alg».proof.Proof.Gen.ReferenceIdeal.Run
import proofs.«402720_j7730941132963_3_alg».proof.Proof.Gen.ReferenceIdeal.Read
import proofs.«402720_j7730941132963_3_alg».proof.Proof.Gen.Pre_finite_inputs
import proofs.«402720_j7730941132963_3_alg».proof.Proof.Gen.KernelIdeal
import proofs.«402720_j7730941132963_3_alg».proof.Proof.Gen.ReferenceIdeal

set_option maxRecDepth 16384

noncomputable section

namespace Cert.Proof.Claims

open Idealize.ShloMosaic Idealize.ShloMosaic.TcCoe Idealize.ShloMosaic.ValueIdx Idealize.SL.Sem
open Cert.KernelIdeal Cert.KernelIdeal.Gen Cert.KernelIdeal.Hand

/-! ## The kernel's result array is the reference's, on finite arguments -/

section Result

variable (m : (ℓ : Loc nD τ sig) → Buf (Elt Ideal) ℓ) (ρ : Dev nD → PrngReg) (c : Dev nD)

/-- The four arguments on core `c`, as arrays of extended reals. -/
abbrev a0 : Cert.Attn.SX.Idx → EReal := m ((c : Thread nD τ).loc main_arg0)
abbrev a1 : Cert.Attn.SW.Idx → EReal := m ((c : Thread nD τ).loc main_arg1)
abbrev a2 : Cert.Attn.SW.Idx → EReal := m ((c : Thread nD τ).loc main_arg2)
abbrev a3 : Cert.Attn.SW.Idx → EReal := m ((c : Thread nD τ).loc main_arg3)

/-- The three arrays the attention region reads are the projections of the first argument by the query, key and
    value weights (the third, second and fourth arguments). -/
theorem hq (b : Fin 8) (t : Fin 4096) (h : Fin 64) :
    V2 m ρ c main_v1_0 (ix3 b t h) = Cert.Attn.proj (a0 m c) (a2 m c) b t h := by
  rw [V2_main_v1_0]
  exact q_is_proj (V1 m ρ) c (a0 m c) (a2 m c) (a1 m c) (a3 m c) (V1_main_arg0 m ρ c) (V1_main_v0 m ρ c) b t h
theorem hk (b : Fin 8) (t : Fin 4096) (h : Fin 64) :
    V2 m ρ c main_v1_1 (ix3 b t h) = Cert.Attn.proj (a0 m c) (a1 m c) b t h := by
  rw [V2_main_v1_1]
  exact k_is_proj (V1 m ρ) c (a0 m c) (a2 m c) (a1 m c) (a3 m c) (V1_main_arg0 m ρ c) (V1_main_v0 m ρ c) b t h
theorem hv (b : Fin 8) (t : Fin 4096) (h : Fin 64) :
    V2 m ρ c main_v1_2 (ix3 b t h) = Cert.Attn.proj (a0 m c) (a3 m c) b t h := by
  rw [V2_main_v1_2]
  exact v_is_proj (V1 m ρ) c (a0 m c) (a2 m c) (a1 m c) (a3 m c) (V1_main_arg0 m ρ c) (V1_main_v0 m ρ c) b t h

/-- On finite arguments the result buffer ends at the reference's result of the same arguments: entry by entry, the
    streaming form the attention region leaves equals the softmax-weighted sum the reference computes. -/
theorem result_eq
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1)) :
    W3 m ρ c (Proc.devRef .tc main_v2)
      = Cert.ReferenceIdeal.Read.val_main_v20 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨h0, h1, h2, h3⟩ := Cert.Pre_finite_inputs.Decode.real_of_pre _ _ _ _ hpre
  funext i
  rw [eq_ix3 i, W3_main_v2]
  exact ((arr1_out (V2 m ρ) c (a0 m c) (a1 m c) (a2 m c) (a3 m c) (hq m ρ c) (hk m ρ c) (hv m ρ c) (i 0) (i 1) (i 2)).trans
    (Cert.Attn.kerAt_eq_refAt (a0 m c) (a1 m c) (a2 m c) (a3 m c) h0 h1 h2 h3 (i 0) (i 1) (i 2))).trans
    (Cert.ReferenceIdeal.RefValue.ref_apply _ _ _ _ (i 0) (i 1) (i 2)).symm

end Result

/-! ## The claims -/

/-- The idealized kernel runs and its arguments end as launched. -/
theorem frame_pi : Cert.frame_KernelIdeal := fun m ρ _ =>
  (θ_run Cert.KernelIdeal.defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩)
    (Cert.KernelIdeal.Hand.run_main (F := Ideal) m ρ)

/-- The idealized reference runs and its arguments end as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one entry: the table gives the mask constant the value `-∞`, and the printed constant is that
    value on the extended reals. -/
theorem preserves : Cert.preserves_Kernel_KernelIdeal :=
  IdealRules.named_const.statement Cert.KernelIdeal.κ "neg_big" .f32 0xFF333332#32 ⊥ rfl

/-- From memories that agree on the four arguments, all finite, the idealized kernel and the idealized reference both
    run, leave their arguments unchanged and end with the same result array. -/
theorem algebraic : Cert.algebraic_KernelIdeal_ReferenceIdeal := by
  intro m ρ m' ρ' hpre hagree
  refine ⟨fun c => W3 m ρ c (Proc.devRef .tc main_v2), ?_, ?_⟩
  · exact (θ_run Cert.KernelIdeal.defs _ _).mono (fun r h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2.1, (hagree c).2.2.1, (hagree c).2.2.2]
    exact (result_eq m ρ c (hpre c)).symm

end Cert.Proof.Claims

end
-- ==== Proof.FinalBits.lean ====
/-
  The frame claim of the kernel program as printed (at the bit-exact instance): from any launch memory every weakly
  fair execution of @main terminates, and the four argument arrays end as launched. It is the run of the two regions
  after the host stretch, read at the four arguments: every unscoped buffer ends at the last boundary's contents,
  and at an argument those are the launch contents.
-/
import proofs.«402720_j7730941132963_3_alg».proof.Defs
import proofs.«402720_j7730941132963_3_alg».proof.Proof.Gen.Kernel
import proofs.«402720_j7730941132963_3_alg».proof.Proof.Gen.Pre_finite_inputs
import proofs.«402720_j7730941132963_3_alg».proof.Proof.BRun

noncomputable section

namespace Cert.Proof.Claims

open Idealize.ShloMosaic Idealize.ShloMosaic.TcCoe Idealize.SL.Sem

theorem frame_p : Cert.frame_Kernel := fun m ρ _ =>
  (θ_run (Cert.Kernel.defs (F := Bits)) _ _).mono
    (fun r h c =>
      ⟨(h c _ (Cert.Kernel.Hand.mem_uc Cert.Kernel.main_arg0 (by decide))).trans (Cert.Kernel.Hand.W3_main_arg0 m ρ c),
       (h c _ (Cert.Kernel.Hand.mem_uc Cert.Kernel.main_arg1 (by decide))).trans (Cert.Kernel.Hand.W3_main_arg1 m ρ c),
       (h c _ (Cert.Kernel.Hand.mem_uc Cert.Kernel.main_arg2 (by decide))).trans (Cert.Kernel.Hand.W3_main_arg2 m ρ c),
       (h c _ (Cert.Kernel.Hand.mem_uc Cert.Kernel.main_arg3 (by decide))).trans (Cert.Kernel.Hand.W3_main_arg3 m ρ c)⟩)
    (Cert.Kernel.Hand.run_main (F := Bits) m ρ)

end Cert.Proof.Claims

end
-- ==== Proof.lean ====
/-
  Causal single-head attention (batch 8, 4096 positions, embedding 1024, head size 64): a two-kernel program against
  the textbook reference.

  The program first projects `x` by the concatenated query, key and value weights in one matmul per block of 2048 rows
  and writes the three projections. It then runs flash attention over the ten lower-triangular pairs of 1024-row
  query and key tiles of each batch row, the pairs listed in constant tables: per query tile it keeps a running row
  maximum, a running sum of weights and a running weighted sum of values, rescaled by `exp (M - M')` whenever the
  maximum moves, resets them at the tile's first pair and writes the quotient at its last. Masked scores are a large
  negative constant the idealized program reads as `-∞`, so a masked column weighs `exp (-∞) = 0`.

  On the extended reals, with finite inputs, this is the reference's `softmax (q kᵀ / 8 + mask) v`: every projection
  and score is a real number, column 0 is never masked, so the running maximum is real from the first pair on; the
  rescaling identity `exp (M - M') · exp (s - M) = exp (s - M')` makes the streaming sums equal to the sums against
  the final maximum; the sum of weights is positive; and the quotient of the weighted sum by the sum of weights is
  the sum of the normalised weights times the values by distributivity over the reals.

  The modules: `AttnSpec` (both forms as functions), `AttnMath` (their equality), `RefValue` (the reference program is
  the textbook form), `Finite` (the precondition gives real entries), `R0Body` / `R0Value` (the projection kernel at
  a grid point, and its three output arrays), `R1Sched` (the tables and the schedule they induce), `R1Body` (the
  attention kernel at a grid point over its carried state), `R1Payload` / `R1Value` (that state entry by entry, and
  the output array), `Run` (the whole program as host operations and two kernel regions), `Bridge` and `Final` (the
  claims). The word-level program terminates and leaves its arguments unchanged by the same run read at the word-level instance: nothing in it depends on what a float operation computes.
-/
import proofs.«402720_j7730941132963_3_alg».proof.Defs
import proofs.«402720_j7730941132963_3_alg».proof.Proof.Gen.Kernel
import proofs.«402720_j7730941132963_3_alg».proof.Proof.Gen.KernelIdeal
import proofs.«402720_j7730941132963_3_alg».proof.Proof.Gen.ReferenceIdeal
import proofs.«402720_j7730941132963_3_alg».proof.Proof.Gen.Pre_finite_inputs
import proofs.«402720_j7730941132963_3_alg».proof.Proof.Final
import proofs.«402720_j7730941132963_3_alg».proof.Proof.FinalBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
